-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8192 : Shape := ⟨1, ![8192]⟩
abbrev S4096x8192 : Shape := ⟨2, ![4096, 8192]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8192 : S_.BroadcastsInDim S8192 (![] : Fin 0 → Fin S8192.rank)
  reducesTo_S8192_S_d0 : S8192.ReducesTo [0] S_
  bcast_S_S4096x8192 : S_.BroadcastsInDim S4096x8192 (![] : Fin 0 → Fin S4096x8192.rank)
  reducesTo_S4096x8192_S_d0_1 : S4096x8192.ReducesTo [0, 1] S_

variable [Facts]

def fn_part1 {F : FTy → Type} [FloatOps F] (main_arg4 : FVec F S4096x8192 .f32) (main_v13 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v13 main_v17
  let main_v19 : FVec F S4096x8192 .f32 := Host.absf main_arg4
  let main_cst_6 : FVec F S_ .f32 := constant S_ .f32 0x7F800000#32
  let main_v20 : FVec F S4096x8192 .f32 := broadcastInDim S4096x8192 ![] bcast_S_S4096x8192 main_cst_6
  let main_v21 : IVec S4096x8192 1 := cmpf .olt main_v19 main_v20
  let main_c_7 : IVec S_ 1 := constantI S_ 1 1#1
  let main_v22 : IVec S_ 1 := (fun x v => Host.reduce IntOp.andi x v reducesTo_S4096x8192_S_d0_1 h_S_) main_v21 main_c_7
  let main_v23 : IVec S_ 1 := andi main_v18 main_v22
  main_v23

def fn {F : FTy → Type} [FloatOps F] (main_arg0 : FVec F S8192x4096 .f32) (main_arg1 : FVec F S8192x4096 .f32) (main_arg2 : FVec F S8192 .f32) (main_arg3 : FVec F S8192 .f32) (main_arg4 : FVec F S4096x8192 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S8192 .f32 := Host.absf main_arg3
  let main_cst_4 : FVec F S_ .f32 := constant S_ .f32 0x7F800000#32
  let main_v15 : FVec F S8192 .f32 := broadcastInDim S8192 ![] bcast_S_S8192 main_cst_4
  let main_v16 : IVec S8192 1 := cmpf .olt main_v14 main_v15
  fn_part1 (F := F) main_arg4 main_v13 main_v16
-- ==== Kernel.lean ====
abbrev S8192x4096 : Shape := ⟨2, ![8192, 4096]⟩
abbrev S8192 : Shape := ⟨1, ![8192]⟩
abbrev S4096x8192 : Shape := ⟨2, ![4096, 8192]⟩
abbrev S8192x1 : Shape := ⟨2, ![8192, 1]⟩
abbrev S1x8192 : Shape := ⟨2, ![1, 8192]⟩
abbrev S8192x8192 : Shape := ⟨2, ![8192, 8192]⟩
abbrev S1024x1024 : Shape := ⟨2, ![1024, 1024]⟩
abbrev S1024x1 : Shape := ⟨2, ![1024, 1]⟩
abbrev S1x1024 : Shape := ⟨2, ![1, 1024]⟩

abbrev nBuf : Space → Nat
  | .hbm => 11
  | .vmem => 18
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192, .f32⟩
  | .hbm, ⟨3, _⟩ => ⟨S8192, .f32⟩
  | .hbm, ⟨4, _⟩ => ⟨S4096x8192, .f32⟩
  | .hbm, ⟨5, _⟩ => ⟨S8192x1, .f32⟩
  | .hbm, ⟨6, _⟩ => ⟨S1x8192, .f32⟩
  | .hbm, ⟨7, _⟩ => ⟨S8192x4096, .bf16⟩
  | .hbm, ⟨8, _⟩ => ⟨S4096x8192, .bf16⟩
  | .hbm, ⟨9, _⟩ => ⟨S8192x8192, .bf16⟩
  | .hbm, ⟨10, _⟩ => ⟨S8192x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15

abbrev nD : Nat := 1
abbrev τ : Topo := Topo.v7x

variable {F : FTy → Type} [FloatOps F]

abbrev grid0 : Pipeline.Grid := ⟨3, ![8, 8, 4], ![false, false, false]⟩

def k0_cond2 (i : grid0.Coords) : BitVec 1 :=
  let arg2 : BitVec 32 := BitVec.ofNat 32 (i 2).val
  let c3_i32 : BitVec 32 := 3#32
  let v17 : BitVec 1 := Scalar.cmpi .eq arg2 c3_i32
  let v18 : BitVec 32 := Scalar.extui v17
  let c0_i32_10 : BitVec 32 := 0#32
  let v19 : BitVec 1 := Scalar.cmpi .ne v18 c0_i32_10
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev grid1 : Pipeline.Grid := ⟨3, ![8, 4, 8], ![false, false, false]⟩

def k1_cond2 (i : grid1.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  shapeCasts_S8192_S8192x1 : S8192.ShapeCasts S8192x1
  shapeCasts_S8192_S1x8192 : S8192.ShapeCasts S1x8192
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x1024 : S1024x1.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x4096.size a
  hwx0_1 : ∀ i : grid0.Coords, EltTy.bits .f32 = 32 ∨ (Rect.block (s := S8192x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x8192.size a
  hwx0_4 : ∀ i : grid0.Coords, EltTy.bits .bf16 = 32 ∨ (Rect.block (s := S8192x8192) S1024x1024.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .bf16 = 32 ∨ (Rect.block (s := S8192x8192) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x8192.size a
  hwx1_1 : ∀ i : grid1.Coords, EltTy.bits .bf16 = 32 ∨ (Rect.block (s := S4096x8192) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x4096.size a
  hwx1_2 : ∀ i : grid1.Coords, EltTy.bits .f32 = 32 ∨ (Rect.block (s := S8192x4096) S1024x1024.size (cc1_transform_2 i) (hinb1_2 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v2) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v4) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8192x4096 : Shape := ⟨2, ![8192, 4096]⟩
abbrev S8192 : Shape := ⟨1, ![8192]⟩
abbrev S4096x8192 : Shape := ⟨2, ![4096, 8192]⟩
abbrev S8192x1 : Shape := ⟨2, ![8192, 1]⟩
abbrev S8192x8192 : Shape := ⟨2, ![8192, 8192]⟩
abbrev S1x8192 : Shape := ⟨2, ![1, 8192]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192, .f32⟩
  | .hbm, ⟨3, _⟩ => ⟨S8192, .f32⟩
  | .hbm, ⟨4, _⟩ => ⟨S4096x8192, .f32⟩
  | .hbm, ⟨5, _⟩ => ⟨S8192x1, .f32⟩
  | .hbm, ⟨6, _⟩ => ⟨S8192x4096, .f32⟩
  | .hbm, ⟨7, _⟩ => ⟨S8192x4096, .f32⟩
  | .hbm, ⟨8, _⟩ => ⟨S8192x8192, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v7 : Ref sig .tc := ⟨.hbm, 20, rfl⟩
abbrev main_v8 : Ref sig .tc := ⟨.hbm, 21, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192x1_S8192x4096_0_1 : S8192x1.BroadcastsInDim S8192x4096 (![0, 1] : Fin 2 → Fin S8192x4096.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x4096_S8192x4096_S8192x8192_1_1_0_0_n_n_wf : DotDims.WF S8192x4096 S8192x4096 S8192x8192 [1] [1] [0] [0] [] []
  dot_S8192x8192_S4096x8192_S8192x4096_1_1_0_0_n_n_wf : DotDims.WF S8192x8192 S4096x8192 S8192x4096 [1] [1] [0] [0] [] []

variable [Facts₀]

def dot_S8192x4096_S8192x4096_S8192x8192_1_1_0_0_n_n : DotDims S8192x4096 S8192x4096 S8192x8192 where
  lhsContracting := [1]
  rhsContracting := [1]
  lhsNonContracting := [0]
  rhsNonContracting := [0]
  lhsBatch := []
  rhsBatch := []
  wf := dot_S8192x4096_S8192x4096_S8192x8192_1_1_0_0_n_n_wf
def dot_S8192x8192_S4096x8192_S8192x4096_1_1_0_0_n_n : DotDims S8192x8192 S4096x8192 S8192x4096 where
  lhsContracting := [1]
  rhsContracting := [1]
  lhsNonContracting := [0]
  rhsNonContracting := [0]
  lhsBatch := []
  rhsBatch := []
  wf := dot_S8192x8192_S4096x8192_S8192x4096_1_1_0_0_n_n_wf

class Facts : Prop extends Facts₀ where

variable [Facts]
-- ==== Proof.K.Base.lean ====
/-
  What the two accumulating matrix-product regions share with their runs, stated at the contents V the core's
  buffers hold when a region is entered.

  Each region walks a grid (row block, column block, contraction block), the contraction block innermost. At a
  point it is handed one block of each input and keeps a 1024 x 1024 accumulator in a scratch buffer across the
  points of one (row block, column block) pair: the accumulator is reset where the contraction block is the first,
  added to at every point, and turned into the output block where the contraction block is the last. So a point is
  in one of three cases, decided by its position modulo the number of contraction blocks (4 in the first region,
  8 in the second); the output window is idle, and not written back, in the first two.
  Here: a window's block at a point read off its array; that an input's staging buffer holds that block at every
  point, fetched there or not; the two branch conditions in closed form over the grid; where the output window is
  idle; the staging and scratch memrefs a point runs on; and the class invariant opened into the accumulator's
  buffer, the other scoped buffers, and the generator register.
-/
import proofs.«127535_j57449482551364_1_alg».proof.Proof.Gen.Kernel.Launch
import proofs.«127535_j57449482551364_1_alg».proof.Proof.Gen.Kernel.Skeleton
import proofs.«127535_j57449482551364_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The first region: h = silu (x · (w1 − zp)ᵀ + b1), 8 x 8 x 4 points -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's staging buffer holds its block at every point, fetched there or not (where it is not fetched the
    block index has not moved), for any proof data over the entry contents whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The reset branch is taken: the contraction block is the first. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- The output branch is taken: the contraction block is the last. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-- The inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Where the output branch is not taken the output window is idle and is not written back; where it is, live. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-- Each window's current staging memref at point t, as the pipeline passes it to the body, and its wholeness. -/
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .bf16 := win0_4.stage (cfg0.slots t 4)
abbrev hs0_4 (t : Fin cfg0.N) : (ms0_4 t).IsWhole := hstage0_4 ((cfg0.slots t 4).cast nbuf0_4)
/-- The accumulator: a whole scoped buffer of the kernel's own. -/
abbrev scM0 : Memref sig .tc .vmem S1024x1024 .f32 := Memref.whole cc0_scratch0
abbrev VS0 : View sig .tc .vmem S1024x1024 .f32 := scM0.view
/-- One staging buffer of the output window, through which its contents are stated (the choice does not matter). -/
abbrev VO0 : View sig .tc .vmem S1024x1024 .bf16 := (Memref.whole cc0_stg4_0 : Memref sig .tc .vmem S1024x1024 .bf16).view

/-- The core's scoped buffers the first region neither stages through nor accumulates in, each at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The class invariant of the first region: its accumulator at some contents, the other scoped buffers, the
    generator register at some state. -/
theorem PhiA0_eq (c : Dev nD) :
    (Pipeline.ΦA spec0 c : sProp 𝕄)
      = iprop(((∃ d, owns (c : Thread nD τ) scM0 fullShare d) ∗ others0 c) ∗ (∃ r, prngReg c r)) := by
  unfold Pipeline.ΦA others0; rw [scopedRest0_eq]; simp only [scM0, owns_whole]; try rfl

/-! # The second region: out = h · w2ᵀ, 8 x 4 x 8 points -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The reset branch is taken: the contraction block is the first. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The output branch is taken: the contraction block is the last. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .f32 := win1_2.stage (cfg1.slots t 2)
abbrev hs1_2 (t : Fin cfg1.N) : (ms1_2 t).IsWhole := hstage1_2 ((cfg1.slots t 2).cast nbuf1_2)
abbrev scM1 : Memref sig .tc .vmem S1024x1024 .f32 := Memref.whole cc1_scratch0
abbrev VS1 : View sig .tc .vmem S1024x1024 .f32 := scM1.view
abbrev VO1 : View sig .tc .vmem S1024x1024 .f32 := (Memref.whole cc1_stg2_0 : Memref sig .tc .vmem S1024x1024 .f32).view

/-- The core's scoped buffers the second region neither stages through nor accumulates in, each at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f))

/-- The class invariant of the second region opens into its accumulator at some contents, the other scoped buffers
    and the generator register at some state; -/
theorem PhiA1_open (c : Dev nD) :
    (Pipeline.ΦA spec1 c : sProp 𝕄) ⊢ iprop(((∃ d, owns (c : Thread nD τ) scM1 fullShare d) ∗ others1 c) ∗ (∃ r, prngReg c r)) := by
  unfold Pipeline.ΦA others1; rw [scopedRest1_eq]; simp only [scM1, owns_whole]
  iintro ⟨⟨H1, H2, H3, H4, H5, H6, H7, H8, H9, H10, H11, HS⟩, Hg⟩
  isplitr [Hg]
  · isplitl [HS]; · iexact HS
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  iexact Hg

/-- and closes from them. -/
theorem PhiA1_close (c : Dev nD) :
    iprop(((∃ d, owns (c : Thread nD τ) scM1 fullShare d) ∗ others1 c) ∗ (∃ r, prngReg c r)) ⊢ (Pipeline.ΦA spec1 c : sProp 𝕄) := by
  unfold Pipeline.ΦA others1; rw [scopedRest1_eq]; simp only [scM1, owns_whole]
  iintro ⟨⟨HS, H1, H2, H3, H4, H5, H6, H7, H8, H9, H10, H11⟩, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact HS
  iexact Hg

end Cert.Kernel.Fr

end
-- ==== Proof.K.Run0A.lean ====
/-
  The first region's body at a point where the contraction block is the first (and not the last): the
  accumulator, whatever it held, is overwritten with zeros and then with zeros plus the product of the token block
  with the zero-point-adjusted weight block; the output window's buffer is not touched. The pieces the accumulator
  ends with are found by running the body's memory operations.
-/
import proofs.«127535_j57449482551364_1_alg».proof.Proof.K.Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the four inputs at their blocks, the output's buffer at any contents (handed back as found),
    the accumulator at anything — the body runs, and leaves the accumulator with the pieces `LS` written. -/
noncomputable def kernelRun0_A (c : Dev nD) (i : grid0.Coords) (arg3 : Memref sig .tc .vmem S1024x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : cond0_0 i) (hc1 : ¬cond0_1 i)
    (x0 : Vec F S1024x1024 .bf16) (x1 : Vec F S1024x1024 .f32) (x2 : Vec F S1024x1 .f32) (x3 : Vec F S1x1024 .f32) :
    { LS : List (View.Piece (Elt F) S1024x1024 .f32) //
      ∀ (xi4 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc0__mlp1_kernel i arg3 harg3 arg4 harg4 arg5 harg5 arg6 harg6 arg7 harg7 arg8 harg8) K } := by
  refine ⟨?_, fun xi4 E K => ?run⟩
  case run =>
    simp only [cc0__mlp1_kernel_eq_skeleton]; unfold cc0__mlp1_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Fr

end
-- ==== Proof.K.Run0B.lean ====
/-
  The first region's body at a point where the contraction block is neither the first nor the last: the
  accumulator, holding what the point before left, gets the product of the token block with the
  zero-point-adjusted weight block added; the output window's buffer is not touched.
-/
import proofs.«127535_j57449482551364_1_alg».proof.Proof.K.Run0A

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the four inputs at their blocks, the output's buffer at any contents (handed back as found),
    the accumulator at `xs` — the body runs, and leaves the accumulator with the pieces `LS` written. -/
noncomputable def kernelRun0_B (c : Dev nD) (i : grid0.Coords) (arg3 : Memref sig .tc .vmem S1024x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : ¬cond0_1 i)
    (x0 : Vec F S1024x1024 .bf16) (x1 : Vec F S1024x1024 .f32) (x2 : Vec F S1024x1 .f32) (x3 : Vec F S1x1024 .f32) (xs : Vec F S1024x1024 .f32) :
    { LS : List (View.Piece (Elt F) S1024x1024 .f32) //
      ∀ (xi4 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc0__mlp1_kernel i arg3 harg3 arg4 harg4 arg5 harg5 arg6 harg6 arg7 harg7 arg8 harg8) K } := by
  refine ⟨?_, fun xi4 E K => ?run⟩
  case run =>
    simp only [cc0__mlp1_kernel_eq_skeleton]; unfold cc0__mlp1_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Fr

end
-- ==== Proof.K.Run0C.lean ====
/-
  The first region's body at a point where the contraction block is the last (and not the first): the
  accumulator, holding what the point before left, gets the product of the token block with the
  zero-point-adjusted weight block added; then the bias row is added to its new contents, z · σ(z) is applied, and
  the result is stored into the output window's buffer, whatever that held.
-/
import proofs.«127535_j57449482551364_1_alg».proof.Proof.K.Run0B

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the four inputs at their blocks, the output's buffer at anything, the accumulator at `xs` —
    the body runs, and leaves the output's buffer with the pieces `L` and the accumulator with the pieces `LS`
    written. -/
noncomputable def kernelRun0_C (c : Dev nD) (i : grid0.Coords) (arg3 : Memref sig .tc .vmem S1024x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : cond0_1 i)
    (x0 : Vec F S1024x1024 .bf16) (x1 : Vec F S1024x1024 .f32) (x2 : Vec F S1024x1 .f32) (x3 : Vec F S1x1024 .f32) (xs : Vec F S1024x1024 .f32) :
    Σ' (L : List (View.Piece (Elt F) S1024x1024 .bf16)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L) ∗ (∃ f, arg8.view.loc (c : Thread nD τ) ↦[arg8.view.set]{fullShare} arg8.view.writes (Elt F) f LS)) -∗ K ⟨⟩))
          ⊢ wp frame (wpE (defs₀ (F := F)) Variants.none c none) E (cc0__mlp1_kernel i arg3 harg3 arg4 harg4 arg5 harg5 arg6 harg6 arg7 harg7 arg8 harg8) K } := by
  refine ⟨?_, ?_, fun E K => ?run⟩
  case run =>
    simp only [cc0__mlp1_kernel_eq_skeleton]; unfold cc0__mlp1_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.Kernel.Fr

end
-- ==== Proof.K.Reg0.lean ====
/-
  The first region, h = silu (x · (w1 − zp)ᵀ + b1), as proof data for its pipeline, at the contents V its arrays
  hold on entry.

  What a case of the body leaves in the accumulator (and, in the last case, in the output window's buffer) is read
  back from the pieces its run found, which tile the buffer. The accumulator after the body at position n is then
  defined by recursion on n: at a position ≡ 0 (mod 4) the first case at that point's blocks, otherwise the middle
  or the last case at that point's blocks over what position n − 1 left. The region's invariant before position
  n > 0 holds the accumulator's buffer at exactly that; before position 0 it is the class invariant (every scoped
  buffer at anything). The output window's buffer after the body is the last case's result where the position is
  ≡ 3 (mod 4), and is not looked at elsewhere (the window is idle there and is not written back). With these the
  body meets its obligation at every point: a case split on the position modulo 4, each leaf that case's run.
-/
import proofs.«127535_j57449482551364_1_alg».proof.Proof.K.Run0C

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The class invariant opens into the accumulator at some contents, the other scoped buffers and the generator
    register, and closes from them. -/
theorem PhiA0_open (c : Dev nD) :
    (Pipeline.ΦA spec0 c : sProp 𝕄) ⊢ iprop(((∃ d, owns (c : Thread nD τ) scM0 fullShare d) ∗ others0 c) ∗ (∃ r, prngReg c r)) :=
  Entails.of_eq (PhiA0_eq c)
theorem PhiA0_close (c : Dev nD) :
    iprop(((∃ d, owns (c : Thread nD τ) scM0 fullShare d) ∗ others0 c) ∗ (∃ r, prngReg c r)) ⊢ (Pipeline.ΦA spec0 c : sProp 𝕄) :=
  Entails.of_eq (PhiA0_eq c).symm

/-! ## What each case leaves -/

/-- The first case's pieces tile the accumulator. -/
theorem scover0_A (c : Dev nD) (i : grid0.Coords) (arg3 : Memref sig .tc .vmem S1024x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : cond0_0 i) (hc1 : ¬cond0_1 i) (x0 : Vec F S1024x1024 .bf16) (x1 : Vec F S1024x1024 .f32) (x2 : Vec F S1024x1 .f32) (x3 : Vec F S1x1024 .f32) (y : S1024x1024.Idx) :
    ∃ pc ∈ (kernelRun0_A c i arg3 harg3 arg4 harg4 arg5 harg5 arg6 harg6 arg7 harg7 arg8 harg8 hc0 hc1 x0 x1 x2 x3).1, y ∈ pc.1.set :=
  View.cover_of_tiledL (kernelRun0_A c i arg3 harg3 arg4 harg4 arg5 harg5 arg6 harg6 arg7 harg7 arg8 harg8 hc0 hc1 x0 x1 x2 x3).1 S1024x1024.size (by sl_kernel_rfl) y
/-- What the first case leaves in the accumulator. -/
def sout0_A (c : Dev nD) (i : grid0.Coords) (arg3 : Memref sig .tc .vmem S1024x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : cond0_0 i) (hc1 : ¬cond0_1 i) (x0 : Vec F S1024x1024 .bf16) (x1 : Vec F S1024x1024 .f32) (x2 : Vec F S1024x1 .f32) (x3 : Vec F S1x1024 .f32) : Vec F S1024x1024 .f32 :=
  VS0.read (Elt F) (VS0.writes (Elt F) VS0.junk (kernelRun0_A c i arg3 harg3 arg4 harg4 arg5 harg5 arg6 harg6 arg7 harg7 arg8 harg8 hc0 hc1 x0 x1 x2 x3).1)

/-- The middle case's pieces tile the accumulator. -/
theorem scover0_B (c : Dev nD) (i : grid0.Coords) (arg3 : Memref sig .tc .vmem S1024x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : ¬cond0_1 i) (x0 : Vec F S1024x1024 .bf16) (x1 : Vec F S1024x1024 .f32) (x2 : Vec F S1024x1 .f32) (x3 : Vec F S1x1024 .f32) (xs : Vec F S1024x1024 .f32) (y : S1024x1024.Idx) :
    ∃ pc ∈ (kernelRun0_B c i arg3 harg3 arg4 harg4 arg5 harg5 arg6 harg6 arg7 harg7 arg8 harg8 hc0 hc1 x0 x1 x2 x3 xs).1, y ∈ pc.1.set :=
  View.cover_of_tiledL (kernelRun0_B c i arg3 harg3 arg4 harg4 arg5 harg5 arg6 harg6 arg7 harg7 arg8 harg8 hc0 hc1 x0 x1 x2 x3 xs).1 S1024x1024.size (by sl_kernel_rfl) y
/-- What the middle case leaves in the accumulator. -/
def sout0_B (c : Dev nD) (i : grid0.Coords) (arg3 : Memref sig .tc .vmem S1024x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : ¬cond0_1 i) (x0 : Vec F S1024x1024 .bf16) (x1 : Vec F S1024x1024 .f32) (x2 : Vec F S1024x1 .f32) (x3 : Vec F S1x1024 .f32) (xs : Vec F S1024x1024 .f32) : Vec F S1024x1024 .f32 :=
  VS0.read (Elt F) (VS0.writes (Elt F) VS0.junk (kernelRun0_B c i arg3 harg3 arg4 harg4 arg5 harg5 arg6 harg6 arg7 harg7 arg8 harg8 hc0 hc1 x0 x1 x2 x3 xs).1)

/-- The last case's pieces tile the accumulator, -/
theorem scover0_C (c : Dev nD) (i : grid0.Coords) (arg3 : Memref sig .tc .vmem S1024x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : cond0_1 i) (x0 : Vec F S1024x1024 .bf16) (x1 : Vec F S1024x1024 .f32) (x2 : Vec F S1024x1 .f32) (x3 : Vec F S1x1024 .f32) (xs : Vec F S1024x1024 .f32) (y : S1024x1024.Idx) :
    ∃ pc ∈ (kernelRun0_C c i arg3 harg3 arg4 harg4 arg5 harg5 arg6 harg6 arg7 harg7 arg8 harg8 hc0 hc1 x0 x1 x2 x3 xs).2.1, y ∈ pc.1.set :=
  View.cover_of_tiledL (kernelRun0_C c i arg3 harg3 arg4 harg4 arg5 harg5 arg6 harg6 arg7 harg7 arg8 harg8 hc0 hc1 x0 x1 x2 x3 xs).2.1 S1024x1024.size (by sl_kernel_rfl) y
/-- and the output window's buffer. -/
theorem cover0_C (c : Dev nD) (i : grid0.Coords) (arg3 : Memref sig .tc .vmem S1024x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : cond0_1 i) (x0 : Vec F S1024x1024 .bf16) (x1 : Vec F S1024x1024 .f32) (x2 : Vec F S1024x1 .f32) (x3 : Vec F S1x1024 .f32) (xs : Vec F S1024x1024 .f32) (y : S1024x1024.Idx) :
    ∃ pc ∈ (kernelRun0_C c i arg3 harg3 arg4 harg4 arg5 harg5 arg6 harg6 arg7 harg7 arg8 harg8 hc0 hc1 x0 x1 x2 x3 xs).1, y ∈ pc.1.set :=
  View.cover_of_tiledL (kernelRun0_C c i arg3 harg3 arg4 harg4 arg5 harg5 arg6 harg6 arg7 harg7 arg8 harg8 hc0 hc1 x0 x1 x2 x3 xs).1 S1024x1024.size (by sl_kernel_rfl) y
/-- What the last case leaves in the accumulator, -/
def sout0_C (c : Dev nD) (i : grid0.Coords) (arg3 : Memref sig .tc .vmem S1024x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : cond0_1 i) (x0 : Vec F S1024x1024 .bf16) (x1 : Vec F S1024x1024 .f32) (x2 : Vec F S1024x1 .f32) (x3 : Vec F S1x1024 .f32) (xs : Vec F S1024x1024 .f32) : Vec F S1024x1024 .f32 :=
  VS0.read (Elt F) (VS0.writes (Elt F) VS0.junk (kernelRun0_C c i arg3 harg3 arg4 harg4 arg5 harg5 arg6 harg6 arg7 harg7 arg8 harg8 hc0 hc1 x0 x1 x2 x3 xs).2.1)
/-- and in the output window's buffer. -/
def out0_C (c : Dev nD) (i : grid0.Coords) (arg3 : Memref sig .tc .vmem S1024x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : cond0_1 i) (x0 : Vec F S1024x1024 .bf16) (x1 : Vec F S1024x1024 .f32) (x2 : Vec F S1024x1 .f32) (x3 : Vec F S1x1024 .f32) (xs : Vec F S1024x1024 .f32) : Vec F S1024x1024 .bf16 :=
  VO0.read (Elt F) (VO0.writes (Elt F) VO0.junk (kernelRun0_C c i arg3 harg3 arg4 harg4 arg5 harg5 arg6 harg6 arg7 harg7 arg8 harg8 hc0 hc1 x0 x1 x2 x3 xs).1)

/-! ## The cases at a point's own memrefs and blocks -/

def ptA0 (c : Dev nD) (t : Fin cfg0.N) (h0 : t.val % 4 = 0) : Vec F S1024x1024 .f32 :=
  sout0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => by have := (hcond0_1 t).mp h; omega) (iblk0 V c 0 t) (iblk0 V c 1 t) (iblk0 V c 2 t) (iblk0 V c 3 t)
def ptB0 (c : Dev nD) (t : Fin cfg0.N) (h0 : ¬t.val % 4 = 0) (h1 : ¬t.val % 4 = 3) (xs : Vec F S1024x1024 .f32) : Vec F S1024x1024 .f32 :=
  sout0_B c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (fun h => h1 ((hcond0_1 t).mp h)) (iblk0 V c 0 t) (iblk0 V c 1 t) (iblk0 V c 2 t) (iblk0 V c 3 t) xs
def ptC0 (c : Dev nD) (t : Fin cfg0.N) (h1 : t.val % 4 = 3) (xs : Vec F S1024x1024 .f32) : Vec F S1024x1024 .f32 :=
  sout0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => by have := (hcond0_0 t).mp h; omega) ((hcond0_1 t).mpr h1) (iblk0 V c 0 t) (iblk0 V c 1 t) (iblk0 V c 2 t) (iblk0 V c 3 t) xs
def ptO0 (c : Dev nD) (t : Fin cfg0.N) (h1 : t.val % 4 = 3) (xs : Vec F S1024x1024 .f32) : Vec F S1024x1024 .bf16 :=
  out0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => by have := (hcond0_0 t).mp h; omega) ((hcond0_1 t).mpr h1) (iblk0 V c 0 t) (iblk0 V c 1 t) (iblk0 V c 2 t) (iblk0 V c 3 t) xs

/-! ## The accumulator, point by point -/

/-- The accumulator after the body at position n. -/
def accAt0 (c : Dev nD) : (n : ℕ) → n < cfg0.N → Vec F S1024x1024 .f32
  | 0, hn => ptA0 V c ⟨0, hn⟩ (Nat.zero_mod _)
  | n + 1, hn =>
    if h0 : (n + 1) % 4 = 0 then ptA0 V c ⟨n + 1, hn⟩ h0
    else if h1 : (n + 1) % 4 = 3 then ptC0 V c ⟨n + 1, hn⟩ h1 (accAt0 c n (Nat.lt_of_succ_lt hn))
    else ptB0 V c ⟨n + 1, hn⟩ h0 h1 (accAt0 c n (Nat.lt_of_succ_lt hn))

theorem accAt0_A (c : Dev nD) (t : Fin cfg0.N) (h0 : t.val % 4 = 0) : accAt0 V c t.val t.isLt = ptA0 V c t h0 := by
  obtain ⟨n, hn⟩ := t
  cases n with
  | zero => rfl
  | succ n => exact dif_pos h0

theorem accAt0_B (c : Dev nD) (t : Fin cfg0.N) (h0 : ¬t.val % 4 = 0) (h1 : ¬t.val % 4 = 3) :
    accAt0 V c t.val t.isLt = ptB0 V c t h0 h1 (accAt0 V c (t.val - 1) (Nat.lt_of_le_of_lt (Nat.sub_le _ _) t.isLt)) := by
  obtain ⟨n, hn⟩ := t
  cases n with
  | zero => exact absurd (Nat.zero_mod _) h0
  | succ n => exact (dif_neg h0).trans (dif_neg h1)

theorem accAt0_C (c : Dev nD) (t : Fin cfg0.N) (h1 : t.val % 4 = 3) :
    accAt0 V c t.val t.isLt = ptC0 V c t h1 (accAt0 V c (t.val - 1) (Nat.lt_of_le_of_lt (Nat.sub_le _ _) t.isLt)) := by
  obtain ⟨n, hn⟩ := t
  cases n with
  | zero => exact absurd (show 0 % 4 = 3 from h1) (by decide)
  | succ n => exact (dif_neg (show ¬(n + 1) % 4 = 0 from fun h => by have h1' : (n + 1) % 4 = 3 := h1; omega)).trans (dif_pos h1)

/-- The output window's buffer after the body at point t: the last case's result where the contraction block is the
    last; elsewhere a placeholder nothing reads. -/
def outAt0 (c : Dev nD) (t : Fin cfg0.N) : Vec F S1024x1024 .bf16 :=
  if h1 : t.val % 4 = 3 then ptO0 V c t h1 (accAt0 V c (t.val - 1) (Nat.lt_of_le_of_lt (Nat.sub_le _ _) t.isLt))
  else VO0.read (Elt F) (VO0.writes (Elt F) VO0.junk [])

theorem outAt0_C (c : Dev nD) (t : Fin cfg0.N) (h1 : t.val % 4 = 3) :
    outAt0 V c t = ptO0 V c t h1 (accAt0 V c (t.val - 1) (Nat.lt_of_le_of_lt (Nat.sub_le _ _) t.isLt)) := dif_pos h1

/-! ## The invariant and the proof data -/

/-- Before position n: at n = 0 every scoped buffer at anything; afterwards the accumulator at what position n − 1
    left, the other scoped buffers at anything, the generator register at some state. -/
def PhiS0 (c : Dev nD) : (n : ℕ) → n ≤ cfg0.N → sProp 𝕄
  | 0, _ => Pipeline.ΦA spec0 c
  | n + 1, hn => iprop((owns (c : Thread nD τ) scM0 fullShare (accAt0 V c n hn) ∗ others0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop((owns (c : Thread nD τ) scM0 fullShare (accAt0 V c n hn) ∗ others0 c) ∗ (∃ r, prngReg c r)) := rfl
theorem PhiS0_pos (c : Dev nD) (n : ℕ) (h : n ≤ cfg0.N) (hz : n ≠ 0) :
    PhiS0 V c n h = iprop((owns (c : Thread nD τ) scM0 fullShare (accAt0 V c (n - 1) (by omega)) ∗ others0 c) ∗ (∃ r, prngReg c r)) := by
  cases n with
  | zero => exact absurd rfl hz
  | succ n => rfl

/-- The pipeline's proof data on core c: the arrays as the region finds them; after the body each input's buffer at
    its block, the output's at `outAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outAt0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = outAt0 V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

/-- Before a point the invariant yields the accumulator's buffer at SOME contents (all the first case needs). -/
theorem PhiS0_any (c : Dev nD) (n : ℕ) (h : n ≤ cfg0.N) :
    PhiS0 V c n h ⊢ iprop(((∃ d, owns (c : Thread nD τ) scM0 fullShare d) ∗ others0 c) ∗ (∃ r, prngReg c r)) := by
  by_cases hz : n = 0
  · rw [PhiS0_zero V c _ _ hz]; exact PhiA0_open c
  · rw [PhiS0_pos V c _ _ hz]
    iintro ⟨⟨HS, Ho⟩, Hg⟩
    isplitr [Hg]
    · isplitl [HS]; · iexists _; iexact HS
      iexact Ho
    iexact Hg

set_option maxHeartbeats 4800000 in
/-- The body at any point: the inputs' buffers hold their blocks; the position modulo 4 says which case the point is
    in; the invariant hands over the accumulator at what the point before left (at anything in the first case) and
    takes it back at this point's contents; the output's buffer comes back untouched where the window is idle and at
    the last case's result where it is live; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [PhiS0_castSucc V c t]
  have hN : t.val < 256 := lt_of_lt_of_eq t.isLt (show cfg0.N = 256 from N_0)
  by_cases h0 : t.val % 4 = 0
  · have h1 : ¬t.val % 4 = 3 := by omega
    have hc0 : cond0_0 (grid0.coords t) := (hcond0_0 t).mpr h0
    have hc1 : ¬cond0_1 (grid0.coords t) := fun h => h1 ((hcond0_1 t).mp h)
    rw [Dat.leavesExact_idle (dat0 V c) 4 t (idleAt0_4 t hc1) (noFlush0_4 t hc1)]
    rw [accAt0_A V c t h0]
    unfold ptA0 sout0_A
    iintro ⟨HΦ, Ho, ⟨%d0, H0⟩, ⟨%d1, H1⟩, ⟨%d2, H2⟩, ⟨%d3, H3⟩, ⟨%d4, H4⟩⟩
    ihave HΦ' := (PhiS0_any V c _ _) $$ HΦ
    icases HΦ' with ⟨⟨HS0, Hoth⟩, Hg⟩
    iapply ((kernelRun0_A c (grid0.coords t) _ _ _ _ _ _ _ _ _ _ _ _ hc0 hc1 (iblk0 V c 0 t) (iblk0 V c 1 t) (iblk0 V c 2 t) (iblk0 V c 3 t)).2 _ Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, H3, H4, ⟨%es0, HS0⟩⟩
    isplitl [HS0 Hoth Hg]
    · isplitr [Hg]
      · isplitr [Hoth]
        · unfold owns; iexists _; isplitr
          swap; · iexact HS0
          ipureintro; exact View.read_writes_of_cover _ _ _ _ _ (scover0_A c _ _ _ _ _ _ _ _ _ _ _ _ _ _ _ _ _ _ _)
        iexact Hoth
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := fun h => h0 (by rw [h])
    have hc0 : ¬cond0_0 (grid0.coords t) := fun h => h0 ((hcond0_0 t).mp h)
    rw [PhiS0_pos V c _ _ hz]
    by_cases h1 : t.val % 4 = 3
    · have hc1 : cond0_1 (grid0.coords t) := (hcond0_1 t).mpr h1
      rw [show (dat0 V c).leavesExact 4 t = owns (c : Thread nD τ) (ms0_4 t) fullShare ((dat0 V c).after 4 t) from by
        unfold Dat.leavesExact; rw [liveAt0_4 t hc1], after0_4, outAt0_C V c t h1]
      rw [accAt0_C V c t h1]
      unfold ptC0 ptO0 sout0_C out0_C
      iintro ⟨⟨⟨HS0, Hoth⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ hc0 hc1 (iblk0 V c 0 t) (iblk0 V c 1 t) (iblk0 V c 2 t) (iblk0 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hoth Hg]
      · isplitr [Hg]
        · isplitr [Hoth]
          · unfold owns; iexists _; isplitr
            swap; · iexact HS0
            ipureintro; exact View.read_writes_of_cover _ _ _ _ _ (scover0_C c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C c _ _ _ _ _ _ _ _ _ _ _ _ _ _ _ _ _ _ _ _)
    · have hc1 : ¬cond0_1 (grid0.coords t) := fun h => h1 ((hcond0_1 t).mp h)
      rw [Dat.leavesExact_idle (dat0 V c) 4 t (idleAt0_4 t hc1) (noFlush0_4 t hc1)]
      rw [accAt0_B V c t h0 h1]
      unfold ptB0 sout0_B
      iintro ⟨⟨⟨HS0, Hoth⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ hc0 hc1 (iblk0 V c 0 t) (iblk0 V c 1 t) (iblk0 V c 2 t) (iblk0 V c 3 t) _).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hoth Hg]
      · isplitr [Hg]
        · isplitr [Hoth]
          · unfold owns; iexists _; isplitr
            swap; · iexact HS0
            ipureintro; exact View.read_writes_of_cover _ _ _ _ _ (scover0_B c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point, -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- and after the last point the invariant gives it back, the accumulator's contents forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl]
  exact (PhiS0_any V c _ _).trans (PhiA0_close c)

end Cert.Kernel.Fr

end
-- ==== Proof.K.Run1A.lean ====
/-
  The second region's body at a point where the contraction block is the first (and not the last): the
  accumulator, whatever it held, is overwritten with zeros and then with zeros plus the product of the two input
  blocks; the output window's buffer is not touched. The pieces the accumulator ends with are found by running the
  body's memory operations.
-/
import proofs.«127535_j57449482551364_1_alg».proof.Proof.K.Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the inputs at their blocks, the output's buffer at any contents (handed back as found), the
    accumulator at anything — the body runs, and leaves the accumulator with the pieces `LS` written. -/
noncomputable def kernelRun1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond1_0 i) (hc1 : ¬cond1_1 i)
    (x0 : Vec F S1024x1024 .bf16) (x1 : Vec F S1024x1024 .bf16) :
    { LS : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS)) -∗ K ⟨⟩))
          ⊢ wp frame (wpE (defs₀ (F := F)) Variants.none c none) E (cc1__mlp2_kernel i arg3 harg3 arg4 harg4 arg5 harg5 arg6 harg6) K } := by
  refine ⟨?_, fun xi2 E K => ?run⟩
  case run =>
    simp only [cc1__mlp2_kernel_eq_skeleton]; unfold cc1__mlp2_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Fr

end
-- ==== Proof.K.Run1B.lean ====
/-
  The second region's body at a point where the contraction block is neither the first nor the last: the
  accumulator, holding what the point before left, gets the product of the two input blocks added; the output
  window's buffer is not touched.
-/
import proofs.«127535_j57449482551364_1_alg».proof.Proof.K.Run1A

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the inputs at their blocks, the output's buffer at any contents (handed back as found), the
    accumulator at `xs` — the body runs, and leaves the accumulator with the pieces `LS` written. -/
noncomputable def kernelRun1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : ¬cond1_1 i)
    (x0 : Vec F S1024x1024 .bf16) (x1 : Vec F S1024x1024 .bf16) (xs : Vec F S1024x1024 .f32) :
    { LS : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS)) -∗ K ⟨⟩))
          ⊢ wp frame (wpE (defs₀ (F := F)) Variants.none c none) E (cc1__mlp2_kernel i arg3 harg3 arg4 harg4 arg5 harg5 arg6 harg6) K } := by
  refine ⟨?_, fun xi2 E K => ?run⟩
  case run =>
    simp only [cc1__mlp2_kernel_eq_skeleton]; unfold cc1__mlp2_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Fr

end
-- ==== Proof.K.Run1C.lean ====
/-
  The second region's body at a point where the contraction block is the last (and not the first): the
  accumulator, holding what the point before left, gets the product of the two input blocks added, and its new
  contents are stored into the output window's buffer, whatever that held.
-/
import proofs.«127535_j57449482551364_1_alg».proof.Proof.K.Run1B

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the inputs at their blocks, the output's buffer at anything, the accumulator at `xs` — the
    body runs, and leaves the output's buffer with the pieces `L` and the accumulator with the pieces `LS` written. -/
noncomputable def kernelRun1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 : Vec F S1024x1024 .bf16) (x1 : Vec F S1024x1024 .bf16) (xs : Vec F S1024x1024 .f32) :
    Σ' (L : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L) ∗ (∃ f, arg6.view.loc (c : Thread nD τ) ↦[arg6.view.set]{fullShare} arg6.view.writes (Elt F) f LS)) -∗ K ⟨⟩))
          ⊢ wp frame (wpE (defs₀ (F := F)) Variants.none c none) E (cc1__mlp2_kernel i arg3 harg3 arg4 harg4 arg5 harg5 arg6 harg6) K } := by
  refine ⟨?_, ?_, fun E K => ?run⟩
  case run =>
    simp only [cc1__mlp2_kernel_eq_skeleton]; unfold cc1__mlp2_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Fr

end
-- ==== Proof.K.Reg1.lean ====
/-
  The second region, out = h · w2ᵀ, as proof data for its pipeline, at the contents V its arrays hold on entry.

  What a case of the body leaves in the accumulator (and, in the last case, in the output window's buffer) is read
  back from the pieces its run found, which tile the buffer. The accumulator after the body at position n is then
  defined by recursion on n: at a position ≡ 0 (mod 8) the first case at that point's blocks, otherwise the middle
  or the last case at that point's blocks over what position n − 1 left. The region's invariant before position
  n > 0 holds the accumulator's buffer at exactly that; before position 0 it is the class invariant (every scoped
  buffer at anything). The output window's buffer after the body is the last case's result where the position is
  ≡ 7 (mod 8), and is not looked at elsewhere (the window is idle there and is not written back). With these the
  body meets its obligation at every point: a case split on the position modulo 8, each leaf that case's run.
-/
import proofs.«127535_j57449482551364_1_alg».proof.Proof.K.Run1C

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- The first case's pieces tile the accumulator. -/
theorem scover1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond1_0 i) (hc1 : ¬cond1_1 i) (x0 : Vec F S1024x1024 .bf16) (x1 : Vec F S1024x1024 .bf16) (y : S1024x1024.Idx) :
    ∃ pc ∈ (kernelRun1_A c i arg3 harg3 arg4 harg4 arg5 harg5 arg6 harg6 hc0 hc1 x0 x1).1, y ∈ pc.1.set :=
  View.cover_of_tiledL (kernelRun1_A c i arg3 harg3 arg4 harg4 arg5 harg5 arg6 harg6 hc0 hc1 x0 x1).1 S1024x1024.size (by sl_kernel_rfl) y
/-- What the first case leaves in the accumulator. -/
def sout1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond1_0 i) (hc1 : ¬cond1_1 i) (x0 : Vec F S1024x1024 .bf16) (x1 : Vec F S1024x1024 .bf16) : Vec F S1024x1024 .f32 :=
  VS1.read (Elt F) (VS1.writes (Elt F) VS1.junk (kernelRun1_A c i arg3 harg3 arg4 harg4 arg5 harg5 arg6 harg6 hc0 hc1 x0 x1).1)

/-- The middle case's pieces tile the accumulator. -/
theorem scover1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : ¬cond1_1 i) (x0 : Vec F S1024x1024 .bf16) (x1 : Vec F S1024x1024 .bf16) (xs : Vec F S1024x1024 .f32) (y : S1024x1024.Idx) :
    ∃ pc ∈ (kernelRun1_B c i arg3 harg3 arg4 harg4 arg5 harg5 arg6 harg6 hc0 hc1 x0 x1 xs).1, y ∈ pc.1.set :=
  View.cover_of_tiledL (kernelRun1_B c i arg3 harg3 arg4 harg4 arg5 harg5 arg6 harg6 hc0 hc1 x0 x1 xs).1 S1024x1024.size (by sl_kernel_rfl) y
/-- What the middle case leaves in the accumulator. -/
def sout1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : ¬cond1_1 i) (x0 : Vec F S1024x1024 .bf16) (x1 : Vec F S1024x1024 .bf16) (xs : Vec F S1024x1024 .f32) : Vec F S1024x1024 .f32 :=
  VS1.read (Elt F) (VS1.writes (Elt F) VS1.junk (kernelRun1_B c i arg3 harg3 arg4 harg4 arg5 harg5 arg6 harg6 hc0 hc1 x0 x1 xs).1)

/-- The last case's pieces tile the accumulator, -/
theorem scover1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i) (x0 : Vec F S1024x1024 .bf16) (x1 : Vec F S1024x1024 .bf16) (xs : Vec F S1024x1024 .f32) (y : S1024x1024.Idx) :
    ∃ pc ∈ (kernelRun1_C c i arg3 harg3 arg4 harg4 arg5 harg5 arg6 harg6 hc0 hc1 x0 x1 xs).2.1, y ∈ pc.1.set :=
  View.cover_of_tiledL (kernelRun1_C c i arg3 harg3 arg4 harg4 arg5 harg5 arg6 harg6 hc0 hc1 x0 x1 xs).2.1 S1024x1024.size (by sl_kernel_rfl) y
/-- and the output window's buffer. -/
theorem cover1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i) (x0 : Vec F S1024x1024 .bf16) (x1 : Vec F S1024x1024 .bf16) (xs : Vec F S1024x1024 .f32) (y : S1024x1024.Idx) :
    ∃ pc ∈ (kernelRun1_C c i arg3 harg3 arg4 harg4 arg5 harg5 arg6 harg6 hc0 hc1 x0 x1 xs).1, y ∈ pc.1.set :=
  View.cover_of_tiledL (kernelRun1_C c i arg3 harg3 arg4 harg4 arg5 harg5 arg6 harg6 hc0 hc1 x0 x1 xs).1 S1024x1024.size (by sl_kernel_rfl) y
/-- What the last case leaves in the accumulator, -/
def sout1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i) (x0 : Vec F S1024x1024 .bf16) (x1 : Vec F S1024x1024 .bf16) (xs : Vec F S1024x1024 .f32) : Vec F S1024x1024 .f32 :=
  VS1.read (Elt F) (VS1.writes (Elt F) VS1.junk (kernelRun1_C c i arg3 harg3 arg4 harg4 arg5 harg5 arg6 harg6 hc0 hc1 x0 x1 xs).2.1)
/-- and in the output window's buffer. -/
def out1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i) (x0 : Vec F S1024x1024 .bf16) (x1 : Vec F S1024x1024 .bf16) (xs : Vec F S1024x1024 .f32) : Vec F S1024x1024 .f32 :=
  VO1.read (Elt F) (VO1.writes (Elt F) VO1.junk (kernelRun1_C c i arg3 harg3 arg4 harg4 arg5 harg5 arg6 harg6 hc0 hc1 x0 x1 xs).1)

/-! ## The cases at a point's own memrefs and blocks -/

def ptA1 (c : Dev nD) (t : Fin cfg1.N) (h0 : t.val % 8 = 0) : Vec F S1024x1024 .f32 :=
  sout1_A c (grid1.coords t) (ms1_0 t) (hs1_0 t) (ms1_1 t) (hs1_1 t) (ms1_2 t) (hs1_2 t) scM1 (Memref.isWhole_whole _) ((hcond1_0 t).mpr h0) (fun h => by have := (hcond1_1 t).mp h; omega) (iblk1 V c 0 t) (iblk1 V c 1 t)
def ptB1 (c : Dev nD) (t : Fin cfg1.N) (h0 : ¬t.val % 8 = 0) (h1 : ¬t.val % 8 = 7) (xs : Vec F S1024x1024 .f32) : Vec F S1024x1024 .f32 :=
  sout1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) xs
def ptC1 (c : Dev nD) (t : Fin cfg1.N) (h1 : t.val % 8 = 7) (xs : Vec F S1024x1024 .f32) : Vec F S1024x1024 .f32 :=
  sout1_C c (grid1.coords t) (ms1_0 t) (hs1_0 t) (ms1_1 t) (hs1_1 t) (ms1_2 t) (hs1_2 t) scM1 (Memref.isWhole_whole _) (fun h => by have := (hcond1_0 t).mp h; omega) ((hcond1_1 t).mpr h1) (iblk1 V c 0 t) (iblk1 V c 1 t) xs
def ptO1 (c : Dev nD) (t : Fin cfg1.N) (h1 : t.val % 8 = 7) (xs : Vec F S1024x1024 .f32) : Vec F S1024x1024 .f32 :=
  out1_C c (grid1.coords t) (ms1_0 t) (hs1_0 t) (ms1_1 t) (hs1_1 t) (ms1_2 t) (hs1_2 t) scM1 (Memref.isWhole_whole _) (fun h => by have := (hcond1_0 t).mp h; omega) ((hcond1_1 t).mpr h1) (iblk1 V c 0 t) (iblk1 V c 1 t) xs

/-! ## The accumulator, point by point -/

/-- The accumulator after the body at position n. -/
def accAt1 (c : Dev nD) : (n : ℕ) → n < cfg1.N → Vec F S1024x1024 .f32
  | 0, hn => ptA1 V c ⟨0, hn⟩ (Nat.zero_mod _)
  | n + 1, hn =>
    if h0 : (n + 1) % 8 = 0 then ptA1 V c ⟨n + 1, hn⟩ h0
    else if h1 : (n + 1) % 8 = 7 then ptC1 V c ⟨n + 1, hn⟩ h1 (accAt1 c n (Nat.lt_of_succ_lt hn))
    else ptB1 V c ⟨n + 1, hn⟩ h0 h1 (accAt1 c n (Nat.lt_of_succ_lt hn))

theorem accAt1_A (c : Dev nD) (t : Fin cfg1.N) (h0 : t.val % 8 = 0) : accAt1 V c t.val t.isLt = ptA1 V c t h0 := by
  obtain ⟨n, hn⟩ := t
  cases n with
  | zero => rfl
  | succ n => exact dif_pos h0

theorem accAt1_B (c : Dev nD) (t : Fin cfg1.N) (h0 : ¬t.val % 8 = 0) (h1 : ¬t.val % 8 = 7) :
    accAt1 V c t.val t.isLt = ptB1 V c t h0 h1 (accAt1 V c (t.val - 1) (Nat.lt_of_le_of_lt (Nat.sub_le _ _) t.isLt)) := by
  obtain ⟨n, hn⟩ := t
  cases n with
  | zero => exact absurd (Nat.zero_mod _) h0
  | succ n => exact (dif_neg h0).trans (dif_neg h1)

theorem accAt1_C (c : Dev nD) (t : Fin cfg1.N) (h1 : t.val % 8 = 7) :
    accAt1 V c t.val t.isLt = ptC1 V c t h1 (accAt1 V c (t.val - 1) (Nat.lt_of_le_of_lt (Nat.sub_le _ _) t.isLt)) := by
  obtain ⟨n, hn⟩ := t
  cases n with
  | zero => exact absurd (show 0 % 8 = 7 from h1) (by decide)
  | succ n => exact (dif_neg (show ¬(n + 1) % 8 = 0 from fun h => by have h1' : (n + 1) % 8 = 7 := h1; omega)).trans (dif_pos h1)

/-- The output window's buffer after the body at point t: the last case's result where the contraction block is the
    last; elsewhere a placeholder nothing reads. -/
def outAt1 (c : Dev nD) (t : Fin cfg1.N) : Vec F S1024x1024 .f32 :=
  if h1 : t.val % 8 = 7 then ptO1 V c t h1 (accAt1 V c (t.val - 1) (Nat.lt_of_le_of_lt (Nat.sub_le _ _) t.isLt))
  else VO1.read (Elt F) (VO1.writes (Elt F) VO1.junk [])

theorem outAt1_C (c : Dev nD) (t : Fin cfg1.N) (h1 : t.val % 8 = 7) :
    outAt1 V c t = ptO1 V c t h1 (accAt1 V c (t.val - 1) (Nat.lt_of_le_of_lt (Nat.sub_le _ _) t.isLt)) := dif_pos h1

/-! ## The invariant and the proof data -/

/-- Before position n: at n = 0 every scoped buffer at anything; afterwards the accumulator at what position n − 1
    left, the other scoped buffers at anything, the generator register at some state. -/
def PhiS1 (c : Dev nD) : (n : ℕ) → n ≤ cfg1.N → sProp 𝕄
  | 0, _ => Pipeline.ΦA spec1 c
  | n + 1, hn => iprop((owns (c : Thread nD τ) scM1 fullShare (accAt1 V c n hn) ∗ others1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop((owns (c : Thread nD τ) scM1 fullShare (accAt1 V c n hn) ∗ others1 c) ∗ (∃ r, prngReg c r)) := rfl
theorem PhiS1_pos (c : Dev nD) (n : ℕ) (h : n ≤ cfg1.N) (hz : n ≠ 0) :
    PhiS1 V c n h = iprop((owns (c : Thread nD τ) scM1 fullShare (accAt1 V c (n - 1) (by omega)) ∗ others1 c) ∗ (∃ r, prngReg c r)) := by
  cases n with
  | zero => exact absurd rfl hz
  | succ n => rfl

/-- The pipeline's proof data on core c: the arrays as the region finds them; after the body each input's buffer at
    its block, the output's at `outAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outAt1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

/-- Before a point the invariant yields the accumulator's buffer at SOME contents (all the first case needs). -/
theorem PhiS1_any (c : Dev nD) (n : ℕ) (h : n ≤ cfg1.N) :
    PhiS1 V c n h ⊢ iprop(((∃ d, owns (c : Thread nD τ) scM1 fullShare d) ∗ others1 c) ∗ (∃ r, prngReg c r)) := by
  by_cases hz : n = 0
  · rw [PhiS1_zero V c _ _ hz]; exact PhiA1_open c
  · rw [PhiS1_pos V c _ _ hz]
    iintro ⟨⟨HS, Ho⟩, Hg⟩
    isplitr [Hg]
    · isplitl [HS]; · iexists _; iexact HS
      iexact Ho
    iexact Hg

set_option maxHeartbeats 4800000 in
/-- The body at any point: the inputs' buffers hold their blocks; the position modulo 8 says which case the point is
    in; the invariant hands over the accumulator at what the point before left (at anything in the first case) and
    takes it back at this point's contents; the output's buffer comes back untouched where the window is idle and at
    the last case's result where it is live; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [PhiS1_castSucc V c t]
  have hN : t.val < 256 := lt_of_lt_of_eq t.isLt (show cfg1.N = 256 from N_1)
  by_cases h0 : t.val % 8 = 0
  · have h1 : ¬t.val % 8 = 7 := by omega
    have hc0 : cond1_0 (grid1.coords t) := (hcond1_0 t).mpr h0
    have hc1 : ¬cond1_1 (grid1.coords t) := fun h => h1 ((hcond1_1 t).mp h)
    rw [Dat.leavesExact_idle (dat1 V c) 2 t (idleAt1_2 t hc1) (noFlush1_2 t hc1)]
    rw [accAt1_A V c t h0]
    unfold ptA1 sout1_A
    iintro ⟨HΦ, Ho, ⟨%d0, H0⟩, ⟨%d1, H1⟩, ⟨%d2, H2⟩⟩
    ihave HΦ' := (PhiS1_any V c _ _) $$ HΦ
    icases HΦ' with ⟨⟨HS0, Hoth⟩, Hg⟩
    iapply ((kernelRun1_A c (grid1.coords t) _ _ _ _ _ _ _ _ hc0 hc1 (iblk1 V c 0 t) (iblk1 V c 1 t)).2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hoth Hg]
    · isplitr [Hg]
      · isplitr [Hoth]
        · unfold owns; iexists _; isplitr
          swap; · iexact HS0
          ipureintro; exact View.read_writes_of_cover _ _ _ _ _ (scover1_A c _ _ _ _ _ _ _ _ _ _ _ _ _)
        iexact Hoth
      iexact Hg
    isplitl [Ho]; · iexact Ho
    isplitl [H0]; · iexact H0
    isplitl [H1]; · iexact H1
    iexists _; iexact H2
  · have hz : t.val ≠ 0 := fun h => h0 (by rw [h])
    have hc0 : ¬cond1_0 (grid1.coords t) := fun h => h0 ((hcond1_0 t).mp h)
    rw [PhiS1_pos V c _ _ hz]
    by_cases h1 : t.val % 8 = 7
    · have hc1 : cond1_1 (grid1.coords t) := (hcond1_1 t).mpr h1
      rw [show (dat1 V c).leavesExact 2 t = owns (c : Thread nD τ) (ms1_2 t) fullShare ((dat1 V c).after 2 t) from by
        unfold Dat.leavesExact; rw [liveAt1_2 t hc1], after1_2, outAt1_C V c t h1]
      rw [accAt1_C V c t h1]
      unfold ptC1 ptO1 sout1_C out1_C
      iintro ⟨⟨⟨HS0, Hoth⟩, Hg⟩, Ho, ⟨%d0, H0⟩, ⟨%d1, H1⟩, ⟨%d2, H2⟩⟩
      iapply ((kernelRun1_C c (grid1.coords t) _ _ _ _ _ _ _ _ hc0 hc1 (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitr [Hg]
        · isplitr [Hoth]
          · unfold owns; iexists _; isplitr
            swap; · iexact HS0
            ipureintro; exact View.read_writes_of_cover _ _ _ _ _ (scover1_C c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C c _ _ _ _ _ _ _ _ _ _ _ _ _ _)
    · have hc1 : ¬cond1_1 (grid1.coords t) := fun h => h1 ((hcond1_1 t).mp h)
      rw [Dat.leavesExact_idle (dat1 V c) 2 t (idleAt1_2 t hc1) (noFlush1_2 t hc1)]
      rw [accAt1_B V c t h0 h1]
      unfold ptB1 sout1_B
      iintro ⟨⟨⟨HS0, Hoth⟩, Hg⟩, Ho, ⟨%d0, H0⟩, ⟨%d1, H1⟩, ⟨%d2, H2⟩⟩
      iapply ((kernelRun1_B c (grid1.coords t) _ _ _ _ _ _ _ _ hc0 hc1 (iblk1 V c 0 t) (iblk1 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitr [Hg]
        · isplitr [Hoth]
          · unfold owns; iexists _; isplitr
            swap; · iexact HS0
            ipureintro; exact View.read_writes_of_cover _ _ _ _ _ (scover1_B c _ _ _ _ _ _ _ _ _ _ _ _ _ _)
          iexact Hoth
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point, -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- and after the last point the invariant gives it back, the accumulator's contents forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl]
  exact (PhiS1_any V c _ _).trans (PhiA1_close c)

end Cert.Kernel.Fr

end
-- ==== Proof.K.Frame.lean ====
/-
  The run of the whole program: host operations, then the two regions, as segments of @main.

  The contents of the core's unscoped buffers at each boundary are a fold from the launch memory: after the four
  host operations (the zero point as a column, the bias as a row, the tokens and the second weight in the narrower
  float format) every buffer holds what those operations leave; after a region its windows' arrays hold what the
  pipeline's write-backs leave (an input as entered, the output each flushed block in place) and every other buffer
  what it held on entry. Each region is a segment whose body obligation is the one proved for its proof data at the
  region's entry contents; the launch theorem for a list of segments then gives: every weakly fair execution
  terminates, and the final memory holds every unscoped buffer at the last contents of the fold. Read at an
  argument's buffer that is the launch memory (no operation and no region writes an argument); read at the result's
  buffer it is what the second region's write-backs leave.
-/
import proofs.«127535_j57449482551364_1_alg».proof.Proof.K.Reg0
import proofs.«127535_j57449482551364_1_alg».proof.Proof.K.Reg1
import proofs.«127535_j57449482551364_1_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => m (c, b)
/-- After the host operations: the first region's entry. -/
abbrev W1 : Dev nD → Valuation τ sig (Elt F) := fun c => StableHlo.after hostOps0 (W0 m c)
abbrev E1 : (c : Dev nD) → (b : Ref sig .tc) → Buf (Elt F) ((c : Thread nD τ).loc b) := fun c b => W1 m c b
/-- After the first region: its arrays at what the pipeline leaves, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)
/-- After the second region. -/
def W3 (c : Dev nD) : Valuation τ sig (Elt F) :=
  Pipeline.withArrays spec1 c (W2 m c) fun w => (dat1 (E2 m) c).arrAt w cfg1.N
theorem W3_arr (c : Dev nD) (w : Fin cfg1.W) :
    W3 m c (Proc.devRef .tc (Pipeline.arrRef spec1 w)) = (dat1 (E2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev E3 : (c : Dev nD) → (b : Ref sig .tc) → Buf (Elt F) ((c : Thread nD τ).loc b) := fun c b => W3 m c b
theorem hF1 (c : Dev nD) (w : Fin cfg1.W) : (dat1 (E2 m) c).arrAt w cfg1.N = E3 m c (Pipeline.arrRef spec1 w) :=
  (W3_arr m c w).symm
theorem hrest1 (c : Dev nD) : ∀ b, b ∉ Finset.univ.image (Pipeline.arrRef spec1) → E3 m c b = E2 m c b :=
  fun b hb => W3_of_ne m c b fun w e => hb (Finset.mem_image.mpr ⟨w, Finset.mem_univ _, e⟩)

/-! ### The arguments end as launched, the result at what the second region leaves -/

/-- A buffer the host operations do not write holds after them what it held at launch. -/
theorem W1_of (c : Dev nD) (r : Ref sig .tc) (h : r ∉ hostOps0_W) : W1 m c r = m ((c : Thread nD τ).loc r) :=
  StableHlo.after_of_writes_sub hostOps0 _ hostOps0_writes h

theorem W3_main_arg0 (c : Dev nD) : W3 m c (Proc.devRef .tc main_arg0) = m ((c : Thread nD τ).loc main_arg0) :=
  (W3_of_ne m c main_arg0 (by decide)).trans ((W2_of_ne m c main_arg0 (by decide)).trans (W1_of m c main_arg0 (by decide)))
theorem W3_main_arg1 (c : Dev nD) : W3 m c (Proc.devRef .tc main_arg1) = m ((c : Thread nD τ).loc main_arg1) :=
  (W3_of_ne m c main_arg1 (by decide)).trans (((W2_arr m c 1).trans (((dat0 (E1 m) c).arrAt_in 1 rfl _).trans (A_eq0 (E1 m) c 1))).trans (W1_of m c main_arg1 (by decide)))
theorem W3_main_arg2 (c : Dev nD) : W3 m c (Proc.devRef .tc main_arg2) = m ((c : Thread nD τ).loc main_arg2) :=
  (W3_of_ne m c main_arg2 (by decide)).trans ((W2_of_ne m c main_arg2 (by decide)).trans (W1_of m c main_arg2 (by decide)))
theorem W3_main_arg3 (c : Dev nD) : W3 m c (Proc.devRef .tc main_arg3) = m ((c : Thread nD τ).loc main_arg3) :=
  (W3_of_ne m c main_arg3 (by decide)).trans ((W2_of_ne m c main_arg3 (by decide)).trans (W1_of m c main_arg3 (by decide)))
theorem W3_main_arg4 (c : Dev nD) : W3 m c (Proc.devRef .tc main_arg4) = m ((c : Thread nD τ).loc main_arg4) :=
  (W3_of_ne m c main_arg4 (by decide)).trans ((W2_of_ne m c main_arg4 (by decide)).trans (W1_of m c main_arg4 (by decide)))
/-- The result's buffer ends at what the second region's write-backs leave. -/
theorem W3_main_v5 (c : Dev nD) : W3 m c (Proc.devRef .tc main_v5) = (dat1 (E2 m) c).arrAt 2 cfg1.N :=
  W3_arr m c 2
/-- The hidden array, as the second region finds it, is what the first region's write-backs leave; -/
theorem E2_main_v4 (c : Dev nD) : E2 m c main_v4 = (dat0 (E1 m) c).arrAt 4 cfg0.N :=
  W2_arr m c 4
/-- the second weight in the narrower format is untouched by the first region. -/
theorem E2_main_v3 (c : Dev nD) : E2 m c main_v3 = E1 m c main_v3 :=
  W2_of_ne m c main_v3 (by decide)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E2 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- The host stretch as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- Region 0 over the thread state: entered with every unscoped buffer at the contents before it, left with them at
    the contents after it. Its arrays are split out of the unscoped buffers and put back at what the pipeline leaves;
    the generator register goes into the invariant and comes back; nothing is owed; the kernel has no semaphore of
    its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (E1 m) c).Φ 0 from rfl]
    refine .trans ?_ (hin0 (E1 m) c)
    unfold Pipeline.ΦA
    iintro ⟨Hp, -, Hr⟩
    isplitl [Hr]; · iexact Hr
    iexact Hp
  hout c := by
    rw [Pipeline.ownSems0_none, show (pdats m 0 c).Φ (Fin.last _) = (dat0 (E1 m) c).Φ (Fin.last cfg0.N) from rfl]
    refine (hout0 (E1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with them at
    the contents after it. Its arrays are split out of the unscoped buffers and put back at what the pipeline leaves;
    the generator register goes into the invariant and comes back; nothing is owed; the kernel has no semaphore of
    its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (E2 m) c).Φ 0 from rfl]
    refine .trans ?_ (hin1 (E2 m) c)
    unfold Pipeline.ΦA
    iintro ⟨Hp, -, Hr⟩
    isplitl [Hr]; · iexact Hr
    iexact Hp
  hout c := by
    rw [Pipeline.ownSems0_none, show (pdats m 1 c).Φ (Fin.last _) = (dat1 (E2 m) c).Φ (Fin.last cfg1.N) from rfl]
    refine (hout1 (E2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m) ]
/-- @main is the run of the segments. -/
theorem main_run (c : Dev nD) : main (F := F) c = Pipeline.Seg.run (segs m) := (main_chain c).trans (by chain_rfl)

set_option backward.isDefEq.respectTransparency.types false in
/-- THE RUN. From any memory with zero counters every weakly fair execution of @main terminates, nothing faulting,
    and the final memory holds every unscoped buffer of the core at the last contents of the fold. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- THE FRAME: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c)⟩) (run_all m ρ)

/-- The run with the result named: the result array at what the second region's write-backs leave, the arguments as
    launched. -/
theorem run_result : θ_run defs (onTc (τ := τ) (main (F := F))) ⟨m, fun _ => 0, ρ⟩ (fun r => ∀ c : Dev nD,
      r.2.mem ((c.tc : Thread nD τ).loc main_v5) = (dat1 (E2 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v5 (by decide))).trans (W3_main_v5 m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c)⟩) (run_all m ρ)

end Cert.Kernel.Fr

end
-- ==== Proof.KI.Base.lean ====
/-
  What the two accumulating matrix-product regions share with their runs, stated at the contents V the core's
  buffers hold when a region is entered.

  Each region walks a grid (row block, column block, contraction block), the contraction block innermost. At a
  point it is handed one block of each input and keeps a 1024 x 1024 accumulator in a scratch buffer across the
  points of one (row block, column block) pair: the accumulator is reset where the contraction block is the first,
  added to at every point, and turned into the output block where the contraction block is the last. So a point is
  in one of three cases, decided by its position modulo the number of contraction blocks (4 in the first region,
  8 in the second); the output window is idle, and not written back, in the first two.
  Here: a window's block at a point read off its array; that an input's staging buffer holds that block at every
  point, fetched there or not; the two branch conditions in closed form over the grid; where the output window is
  idle; the staging and scratch memrefs a point runs on; and the class invariant opened into the accumulator's
  buffer, the other scoped buffers, and the generator register.
-/
import proofs.«127535_j57449482551364_1_alg».proof.Proof.Gen.KernelIdeal.Launch
import proofs.«127535_j57449482551364_1_alg».proof.Proof.Gen.KernelIdeal.Skeleton
import proofs.«127535_j57449482551364_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The first region: h = silu (x · (w1 − zp)ᵀ + b1), 8 x 8 x 4 points -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's staging buffer holds its block at every point, fetched there or not (where it is not fetched the
    block index has not moved), for any proof data over the entry contents whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The reset branch is taken: the contraction block is the first. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- The output branch is taken: the contraction block is the last. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-- The inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Where the output branch is not taken the output window is idle and is not written back; where it is, live. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-- Each window's current staging memref at point t, as the pipeline passes it to the body, and its wholeness. -/
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .bf16 := win0_4.stage (cfg0.slots t 4)
abbrev hs0_4 (t : Fin cfg0.N) : (ms0_4 t).IsWhole := hstage0_4 ((cfg0.slots t 4).cast nbuf0_4)
/-- The accumulator: a whole scoped buffer of the kernel's own. -/
abbrev scM0 : Memref sig .tc .vmem S1024x1024 .f32 := Memref.whole cc0_scratch0
abbrev VS0 : View sig .tc .vmem S1024x1024 .f32 := scM0.view
/-- One staging buffer of the output window, through which its contents are stated (the choice does not matter). -/
abbrev VO0 : View sig .tc .vmem S1024x1024 .bf16 := (Memref.whole cc0_stg4_0 : Memref sig .tc .vmem S1024x1024 .bf16).view

/-- The core's scoped buffers the first region neither stages through nor accumulates in, each at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The class invariant of the first region: its accumulator at some contents, the other scoped buffers, the
    generator register at some state. -/
theorem PhiA0_eq (c : Dev nD) :
    (Pipeline.ΦA spec0 c : sProp 𝕄)
      = iprop(((∃ d, owns (c : Thread nD τ) scM0 fullShare d) ∗ others0 c) ∗ (∃ r, prngReg c r)) := by
  unfold Pipeline.ΦA others0; rw [scopedRest0_eq]; simp only [scM0, owns_whole]; try rfl

/-! # The second region: out = h · w2ᵀ, 8 x 4 x 8 points -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The reset branch is taken: the contraction block is the first. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The output branch is taken: the contraction block is the last. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .f32 := win1_2.stage (cfg1.slots t 2)
abbrev hs1_2 (t : Fin cfg1.N) : (ms1_2 t).IsWhole := hstage1_2 ((cfg1.slots t 2).cast nbuf1_2)
abbrev scM1 : Memref sig .tc .vmem S1024x1024 .f32 := Memref.whole cc1_scratch0
abbrev VS1 : View sig .tc .vmem S1024x1024 .f32 := scM1.view
abbrev VO1 : View sig .tc .vmem S1024x1024 .f32 := (Memref.whole cc1_stg2_0 : Memref sig .tc .vmem S1024x1024 .f32).view

/-- The core's scoped buffers the second region neither stages through nor accumulates in, each at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f))

/-- The class invariant of the second region opens into its accumulator at some contents, the other scoped buffers
    and the generator register at some state; -/
theorem PhiA1_open (c : Dev nD) :
    (Pipeline.ΦA spec1 c : sProp 𝕄) ⊢ iprop(((∃ d, owns (c : Thread nD τ) scM1 fullShare d) ∗ others1 c) ∗ (∃ r, prngReg c r)) := by
  unfold Pipeline.ΦA others1; rw [scopedRest1_eq]; simp only [scM1, owns_whole]
  iintro ⟨⟨H1, H2, H3, H4, H5, H6, H7, H8, H9, H10, H11, HS⟩, Hg⟩
  isplitr [Hg]
  · isplitl [HS]; · iexact HS
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  iexact Hg

/-- and closes from them. -/
theorem PhiA1_close (c : Dev nD) :
    iprop(((∃ d, owns (c : Thread nD τ) scM1 fullShare d) ∗ others1 c) ∗ (∃ r, prngReg c r)) ⊢ (Pipeline.ΦA spec1 c : sProp 𝕄) := by
  unfold Pipeline.ΦA others1; rw [scopedRest1_eq]; simp only [scM1, owns_whole]
  iintro ⟨⟨HS, H1, H2, H3, H4, H5, H6, H7, H8, H9, H10, H11⟩, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact HS
  iexact Hg

end Cert.KernelIdeal.Fr

end
-- ==== Proof.KI.Run0A.lean ====
/-
  The first region's body at a point where the contraction block is the first (and not the last): the
  accumulator, whatever it held, is overwritten with zeros and then with zeros plus the product of the token block
  with the zero-point-adjusted weight block; the output window's buffer is not touched. The pieces the accumulator
  ends with are found by running the body's memory operations.
-/
import proofs.«127535_j57449482551364_1_alg».proof.Proof.KI.Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the four inputs at their blocks, the output's buffer at any contents (handed back as found),
    the accumulator at anything — the body runs, and leaves the accumulator with the pieces `LS` written. -/
noncomputable def kernelRun0_A (c : Dev nD) (i : grid0.Coords) (arg3 : Memref sig .tc .vmem S1024x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : cond0_0 i) (hc1 : ¬cond0_1 i)
    (x0 : Vec F S1024x1024 .bf16) (x1 : Vec F S1024x1024 .f32) (x2 : Vec F S1024x1 .f32) (x3 : Vec F S1x1024 .f32) :
    { LS : List (View.Piece (Elt F) S1024x1024 .f32) //
      ∀ (xi4 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc0__mlp1_kernel i arg3 harg3 arg4 harg4 arg5 harg5 arg6 harg6 arg7 harg7 arg8 harg8) K } := by
  refine ⟨?_, fun xi4 E K => ?run⟩
  case run =>
    simp only [cc0__mlp1_kernel_eq_skeleton]; unfold cc0__mlp1_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Fr

end
-- ==== Proof.KI.Run0B.lean ====
/-
  The first region's body at a point where the contraction block is neither the first nor the last: the
  accumulator, holding what the point before left, gets the product of the token block with the
  zero-point-adjusted weight block added; the output window's buffer is not touched.
-/
import proofs.«127535_j57449482551364_1_alg».proof.Proof.KI.Run0A

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the four inputs at their blocks, the output's buffer at any contents (handed back as found),
    the accumulator at `xs` — the body runs, and leaves the accumulator with the pieces `LS` written. -/
noncomputable def kernelRun0_B (c : Dev nD) (i : grid0.Coords) (arg3 : Memref sig .tc .vmem S1024x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : ¬cond0_1 i)
    (x0 : Vec F S1024x1024 .bf16) (x1 : Vec F S1024x1024 .f32) (x2 : Vec F S1024x1 .f32) (x3 : Vec F S1x1024 .f32) (xs : Vec F S1024x1024 .f32) :
    { LS : List (View.Piece (Elt F) S1024x1024 .f32) //
      ∀ (xi4 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc0__mlp1_kernel i arg3 harg3 arg4 harg4 arg5 harg5 arg6 harg6 arg7 harg7 arg8 harg8) K } := by
  refine ⟨?_, fun xi4 E K => ?run⟩
  case run =>
    simp only [cc0__mlp1_kernel_eq_skeleton]; unfold cc0__mlp1_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Fr

end
-- ==== Proof.KI.Run0C.lean ====
/-
  The first region's body at a point where the contraction block is the last (and not the first): the
  accumulator, holding what the point before left, gets the product of the token block with the
  zero-point-adjusted weight block added; then the bias row is added to its new contents, z · σ(z) is applied, and
  the result is stored into the output window's buffer, whatever that held.
-/
import proofs.«127535_j57449482551364_1_alg».proof.Proof.KI.Run0B

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the four inputs at their blocks, the output's buffer at anything, the accumulator at `xs` —
    the body runs, and leaves the output's buffer with the pieces `L` and the accumulator with the pieces `LS`
    written. -/
noncomputable def kernelRun0_C (c : Dev nD) (i : grid0.Coords) (arg3 : Memref sig .tc .vmem S1024x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : cond0_1 i)
    (x0 : Vec F S1024x1024 .bf16) (x1 : Vec F S1024x1024 .f32) (x2 : Vec F S1024x1 .f32) (x3 : Vec F S1x1024 .f32) (xs : Vec F S1024x1024 .f32) :
    Σ' (L : List (View.Piece (Elt F) S1024x1024 .bf16)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L) ∗ (∃ f, arg8.view.loc (c : Thread nD τ) ↦[arg8.view.set]{fullShare} arg8.view.writes (Elt F) f LS)) -∗ K ⟨⟩))
          ⊢ wp frame (wpE (defs₀ (F := F)) Variants.none c none) E (cc0__mlp1_kernel i arg3 harg3 arg4 harg4 arg5 harg5 arg6 harg6 arg7 harg7 arg8 harg8) K } := by
  refine ⟨?_, ?_, fun E K => ?run⟩
  case run =>
    simp only [cc0__mlp1_kernel_eq_skeleton]; unfold cc0__mlp1_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.KernelIdeal.Fr

end
-- ==== Proof.KI.Reg0.lean ====
/-
  The first region, h = silu (x · (w1 − zp)ᵀ + b1), as proof data for its pipeline, at the contents V its arrays
  hold on entry.

  What a case of the body leaves in the accumulator (and, in the last case, in the output window's buffer) is read
  back from the pieces its run found, which tile the buffer. The accumulator after the body at position n is then
  defined by recursion on n: at a position ≡ 0 (mod 4) the first case at that point's blocks, otherwise the middle
  or the last case at that point's blocks over what position n − 1 left. The region's invariant before position
  n > 0 holds the accumulator's buffer at exactly that; before position 0 it is the class invariant (every scoped
  buffer at anything). The output window's buffer after the body is the last case's result where the position is
  ≡ 3 (mod 4), and is not looked at elsewhere (the window is idle there and is not written back). With these the
  body meets its obligation at every point: a case split on the position modulo 4, each leaf that case's run.
-/
import proofs.«127535_j57449482551364_1_alg».proof.Proof.KI.Run0C

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The class invariant opens into the accumulator at some contents, the other scoped buffers and the generator
    register, and closes from them. -/
theorem PhiA0_open (c : Dev nD) :
    (Pipeline.ΦA spec0 c : sProp 𝕄) ⊢ iprop(((∃ d, owns (c : Thread nD τ) scM0 fullShare d) ∗ others0 c) ∗ (∃ r, prngReg c r)) :=
  Entails.of_eq (PhiA0_eq c)
theorem PhiA0_close (c : Dev nD) :
    iprop(((∃ d, owns (c : Thread nD τ) scM0 fullShare d) ∗ others0 c) ∗ (∃ r, prngReg c r)) ⊢ (Pipeline.ΦA spec0 c : sProp 𝕄) :=
  Entails.of_eq (PhiA0_eq c).symm

/-! ## What each case leaves -/

/-- The first case's pieces tile the accumulator. -/
theorem scover0_A (c : Dev nD) (i : grid0.Coords) (arg3 : Memref sig .tc .vmem S1024x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : cond0_0 i) (hc1 : ¬cond0_1 i) (x0 : Vec F S1024x1024 .bf16) (x1 : Vec F S1024x1024 .f32) (x2 : Vec F S1024x1 .f32) (x3 : Vec F S1x1024 .f32) (y : S1024x1024.Idx) :
    ∃ pc ∈ (kernelRun0_A c i arg3 harg3 arg4 harg4 arg5 harg5 arg6 harg6 arg7 harg7 arg8 harg8 hc0 hc1 x0 x1 x2 x3).1, y ∈ pc.1.set :=
  View.cover_of_tiledL (kernelRun0_A c i arg3 harg3 arg4 harg4 arg5 harg5 arg6 harg6 arg7 harg7 arg8 harg8 hc0 hc1 x0 x1 x2 x3).1 S1024x1024.size (by sl_kernel_rfl) y
/-- What the first case leaves in the accumulator. -/
def sout0_A (c : Dev nD) (i : grid0.Coords) (arg3 : Memref sig .tc .vmem S1024x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : cond0_0 i) (hc1 : ¬cond0_1 i) (x0 : Vec F S1024x1024 .bf16) (x1 : Vec F S1024x1024 .f32) (x2 : Vec F S1024x1 .f32) (x3 : Vec F S1x1024 .f32) : Vec F S1024x1024 .f32 :=
  VS0.read (Elt F) (VS0.writes (Elt F) VS0.junk (kernelRun0_A c i arg3 harg3 arg4 harg4 arg5 harg5 arg6 harg6 arg7 harg7 arg8 harg8 hc0 hc1 x0 x1 x2 x3).1)

/-- The middle case's pieces tile the accumulator. -/
theorem scover0_B (c : Dev nD) (i : grid0.Coords) (arg3 : Memref sig .tc .vmem S1024x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : ¬cond0_1 i) (x0 : Vec F S1024x1024 .bf16) (x1 : Vec F S1024x1024 .f32) (x2 : Vec F S1024x1 .f32) (x3 : Vec F S1x1024 .f32) (xs : Vec F S1024x1024 .f32) (y : S1024x1024.Idx) :
    ∃ pc ∈ (kernelRun0_B c i arg3 harg3 arg4 harg4 arg5 harg5 arg6 harg6 arg7 harg7 arg8 harg8 hc0 hc1 x0 x1 x2 x3 xs).1, y ∈ pc.1.set :=
  View.cover_of_tiledL (kernelRun0_B c i arg3 harg3 arg4 harg4 arg5 harg5 arg6 harg6 arg7 harg7 arg8 harg8 hc0 hc1 x0 x1 x2 x3 xs).1 S1024x1024.size (by sl_kernel_rfl) y
/-- What the middle case leaves in the accumulator. -/
def sout0_B (c : Dev nD) (i : grid0.Coords) (arg3 : Memref sig .tc .vmem S1024x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : ¬cond0_1 i) (x0 : Vec F S1024x1024 .bf16) (x1 : Vec F S1024x1024 .f32) (x2 : Vec F S1024x1 .f32) (x3 : Vec F S1x1024 .f32) (xs : Vec F S1024x1024 .f32) : Vec F S1024x1024 .f32 :=
  VS0.read (Elt F) (VS0.writes (Elt F) VS0.junk (kernelRun0_B c i arg3 harg3 arg4 harg4 arg5 harg5 arg6 harg6 arg7 harg7 arg8 harg8 hc0 hc1 x0 x1 x2 x3 xs).1)

/-- The last case's pieces tile the accumulator, -/
theorem scover0_C (c : Dev nD) (i : grid0.Coords) (arg3 : Memref sig .tc .vmem S1024x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : cond0_1 i) (x0 : Vec F S1024x1024 .bf16) (x1 : Vec F S1024x1024 .f32) (x2 : Vec F S1024x1 .f32) (x3 : Vec F S1x1024 .f32) (xs : Vec F S1024x1024 .f32) (y : S1024x1024.Idx) :
    ∃ pc ∈ (kernelRun0_C c i arg3 harg3 arg4 harg4 arg5 harg5 arg6 harg6 arg7 harg7 arg8 harg8 hc0 hc1 x0 x1 x2 x3 xs).2.1, y ∈ pc.1.set :=
  View.cover_of_tiledL (kernelRun0_C c i arg3 harg3 arg4 harg4 arg5 harg5 arg6 harg6 arg7 harg7 arg8 harg8 hc0 hc1 x0 x1 x2 x3 xs).2.1 S1024x1024.size (by sl_kernel_rfl) y
/-- and the output window's buffer. -/
theorem cover0_C (c : Dev nD) (i : grid0.Coords) (arg3 : Memref sig .tc .vmem S1024x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : cond0_1 i) (x0 : Vec F S1024x1024 .bf16) (x1 : Vec F S1024x1024 .f32) (x2 : Vec F S1024x1 .f32) (x3 : Vec F S1x1024 .f32) (xs : Vec F S1024x1024 .f32) (y : S1024x1024.Idx) :
    ∃ pc ∈ (kernelRun0_C c i arg3 harg3 arg4 harg4 arg5 harg5 arg6 harg6 arg7 harg7 arg8 harg8 hc0 hc1 x0 x1 x2 x3 xs).1, y ∈ pc.1.set :=
  View.cover_of_tiledL (kernelRun0_C c i arg3 harg3 arg4 harg4 arg5 harg5 arg6 harg6 arg7 harg7 arg8 harg8 hc0 hc1 x0 x1 x2 x3 xs).1 S1024x1024.size (by sl_kernel_rfl) y
/-- What the last case leaves in the accumulator, -/
def sout0_C (c : Dev nD) (i : grid0.Coords) (arg3 : Memref sig .tc .vmem S1024x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : cond0_1 i) (x0 : Vec F S1024x1024 .bf16) (x1 : Vec F S1024x1024 .f32) (x2 : Vec F S1024x1 .f32) (x3 : Vec F S1x1024 .f32) (xs : Vec F S1024x1024 .f32) : Vec F S1024x1024 .f32 :=
  VS0.read (Elt F) (VS0.writes (Elt F) VS0.junk (kernelRun0_C c i arg3 harg3 arg4 harg4 arg5 harg5 arg6 harg6 arg7 harg7 arg8 harg8 hc0 hc1 x0 x1 x2 x3 xs).2.1)
/-- and in the output window's buffer. -/
def out0_C (c : Dev nD) (i : grid0.Coords) (arg3 : Memref sig .tc .vmem S1024x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : cond0_1 i) (x0 : Vec F S1024x1024 .bf16) (x1 : Vec F S1024x1024 .f32) (x2 : Vec F S1024x1 .f32) (x3 : Vec F S1x1024 .f32) (xs : Vec F S1024x1024 .f32) : Vec F S1024x1024 .bf16 :=
  VO0.read (Elt F) (VO0.writes (Elt F) VO0.junk (kernelRun0_C c i arg3 harg3 arg4 harg4 arg5 harg5 arg6 harg6 arg7 harg7 arg8 harg8 hc0 hc1 x0 x1 x2 x3 xs).1)

/-! ## The cases at a point's own memrefs and blocks -/

def ptA0 (c : Dev nD) (t : Fin cfg0.N) (h0 : t.val % 4 = 0) : Vec F S1024x1024 .f32 :=
  sout0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => by have := (hcond0_1 t).mp h; omega) (iblk0 V c 0 t) (iblk0 V c 1 t) (iblk0 V c 2 t) (iblk0 V c 3 t)
def ptB0 (c : Dev nD) (t : Fin cfg0.N) (h0 : ¬t.val % 4 = 0) (h1 : ¬t.val % 4 = 3) (xs : Vec F S1024x1024 .f32) : Vec F S1024x1024 .f32 :=
  sout0_B c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (fun h => h1 ((hcond0_1 t).mp h)) (iblk0 V c 0 t) (iblk0 V c 1 t) (iblk0 V c 2 t) (iblk0 V c 3 t) xs
def ptC0 (c : Dev nD) (t : Fin cfg0.N) (h1 : t.val % 4 = 3) (xs : Vec F S1024x1024 .f32) : Vec F S1024x1024 .f32 :=
  sout0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => by have := (hcond0_0 t).mp h; omega) ((hcond0_1 t).mpr h1) (iblk0 V c 0 t) (iblk0 V c 1 t) (iblk0 V c 2 t) (iblk0 V c 3 t) xs
def ptO0 (c : Dev nD) (t : Fin cfg0.N) (h1 : t.val % 4 = 3) (xs : Vec F S1024x1024 .f32) : Vec F S1024x1024 .bf16 :=
  out0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => by have := (hcond0_0 t).mp h; omega) ((hcond0_1 t).mpr h1) (iblk0 V c 0 t) (iblk0 V c 1 t) (iblk0 V c 2 t) (iblk0 V c 3 t) xs

/-! ## The accumulator, point by point -/

/-- The accumulator after the body at position n. -/
def accAt0 (c : Dev nD) : (n : ℕ) → n < cfg0.N → Vec F S1024x1024 .f32
  | 0, hn => ptA0 V c ⟨0, hn⟩ (Nat.zero_mod _)
  | n + 1, hn =>
    if h0 : (n + 1) % 4 = 0 then ptA0 V c ⟨n + 1, hn⟩ h0
    else if h1 : (n + 1) % 4 = 3 then ptC0 V c ⟨n + 1, hn⟩ h1 (accAt0 c n (Nat.lt_of_succ_lt hn))
    else ptB0 V c ⟨n + 1, hn⟩ h0 h1 (accAt0 c n (Nat.lt_of_succ_lt hn))

theorem accAt0_A (c : Dev nD) (t : Fin cfg0.N) (h0 : t.val % 4 = 0) : accAt0 V c t.val t.isLt = ptA0 V c t h0 := by
  obtain ⟨n, hn⟩ := t
  cases n with
  | zero => rfl
  | succ n => exact dif_pos h0

theorem accAt0_B (c : Dev nD) (t : Fin cfg0.N) (h0 : ¬t.val % 4 = 0) (h1 : ¬t.val % 4 = 3) :
    accAt0 V c t.val t.isLt = ptB0 V c t h0 h1 (accAt0 V c (t.val - 1) (Nat.lt_of_le_of_lt (Nat.sub_le _ _) t.isLt)) := by
  obtain ⟨n, hn⟩ := t
  cases n with
  | zero => exact absurd (Nat.zero_mod _) h0
  | succ n => exact (dif_neg h0).trans (dif_neg h1)

theorem accAt0_C (c : Dev nD) (t : Fin cfg0.N) (h1 : t.val % 4 = 3) :
    accAt0 V c t.val t.isLt = ptC0 V c t h1 (accAt0 V c (t.val - 1) (Nat.lt_of_le_of_lt (Nat.sub_le _ _) t.isLt)) := by
  obtain ⟨n, hn⟩ := t
  cases n with
  | zero => exact absurd (show 0 % 4 = 3 from h1) (by decide)
  | succ n => exact (dif_neg (show ¬(n + 1) % 4 = 0 from fun h => by have h1' : (n + 1) % 4 = 3 := h1; omega)).trans (dif_pos h1)

/-- The output window's buffer after the body at point t: the last case's result where the contraction block is the
    last; elsewhere a placeholder nothing reads. -/
def outAt0 (c : Dev nD) (t : Fin cfg0.N) : Vec F S1024x1024 .bf16 :=
  if h1 : t.val % 4 = 3 then ptO0 V c t h1 (accAt0 V c (t.val - 1) (Nat.lt_of_le_of_lt (Nat.sub_le _ _) t.isLt))
  else VO0.read (Elt F) (VO0.writes (Elt F) VO0.junk [])

theorem outAt0_C (c : Dev nD) (t : Fin cfg0.N) (h1 : t.val % 4 = 3) :
    outAt0 V c t = ptO0 V c t h1 (accAt0 V c (t.val - 1) (Nat.lt_of_le_of_lt (Nat.sub_le _ _) t.isLt)) := dif_pos h1

/-! ## The invariant and the proof data -/

/-- Before position n: at n = 0 every scoped buffer at anything; afterwards the accumulator at what position n − 1
    left, the other scoped buffers at anything, the generator register at some state. -/
def PhiS0 (c : Dev nD) : (n : ℕ) → n ≤ cfg0.N → sProp 𝕄
  | 0, _ => Pipeline.ΦA spec0 c
  | n + 1, hn => iprop((owns (c : Thread nD τ) scM0 fullShare (accAt0 V c n hn) ∗ others0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop((owns (c : Thread nD τ) scM0 fullShare (accAt0 V c n hn) ∗ others0 c) ∗ (∃ r, prngReg c r)) := rfl
theorem PhiS0_pos (c : Dev nD) (n : ℕ) (h : n ≤ cfg0.N) (hz : n ≠ 0) :
    PhiS0 V c n h = iprop((owns (c : Thread nD τ) scM0 fullShare (accAt0 V c (n - 1) (by omega)) ∗ others0 c) ∗ (∃ r, prngReg c r)) := by
  cases n with
  | zero => exact absurd rfl hz
  | succ n => rfl

/-- The pipeline's proof data on core c: the arrays as the region finds them; after the body each input's buffer at
    its block, the output's at `outAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outAt0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = outAt0 V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

/-- Before a point the invariant yields the accumulator's buffer at SOME contents (all the first case needs). -/
theorem PhiS0_any (c : Dev nD) (n : ℕ) (h : n ≤ cfg0.N) :
    PhiS0 V c n h ⊢ iprop(((∃ d, owns (c : Thread nD τ) scM0 fullShare d) ∗ others0 c) ∗ (∃ r, prngReg c r)) := by
  by_cases hz : n = 0
  · rw [PhiS0_zero V c _ _ hz]; exact PhiA0_open c
  · rw [PhiS0_pos V c _ _ hz]
    iintro ⟨⟨HS, Ho⟩, Hg⟩
    isplitr [Hg]
    · isplitl [HS]; · iexists _; iexact HS
      iexact Ho
    iexact Hg

set_option maxHeartbeats 4800000 in
/-- The body at any point: the inputs' buffers hold their blocks; the position modulo 4 says which case the point is
    in; the invariant hands over the accumulator at what the point before left (at anything in the first case) and
    takes it back at this point's contents; the output's buffer comes back untouched where the window is idle and at
    the last case's result where it is live; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [PhiS0_castSucc V c t]
  have hN : t.val < 256 := lt_of_lt_of_eq t.isLt (show cfg0.N = 256 from N_0)
  by_cases h0 : t.val % 4 = 0
  · have h1 : ¬t.val % 4 = 3 := by omega
    have hc0 : cond0_0 (grid0.coords t) := (hcond0_0 t).mpr h0
    have hc1 : ¬cond0_1 (grid0.coords t) := fun h => h1 ((hcond0_1 t).mp h)
    rw [Dat.leavesExact_idle (dat0 V c) 4 t (idleAt0_4 t hc1) (noFlush0_4 t hc1)]
    rw [accAt0_A V c t h0]
    unfold ptA0 sout0_A
    iintro ⟨HΦ, Ho, ⟨%d0, H0⟩, ⟨%d1, H1⟩, ⟨%d2, H2⟩, ⟨%d3, H3⟩, ⟨%d4, H4⟩⟩
    ihave HΦ' := (PhiS0_any V c _ _) $$ HΦ
    icases HΦ' with ⟨⟨HS0, Hoth⟩, Hg⟩
    iapply ((kernelRun0_A c (grid0.coords t) _ _ _ _ _ _ _ _ _ _ _ _ hc0 hc1 (iblk0 V c 0 t) (iblk0 V c 1 t) (iblk0 V c 2 t) (iblk0 V c 3 t)).2 _ Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, H3, H4, ⟨%es0, HS0⟩⟩
    isplitl [HS0 Hoth Hg]
    · isplitr [Hg]
      · isplitr [Hoth]
        · unfold owns; iexists _; isplitr
          swap; · iexact HS0
          ipureintro; exact View.read_writes_of_cover _ _ _ _ _ (scover0_A c _ _ _ _ _ _ _ _ _ _ _ _ _ _ _ _ _ _ _)
        iexact Hoth
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := fun h => h0 (by rw [h])
    have hc0 : ¬cond0_0 (grid0.coords t) := fun h => h0 ((hcond0_0 t).mp h)
    rw [PhiS0_pos V c _ _ hz]
    by_cases h1 : t.val % 4 = 3
    · have hc1 : cond0_1 (grid0.coords t) := (hcond0_1 t).mpr h1
      rw [show (dat0 V c).leavesExact 4 t = owns (c : Thread nD τ) (ms0_4 t) fullShare ((dat0 V c).after 4 t) from by
        unfold Dat.leavesExact; rw [liveAt0_4 t hc1], after0_4, outAt0_C V c t h1]
      rw [accAt0_C V c t h1]
      unfold ptC0 ptO0 sout0_C out0_C
      iintro ⟨⟨⟨HS0, Hoth⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ hc0 hc1 (iblk0 V c 0 t) (iblk0 V c 1 t) (iblk0 V c 2 t) (iblk0 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hoth Hg]
      · isplitr [Hg]
        · isplitr [Hoth]
          · unfold owns; iexists _; isplitr
            swap; · iexact HS0
            ipureintro; exact View.read_writes_of_cover _ _ _ _ _ (scover0_C c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C c _ _ _ _ _ _ _ _ _ _ _ _ _ _ _ _ _ _ _ _)
    · have hc1 : ¬cond0_1 (grid0.coords t) := fun h => h1 ((hcond0_1 t).mp h)
      rw [Dat.leavesExact_idle (dat0 V c) 4 t (idleAt0_4 t hc1) (noFlush0_4 t hc1)]
      rw [accAt0_B V c t h0 h1]
      unfold ptB0 sout0_B
      iintro ⟨⟨⟨HS0, Hoth⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ hc0 hc1 (iblk0 V c 0 t) (iblk0 V c 1 t) (iblk0 V c 2 t) (iblk0 V c 3 t) _).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hoth Hg]
      · isplitr [Hg]
        · isplitr [Hoth]
          · unfold owns; iexists _; isplitr
            swap; · iexact HS0
            ipureintro; exact View.read_writes_of_cover _ _ _ _ _ (scover0_B c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point, -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- and after the last point the invariant gives it back, the accumulator's contents forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl]
  exact (PhiS0_any V c _ _).trans (PhiA0_close c)

end Cert.KernelIdeal.Fr

end
-- ==== Proof.KI.Run1A.lean ====
/-
  The second region's body at a point where the contraction block is the first (and not the last): the
  accumulator, whatever it held, is overwritten with zeros and then with zeros plus the product of the two input
  blocks; the output window's buffer is not touched. The pieces the accumulator ends with are found by running the
  body's memory operations.
-/
import proofs.«127535_j57449482551364_1_alg».proof.Proof.KI.Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the inputs at their blocks, the output's buffer at any contents (handed back as found), the
    accumulator at anything — the body runs, and leaves the accumulator with the pieces `LS` written. -/
noncomputable def kernelRun1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond1_0 i) (hc1 : ¬cond1_1 i)
    (x0 : Vec F S1024x1024 .bf16) (x1 : Vec F S1024x1024 .bf16) :
    { LS : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS)) -∗ K ⟨⟩))
          ⊢ wp frame (wpE (defs₀ (F := F)) Variants.none c none) E (cc1__mlp2_kernel i arg3 harg3 arg4 harg4 arg5 harg5 arg6 harg6) K } := by
  refine ⟨?_, fun xi2 E K => ?run⟩
  case run =>
    simp only [cc1__mlp2_kernel_eq_skeleton]; unfold cc1__mlp2_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Fr

end
-- ==== Proof.KI.Run1B.lean ====
/-
  The second region's body at a point where the contraction block is neither the first nor the last: the
  accumulator, holding what the point before left, gets the product of the two input blocks added; the output
  window's buffer is not touched.
-/
import proofs.«127535_j57449482551364_1_alg».proof.Proof.KI.Run1A

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the inputs at their blocks, the output's buffer at any contents (handed back as found), the
    accumulator at `xs` — the body runs, and leaves the accumulator with the pieces `LS` written. -/
noncomputable def kernelRun1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : ¬cond1_1 i)
    (x0 : Vec F S1024x1024 .bf16) (x1 : Vec F S1024x1024 .bf16) (xs : Vec F S1024x1024 .f32) :
    { LS : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS)) -∗ K ⟨⟩))
          ⊢ wp frame (wpE (defs₀ (F := F)) Variants.none c none) E (cc1__mlp2_kernel i arg3 harg3 arg4 harg4 arg5 harg5 arg6 harg6) K } := by
  refine ⟨?_, fun xi2 E K => ?run⟩
  case run =>
    simp only [cc1__mlp2_kernel_eq_skeleton]; unfold cc1__mlp2_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Fr

end
-- ==== Proof.KI.Run1C.lean ====
/-
  The second region's body at a point where the contraction block is the last (and not the first): the
  accumulator, holding what the point before left, gets the product of the two input blocks added, and its new
  contents are stored into the output window's buffer, whatever that held.
-/
import proofs.«127535_j57449482551364_1_alg».proof.Proof.KI.Run1B

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the inputs at their blocks, the output's buffer at anything, the accumulator at `xs` — the
    body runs, and leaves the output's buffer with the pieces `L` and the accumulator with the pieces `LS` written. -/
noncomputable def kernelRun1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 : Vec F S1024x1024 .bf16) (x1 : Vec F S1024x1024 .bf16) (xs : Vec F S1024x1024 .f32) :
    Σ' (L : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L) ∗ (∃ f, arg6.view.loc (c : Thread nD τ) ↦[arg6.view.set]{fullShare} arg6.view.writes (Elt F) f LS)) -∗ K ⟨⟩))
          ⊢ wp frame (wpE (defs₀ (F := F)) Variants.none c none) E (cc1__mlp2_kernel i arg3 harg3 arg4 harg4 arg5 harg5 arg6 harg6) K } := by
  refine ⟨?_, ?_, fun E K => ?run⟩
  case run =>
    simp only [cc1__mlp2_kernel_eq_skeleton]; unfold cc1__mlp2_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Fr

end
-- ==== Proof.KI.Reg1.lean ====
/-
  The second region, out = h · w2ᵀ, as proof data for its pipeline, at the contents V its arrays hold on entry.

  What a case of the body leaves in the accumulator (and, in the last case, in the output window's buffer) is read
  back from the pieces its run found, which tile the buffer. The accumulator after the body at position n is then
  defined by recursion on n: at a position ≡ 0 (mod 8) the first case at that point's blocks, otherwise the middle
  or the last case at that point's blocks over what position n − 1 left. The region's invariant before position
  n > 0 holds the accumulator's buffer at exactly that; before position 0 it is the class invariant (every scoped
  buffer at anything). The output window's buffer after the body is the last case's result where the position is
  ≡ 7 (mod 8), and is not looked at elsewhere (the window is idle there and is not written back). With these the
  body meets its obligation at every point: a case split on the position modulo 8, each leaf that case's run.
-/
import proofs.«127535_j57449482551364_1_alg».proof.Proof.KI.Run1C

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- The first case's pieces tile the accumulator. -/
theorem scover1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond1_0 i) (hc1 : ¬cond1_1 i) (x0 : Vec F S1024x1024 .bf16) (x1 : Vec F S1024x1024 .bf16) (y : S1024x1024.Idx) :
    ∃ pc ∈ (kernelRun1_A c i arg3 harg3 arg4 harg4 arg5 harg5 arg6 harg6 hc0 hc1 x0 x1).1, y ∈ pc.1.set :=
  View.cover_of_tiledL (kernelRun1_A c i arg3 harg3 arg4 harg4 arg5 harg5 arg6 harg6 hc0 hc1 x0 x1).1 S1024x1024.size (by sl_kernel_rfl) y
/-- What the first case leaves in the accumulator. -/
def sout1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond1_0 i) (hc1 : ¬cond1_1 i) (x0 : Vec F S1024x1024 .bf16) (x1 : Vec F S1024x1024 .bf16) : Vec F S1024x1024 .f32 :=
  VS1.read (Elt F) (VS1.writes (Elt F) VS1.junk (kernelRun1_A c i arg3 harg3 arg4 harg4 arg5 harg5 arg6 harg6 hc0 hc1 x0 x1).1)

/-- The middle case's pieces tile the accumulator. -/
theorem scover1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : ¬cond1_1 i) (x0 : Vec F S1024x1024 .bf16) (x1 : Vec F S1024x1024 .bf16) (xs : Vec F S1024x1024 .f32) (y : S1024x1024.Idx) :
    ∃ pc ∈ (kernelRun1_B c i arg3 harg3 arg4 harg4 arg5 harg5 arg6 harg6 hc0 hc1 x0 x1 xs).1, y ∈ pc.1.set :=
  View.cover_of_tiledL (kernelRun1_B c i arg3 harg3 arg4 harg4 arg5 harg5 arg6 harg6 hc0 hc1 x0 x1 xs).1 S1024x1024.size (by sl_kernel_rfl) y
/-- What the middle case leaves in the accumulator. -/
def sout1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : ¬cond1_1 i) (x0 : Vec F S1024x1024 .bf16) (x1 : Vec F S1024x1024 .bf16) (xs : Vec F S1024x1024 .f32) : Vec F S1024x1024 .f32 :=
  VS1.read (Elt F) (VS1.writes (Elt F) VS1.junk (kernelRun1_B c i arg3 harg3 arg4 harg4 arg5 harg5 arg6 harg6 hc0 hc1 x0 x1 xs).1)

/-- The last case's pieces tile the accumulator, -/
theorem scover1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i) (x0 : Vec F S1024x1024 .bf16) (x1 : Vec F S1024x1024 .bf16) (xs : Vec F S1024x1024 .f32) (y : S1024x1024.Idx) :
    ∃ pc ∈ (kernelRun1_C c i arg3 harg3 arg4 harg4 arg5 harg5 arg6 harg6 hc0 hc1 x0 x1 xs).2.1, y ∈ pc.1.set :=
  View.cover_of_tiledL (kernelRun1_C c i arg3 harg3 arg4 harg4 arg5 harg5 arg6 harg6 hc0 hc1 x0 x1 xs).2.1 S1024x1024.size (by sl_kernel_rfl) y
/-- and the output window's buffer. -/
theorem cover1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i) (x0 : Vec F S1024x1024 .bf16) (x1 : Vec F S1024x1024 .bf16) (xs : Vec F S1024x1024 .f32) (y : S1024x1024.Idx) :
    ∃ pc ∈ (kernelRun1_C c i arg3 harg3 arg4 harg4 arg5 harg5 arg6 harg6 hc0 hc1 x0 x1 xs).1, y ∈ pc.1.set :=
  View.cover_of_tiledL (kernelRun1_C c i arg3 harg3 arg4 harg4 arg5 harg5 arg6 harg6 hc0 hc1 x0 x1 xs).1 S1024x1024.size (by sl_kernel_rfl) y
/-- What the last case leaves in the accumulator, -/
def sout1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i) (x0 : Vec F S1024x1024 .bf16) (x1 : Vec F S1024x1024 .bf16) (xs : Vec F S1024x1024 .f32) : Vec F S1024x1024 .f32 :=
  VS1.read (Elt F) (VS1.writes (Elt F) VS1.junk (kernelRun1_C c i arg3 harg3 arg4 harg4 arg5 harg5 arg6 harg6 hc0 hc1 x0 x1 xs).2.1)
/-- and in the output window's buffer. -/
def out1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i) (x0 : Vec F S1024x1024 .bf16) (x1 : Vec F S1024x1024 .bf16) (xs : Vec F S1024x1024 .f32) : Vec F S1024x1024 .f32 :=
  VO1.read (Elt F) (VO1.writes (Elt F) VO1.junk (kernelRun1_C c i arg3 harg3 arg4 harg4 arg5 harg5 arg6 harg6 hc0 hc1 x0 x1 xs).1)

/-! ## The cases at a point's own memrefs and blocks -/

def ptA1 (c : Dev nD) (t : Fin cfg1.N) (h0 : t.val % 8 = 0) : Vec F S1024x1024 .f32 :=
  sout1_A c (grid1.coords t) (ms1_0 t) (hs1_0 t) (ms1_1 t) (hs1_1 t) (ms1_2 t) (hs1_2 t) scM1 (Memref.isWhole_whole _) ((hcond1_0 t).mpr h0) (fun h => by have := (hcond1_1 t).mp h; omega) (iblk1 V c 0 t) (iblk1 V c 1 t)
def ptB1 (c : Dev nD) (t : Fin cfg1.N) (h0 : ¬t.val % 8 = 0) (h1 : ¬t.val % 8 = 7) (xs : Vec F S1024x1024 .f32) : Vec F S1024x1024 .f32 :=
  sout1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) xs
def ptC1 (c : Dev nD) (t : Fin cfg1.N) (h1 : t.val % 8 = 7) (xs : Vec F S1024x1024 .f32) : Vec F S1024x1024 .f32 :=
  sout1_C c (grid1.coords t) (ms1_0 t) (hs1_0 t) (ms1_1 t) (hs1_1 t) (ms1_2 t) (hs1_2 t) scM1 (Memref.isWhole_whole _) (fun h => by have := (hcond1_0 t).mp h; omega) ((hcond1_1 t).mpr h1) (iblk1 V c 0 t) (iblk1 V c 1 t) xs
def ptO1 (c : Dev nD) (t : Fin cfg1.N) (h1 : t.val % 8 = 7) (xs : Vec F S1024x1024 .f32) : Vec F S1024x1024 .f32 :=
  out1_C c (grid1.coords t) (ms1_0 t) (hs1_0 t) (ms1_1 t) (hs1_1 t) (ms1_2 t) (hs1_2 t) scM1 (Memref.isWhole_whole _) (fun h => by have := (hcond1_0 t).mp h; omega) ((hcond1_1 t).mpr h1) (iblk1 V c 0 t) (iblk1 V c 1 t) xs

/-! ## The accumulator, point by point -/

/-- The accumulator after the body at position n. -/
def accAt1 (c : Dev nD) : (n : ℕ) → n < cfg1.N → Vec F S1024x1024 .f32
  | 0, hn => ptA1 V c ⟨0, hn⟩ (Nat.zero_mod _)
  | n + 1, hn =>
    if h0 : (n + 1) % 8 = 0 then ptA1 V c ⟨n + 1, hn⟩ h0
    else if h1 : (n + 1) % 8 = 7 then ptC1 V c ⟨n + 1, hn⟩ h1 (accAt1 c n (Nat.lt_of_succ_lt hn))
    else ptB1 V c ⟨n + 1, hn⟩ h0 h1 (accAt1 c n (Nat.lt_of_succ_lt hn))

theorem accAt1_A (c : Dev nD) (t : Fin cfg1.N) (h0 : t.val % 8 = 0) : accAt1 V c t.val t.isLt = ptA1 V c t h0 := by
  obtain ⟨n, hn⟩ := t
  cases n with
  | zero => rfl
  | succ n => exact dif_pos h0

theorem accAt1_B (c : Dev nD) (t : Fin cfg1.N) (h0 : ¬t.val % 8 = 0) (h1 : ¬t.val % 8 = 7) :
    accAt1 V c t.val t.isLt = ptB1 V c t h0 h1 (accAt1 V c (t.val - 1) (Nat.lt_of_le_of_lt (Nat.sub_le _ _) t.isLt)) := by
  obtain ⟨n, hn⟩ := t
  cases n with
  | zero => exact absurd (Nat.zero_mod _) h0
  | succ n => exact (dif_neg h0).trans (dif_neg h1)

theorem accAt1_C (c : Dev nD) (t : Fin cfg1.N) (h1 : t.val % 8 = 7) :
    accAt1 V c t.val t.isLt = ptC1 V c t h1 (accAt1 V c (t.val - 1) (Nat.lt_of_le_of_lt (Nat.sub_le _ _) t.isLt)) := by
  obtain ⟨n, hn⟩ := t
  cases n with
  | zero => exact absurd (show 0 % 8 = 7 from h1) (by decide)
  | succ n => exact (dif_neg (show ¬(n + 1) % 8 = 0 from fun h => by have h1' : (n + 1) % 8 = 7 := h1; omega)).trans (dif_pos h1)

/-- The output window's buffer after the body at point t: the last case's result where the contraction block is the
    last; elsewhere a placeholder nothing reads. -/
def outAt1 (c : Dev nD) (t : Fin cfg1.N) : Vec F S1024x1024 .f32 :=
  if h1 : t.val % 8 = 7 then ptO1 V c t h1 (accAt1 V c (t.val - 1) (Nat.lt_of_le_of_lt (Nat.sub_le _ _) t.isLt))
  else VO1.read (Elt F) (VO1.writes (Elt F) VO1.junk [])

theorem outAt1_C (c : Dev nD) (t : Fin cfg1.N) (h1 : t.val % 8 = 7) :
    outAt1 V c t = ptO1 V c t h1 (accAt1 V c (t.val - 1) (Nat.lt_of_le_of_lt (Nat.sub_le _ _) t.isLt)) := dif_pos h1

/-! ## The invariant and the proof data -/

/-- Before position n: at n = 0 every scoped buffer at anything; afterwards the accumulator at what position n − 1
    left, the other scoped buffers at anything, the generator register at some state. -/
def PhiS1 (c : Dev nD) : (n : ℕ) → n ≤ cfg1.N → sProp 𝕄
  | 0, _ => Pipeline.ΦA spec1 c
  | n + 1, hn => iprop((owns (c : Thread nD τ) scM1 fullShare (accAt1 V c n hn) ∗ others1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop((owns (c : Thread nD τ) scM1 fullShare (accAt1 V c n hn) ∗ others1 c) ∗ (∃ r, prngReg c r)) := rfl
theorem PhiS1_pos (c : Dev nD) (n : ℕ) (h : n ≤ cfg1.N) (hz : n ≠ 0) :
    PhiS1 V c n h = iprop((owns (c : Thread nD τ) scM1 fullShare (accAt1 V c (n - 1) (by omega)) ∗ others1 c) ∗ (∃ r, prngReg c r)) := by
  cases n with
  | zero => exact absurd rfl hz
  | succ n => rfl

/-- The pipeline's proof data on core c: the arrays as the region finds them; after the body each input's buffer at
    its block, the output's at `outAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outAt1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

/-- Before a point the invariant yields the accumulator's buffer at SOME contents (all the first case needs). -/
theorem PhiS1_any (c : Dev nD) (n : ℕ) (h : n ≤ cfg1.N) :
    PhiS1 V c n h ⊢ iprop(((∃ d, owns (c : Thread nD τ) scM1 fullShare d) ∗ others1 c) ∗ (∃ r, prngReg c r)) := by
  by_cases hz : n = 0
  · rw [PhiS1_zero V c _ _ hz]; exact PhiA1_open c
  · rw [PhiS1_pos V c _ _ hz]
    iintro ⟨⟨HS, Ho⟩, Hg⟩
    isplitr [Hg]
    · isplitl [HS]; · iexists _; iexact HS
      iexact Ho
    iexact Hg

set_option maxHeartbeats 4800000 in
/-- The body at any point: the inputs' buffers hold their blocks; the position modulo 8 says which case the point is
    in; the invariant hands over the accumulator at what the point before left (at anything in the first case) and
    takes it back at this point's contents; the output's buffer comes back untouched where the window is idle and at
    the last case's result where it is live; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [PhiS1_castSucc V c t]
  have hN : t.val < 256 := lt_of_lt_of_eq t.isLt (show cfg1.N = 256 from N_1)
  by_cases h0 : t.val % 8 = 0
  · have h1 : ¬t.val % 8 = 7 := by omega
    have hc0 : cond1_0 (grid1.coords t) := (hcond1_0 t).mpr h0
    have hc1 : ¬cond1_1 (grid1.coords t) := fun h => h1 ((hcond1_1 t).mp h)
    rw [Dat.leavesExact_idle (dat1 V c) 2 t (idleAt1_2 t hc1) (noFlush1_2 t hc1)]
    rw [accAt1_A V c t h0]
    unfold ptA1 sout1_A
    iintro ⟨HΦ, Ho, ⟨%d0, H0⟩, ⟨%d1, H1⟩, ⟨%d2, H2⟩⟩
    ihave HΦ' := (PhiS1_any V c _ _) $$ HΦ
    icases HΦ' with ⟨⟨HS0, Hoth⟩, Hg⟩
    iapply ((kernelRun1_A c (grid1.coords t) _ _ _ _ _ _ _ _ hc0 hc1 (iblk1 V c 0 t) (iblk1 V c 1 t)).2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hoth Hg]
    · isplitr [Hg]
      · isplitr [Hoth]
        · unfold owns; iexists _; isplitr
          swap; · iexact HS0
          ipureintro; exact View.read_writes_of_cover _ _ _ _ _ (scover1_A c _ _ _ _ _ _ _ _ _ _ _ _ _)
        iexact Hoth
      iexact Hg
    isplitl [Ho]; · iexact Ho
    isplitl [H0]; · iexact H0
    isplitl [H1]; · iexact H1
    iexists _; iexact H2
  · have hz : t.val ≠ 0 := fun h => h0 (by rw [h])
    have hc0 : ¬cond1_0 (grid1.coords t) := fun h => h0 ((hcond1_0 t).mp h)
    rw [PhiS1_pos V c _ _ hz]
    by_cases h1 : t.val % 8 = 7
    · have hc1 : cond1_1 (grid1.coords t) := (hcond1_1 t).mpr h1
      rw [show (dat1 V c).leavesExact 2 t = owns (c : Thread nD τ) (ms1_2 t) fullShare ((dat1 V c).after 2 t) from by
        unfold Dat.leavesExact; rw [liveAt1_2 t hc1], after1_2, outAt1_C V c t h1]
      rw [accAt1_C V c t h1]
      unfold ptC1 ptO1 sout1_C out1_C
      iintro ⟨⟨⟨HS0, Hoth⟩, Hg⟩, Ho, ⟨%d0, H0⟩, ⟨%d1, H1⟩, ⟨%d2, H2⟩⟩
      iapply ((kernelRun1_C c (grid1.coords t) _ _ _ _ _ _ _ _ hc0 hc1 (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitr [Hg]
        · isplitr [Hoth]
          · unfold owns; iexists _; isplitr
            swap; · iexact HS0
            ipureintro; exact View.read_writes_of_cover _ _ _ _ _ (scover1_C c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C c _ _ _ _ _ _ _ _ _ _ _ _ _ _)
    · have hc1 : ¬cond1_1 (grid1.coords t) := fun h => h1 ((hcond1_1 t).mp h)
      rw [Dat.leavesExact_idle (dat1 V c) 2 t (idleAt1_2 t hc1) (noFlush1_2 t hc1)]
      rw [accAt1_B V c t h0 h1]
      unfold ptB1 sout1_B
      iintro ⟨⟨⟨HS0, Hoth⟩, Hg⟩, Ho, ⟨%d0, H0⟩, ⟨%d1, H1⟩, ⟨%d2, H2⟩⟩
      iapply ((kernelRun1_B c (grid1.coords t) _ _ _ _ _ _ _ _ hc0 hc1 (iblk1 V c 0 t) (iblk1 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitr [Hg]
        · isplitr [Hoth]
          · unfold owns; iexists _; isplitr
            swap; · iexact HS0
            ipureintro; exact View.read_writes_of_cover _ _ _ _ _ (scover1_B c _ _ _ _ _ _ _ _ _ _ _ _ _ _)
          iexact Hoth
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point, -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- and after the last point the invariant gives it back, the accumulator's contents forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl]
  exact (PhiS1_any V c _ _).trans (PhiA1_close c)

end Cert.KernelIdeal.Fr

end
-- ==== Proof.KI.Frame.lean ====
/-
  The run of the whole program: host operations, then the two regions, as segments of @main.

  The contents of the core's unscoped buffers at each boundary are a fold from the launch memory: after the four
  host operations (the zero point as a column, the bias as a row, the tokens and the second weight in the narrower
  float format) every buffer holds what those operations leave; after a region its windows' arrays hold what the
  pipeline's write-backs leave (an input as entered, the output each flushed block in place) and every other buffer
  what it held on entry. Each region is a segment whose body obligation is the one proved for its proof data at the
  region's entry contents; the launch theorem for a list of segments then gives: every weakly fair execution
  terminates, and the final memory holds every unscoped buffer at the last contents of the fold. Read at an
  argument's buffer that is the launch memory (no operation and no region writes an argument); read at the result's
  buffer it is what the second region's write-backs leave.
-/
import proofs.«127535_j57449482551364_1_alg».proof.Proof.KI.Reg0
import proofs.«127535_j57449482551364_1_alg».proof.Proof.KI.Reg1
import proofs.«127535_j57449482551364_1_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => m (c, b)
/-- After the host operations: the first region's entry. -/
abbrev W1 : Dev nD → Valuation τ sig (Elt F) := fun c => StableHlo.after hostOps0 (W0 m c)
abbrev E1 : (c : Dev nD) → (b : Ref sig .tc) → Buf (Elt F) ((c : Thread nD τ).loc b) := fun c b => W1 m c b
/-- After the first region: its arrays at what the pipeline leaves, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)
/-- After the second region. -/
def W3 (c : Dev nD) : Valuation τ sig (Elt F) :=
  Pipeline.withArrays spec1 c (W2 m c) fun w => (dat1 (E2 m) c).arrAt w cfg1.N
theorem W3_arr (c : Dev nD) (w : Fin cfg1.W) :
    W3 m c (Proc.devRef .tc (Pipeline.arrRef spec1 w)) = (dat1 (E2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev E3 : (c : Dev nD) → (b : Ref sig .tc) → Buf (Elt F) ((c : Thread nD τ).loc b) := fun c b => W3 m c b
theorem hF1 (c : Dev nD) (w : Fin cfg1.W) : (dat1 (E2 m) c).arrAt w cfg1.N = E3 m c (Pipeline.arrRef spec1 w) :=
  (W3_arr m c w).symm
theorem hrest1 (c : Dev nD) : ∀ b, b ∉ Finset.univ.image (Pipeline.arrRef spec1) → E3 m c b = E2 m c b :=
  fun b hb => W3_of_ne m c b fun w e => hb (Finset.mem_image.mpr ⟨w, Finset.mem_univ _, e⟩)

/-! ### The arguments end as launched, the result at what the second region leaves -/

/-- A buffer the host operations do not write holds after them what it held at launch. -/
theorem W1_of (c : Dev nD) (r : Ref sig .tc) (h : r ∉ hostOps0_W) : W1 m c r = m ((c : Thread nD τ).loc r) :=
  StableHlo.after_of_writes_sub hostOps0 _ hostOps0_writes h

theorem W3_main_arg0 (c : Dev nD) : W3 m c (Proc.devRef .tc main_arg0) = m ((c : Thread nD τ).loc main_arg0) :=
  (W3_of_ne m c main_arg0 (by decide)).trans ((W2_of_ne m c main_arg0 (by decide)).trans (W1_of m c main_arg0 (by decide)))
theorem W3_main_arg1 (c : Dev nD) : W3 m c (Proc.devRef .tc main_arg1) = m ((c : Thread nD τ).loc main_arg1) :=
  (W3_of_ne m c main_arg1 (by decide)).trans (((W2_arr m c 1).trans (((dat0 (E1 m) c).arrAt_in 1 rfl _).trans (A_eq0 (E1 m) c 1))).trans (W1_of m c main_arg1 (by decide)))
theorem W3_main_arg2 (c : Dev nD) : W3 m c (Proc.devRef .tc main_arg2) = m ((c : Thread nD τ).loc main_arg2) :=
  (W3_of_ne m c main_arg2 (by decide)).trans ((W2_of_ne m c main_arg2 (by decide)).trans (W1_of m c main_arg2 (by decide)))
theorem W3_main_arg3 (c : Dev nD) : W3 m c (Proc.devRef .tc main_arg3) = m ((c : Thread nD τ).loc main_arg3) :=
  (W3_of_ne m c main_arg3 (by decide)).trans ((W2_of_ne m c main_arg3 (by decide)).trans (W1_of m c main_arg3 (by decide)))
theorem W3_main_arg4 (c : Dev nD) : W3 m c (Proc.devRef .tc main_arg4) = m ((c : Thread nD τ).loc main_arg4) :=
  (W3_of_ne m c main_arg4 (by decide)).trans ((W2_of_ne m c main_arg4 (by decide)).trans (W1_of m c main_arg4 (by decide)))
/-- The result's buffer ends at what the second region's write-backs leave. -/
theorem W3_main_v5 (c : Dev nD) : W3 m c (Proc.devRef .tc main_v5) = (dat1 (E2 m) c).arrAt 2 cfg1.N :=
  W3_arr m c 2
/-- The hidden array, as the second region finds it, is what the first region's write-backs leave; -/
theorem E2_main_v4 (c : Dev nD) : E2 m c main_v4 = (dat0 (E1 m) c).arrAt 4 cfg0.N :=
  W2_arr m c 4
/-- the second weight in the narrower format is untouched by the first region. -/
theorem E2_main_v3 (c : Dev nD) : E2 m c main_v3 = E1 m c main_v3 :=
  W2_of_ne m c main_v3 (by decide)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E2 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- The host stretch as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- Region 0 over the thread state: entered with every unscoped buffer at the contents before it, left with them at
    the contents after it. Its arrays are split out of the unscoped buffers and put back at what the pipeline leaves;
    the generator register goes into the invariant and comes back; nothing is owed; the kernel has no semaphore of
    its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (E1 m) c).Φ 0 from rfl]
    refine .trans ?_ (hin0 (E1 m) c)
    unfold Pipeline.ΦA
    iintro ⟨Hp, -, Hr⟩
    isplitl [Hr]; · iexact Hr
    iexact Hp
  hout c := by
    rw [Pipeline.ownSems0_none, show (pdats m 0 c).Φ (Fin.last _) = (dat0 (E1 m) c).Φ (Fin.last cfg0.N) from rfl]
    refine (hout0 (E1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with them at
    the contents after it. Its arrays are split out of the unscoped buffers and put back at what the pipeline leaves;
    the generator register goes into the invariant and comes back; nothing is owed; the kernel has no semaphore of
    its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (E2 m) c).Φ 0 from rfl]
    refine .trans ?_ (hin1 (E2 m) c)
    unfold Pipeline.ΦA
    iintro ⟨Hp, -, Hr⟩
    isplitl [Hr]; · iexact Hr
    iexact Hp
  hout c := by
    rw [Pipeline.ownSems0_none, show (pdats m 1 c).Φ (Fin.last _) = (dat1 (E2 m) c).Φ (Fin.last cfg1.N) from rfl]
    refine (hout1 (E2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m) ]
/-- @main is the run of the segments. -/
theorem main_run (c : Dev nD) : main (F := F) c = Pipeline.Seg.run (segs m) := (main_chain c).trans (by chain_rfl)

set_option backward.isDefEq.respectTransparency.types false in
/-- THE RUN. From any memory with zero counters every weakly fair execution of @main terminates, nothing faulting,
    and the final memory holds every unscoped buffer of the core at the last contents of the fold. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- THE FRAME: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c)⟩) (run_all m ρ)

/-- The run with the result named: the result array at what the second region's write-backs leave, the arguments as
    launched. -/
theorem run_result : θ_run defs (onTc (τ := τ) (main (F := F))) ⟨m, fun _ => 0, ρ⟩ (fun r => ∀ c : Dev nD,
      r.2.mem ((c.tc : Thread nD τ).loc main_v5) = (dat1 (E2 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v5 (by decide))).trans (W3_main_v5 m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c)⟩) (run_all m ρ)

end Cert.KernelIdeal.Fr

end
-- ==== Proof.KI.Entry.lean ====
/-
  What the first region's inputs hold when it is entered, as functions of the launch memory: the four host
  operations before it write the zero point as a column (a row-major re-addressing of the vector), the bias as a
  row, and the tokens and the second weight in the narrower float format; the first weight is untouched.
-/
import proofs.«127535_j57449482551364_1_alg».proof.Proof.KI.Frame
import Idealize.ShloMosaic.Lib.StableHlo.Run

noncomputable section

namespace Cert.KernelIdeal.Fr

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ)

/-- The zero point as a column. -/
theorem E1_main_v0 (c : Dev nD) :
    E1 m c main_v0 = shapeCast S8192x1 (m ((c : Thread nD τ).loc main_arg3)) shapeCasts_S8192_S8192x1 := by
  dsimp only [E1, W1, W0, hostOps0]; after_results <;> rfl
/-- The bias as a row. -/
theorem E1_main_v1 (c : Dev nD) :
    E1 m c main_v1 = shapeCast S1x8192 (m ((c : Thread nD τ).loc main_arg2)) shapeCasts_S8192_S1x8192 := by
  dsimp only [E1, W1, W0, hostOps0]; after_results <;> rfl
/-- The tokens in the narrower format. -/
theorem E1_main_v2 (c : Dev nD) :
    E1 m c main_v2 = truncf .bf16 (m ((c : Thread nD τ).loc main_arg0)) bitsLt_bf16_f32 := by
  dsimp only [E1, W1, W0, hostOps0]; after_results <;> rfl
/-- The second weight in the narrower format. -/
theorem E1_main_v3 (c : Dev nD) :
    E1 m c main_v3 = truncf .bf16 (m ((c : Thread nD τ).loc main_arg4)) bitsLt_bf16_f32 := by
  dsimp only [E1, W1, W0, hostOps0]; after_results <;> rfl
/-- The first weight as launched. -/
theorem E1_main_arg1 (c : Dev nD) : E1 m c main_arg1 = m ((c : Thread nD τ).loc main_arg1) :=
  W1_of m c main_arg1 (by decide)

end Cert.KernelIdeal.Fr

end
-- ==== Proof.KI.Blk0.lean ====
/-
  The first region's blocks, addressed by coordinates.

  The region's grid has 8 · 8 · 4 points, the contraction block innermost: point t stands for the row block t / 32,
  the column block t / 4 % 8 and the contraction block t % 4. Each window hands the body one block of its array at
  a point, and a block's entry y is the array's entry whose coordinate on every axis is the block index on that
  axis times the block's extent plus y's coordinate: the token array [8192, 4096] by (row block, contraction block),
  the first weight [8192, 4096] by (column block, contraction block), the zero-point column [8192, 1] by the column
  block, the bias row [1, 8192] by the column block, and the hidden array [8192, 8192], the output, by
  (row block, column block), all in blocks of 1024 along each axis that is not a unit axis. The block indices are
  computed over the 256 points; the reads then follow axis by axis. Last, the output's blocks at the points whose
  contraction block is the last one cover the whole hidden array: entry (r, h) lies in the block of the point with
  row block r / 1024 and column block h / 1024.
-/
import proofs.«127535_j57449482551364_1_alg».proof.Proof.KI.Base
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window 0's block index at point t: the row block t / 32, the contraction block t % 4. -/
theorem idx0_0 : ∀ t : Fin cfg0.N, win0_0.index t (0 : Fin 2) = t.val / 32 ∧ win0_0.index t (1 : Fin 2) = t.val % 4 :=
  (by decide +kernel : ∀ t : Fin grid0.N, _)
/-- Window 1's block index at point t: the column block t / 4 % 8, the contraction block t % 4. -/
theorem idx0_1 : ∀ t : Fin cfg0.N, win0_1.index t (0 : Fin 2) = t.val / 4 % 8 ∧ win0_1.index t (1 : Fin 2) = t.val % 4 :=
  (by decide +kernel : ∀ t : Fin grid0.N, _)
/-- Window 2's block index at point t: the column block t / 4 % 8 along the rows, 0 along the unit axis. -/
theorem idx0_2 : ∀ t : Fin cfg0.N, win0_2.index t (0 : Fin 2) = t.val / 4 % 8 ∧ win0_2.index t (1 : Fin 2) = 0 :=
  (by decide +kernel : ∀ t : Fin grid0.N, _)
/-- Window 3's block index at point t: 0 along the unit axis, the column block t / 4 % 8 along the columns. -/
theorem idx0_3 : ∀ t : Fin cfg0.N, win0_3.index t (0 : Fin 2) = 0 ∧ win0_3.index t (1 : Fin 2) = t.val / 4 % 8 :=
  (by decide +kernel : ∀ t : Fin grid0.N, _)
/-- Window 4's block index at point t: the row block t / 32, the column block t / 4 % 8. -/
theorem idx0_4 : ∀ t : Fin cfg0.N, win0_4.index t (0 : Fin 2) = t.val / 32 ∧ win0_4.index t (1 : Fin 2) = t.val / 4 % 8 :=
  (by decide +kernel : ∀ t : Fin grid0.N, _)

/-- Window 0's block at point t, at y: the token array's entry in row (t/32)·1024 + y₀, column (t%4)·1024 + y₁. -/
theorem iblk0_0_apply (c : Dev nD) (t : Fin cfg0.N) (y : S1024x1024.Idx) (a : S8192x4096.Idx)
    (h0 : (a 0).val = t.val / 32 * 1024 + (y 0).val) (h1 : (a 1).val = t.val % 4 * 1024 + (y 1).val) :
    (iblk0 V c 0 t : Vec F S1024x1024 .bf16) y = V c main_v2 a := by
  obtain ⟨e0, e1⟩ := idx0_0 t
  unfold iblk0
  rw [View.read_apply]
  show V c main_v2 (((cfg0.win 0).blk t).view.emb y) = V c main_v2 a
  refine congrArg (V c main_v2) (funext fun ax => Fin.ext ?_)
  match ax with
  | ⟨0, _⟩ =>
    show win0_0.index t (0 : Fin 2) * 1024 + 1 * (y 0).val = (a 0).val
    rw [e0, h0, Nat.one_mul]
  | ⟨1, _⟩ =>
    show win0_0.index t (1 : Fin 2) * 1024 + 1 * (y 1).val = (a 1).val
    rw [e1, h1, Nat.one_mul]

/-- Window 1's block at point t, at y: the first weight's entry in row (t/4%8)·1024 + y₀, column (t%4)·1024 + y₁. -/
theorem iblk0_1_apply (c : Dev nD) (t : Fin cfg0.N) (y : S1024x1024.Idx) (a : S8192x4096.Idx)
    (h0 : (a 0).val = t.val / 4 % 8 * 1024 + (y 0).val) (h1 : (a 1).val = t.val % 4 * 1024 + (y 1).val) :
    (iblk0 V c 1 t : Vec F S1024x1024 .f32) y = V c main_arg1 a := by
  obtain ⟨e0, e1⟩ := idx0_1 t
  unfold iblk0
  rw [View.read_apply]
  show V c main_arg1 (((cfg0.win 1).blk t).view.emb y) = V c main_arg1 a
  refine congrArg (V c main_arg1) (funext fun ax => Fin.ext ?_)
  match ax with
  | ⟨0, _⟩ =>
    show win0_1.index t (0 : Fin 2) * 1024 + 1 * (y 0).val = (a 0).val
    rw [e0, h0, Nat.one_mul]
  | ⟨1, _⟩ =>
    show win0_1.index t (1 : Fin 2) * 1024 + 1 * (y 1).val = (a 1).val
    rw [e1, h1, Nat.one_mul]

/-- Window 2's block at point t, at y: the zero-point column's entry in row (t/4%8)·1024 + y₀; the unit axis has
    the one coordinate 0 on both sides. -/
theorem iblk0_2_apply (c : Dev nD) (t : Fin cfg0.N) (y : S1024x1.Idx) (a : S8192x1.Idx)
    (h0 : (a 0).val = t.val / 4 % 8 * 1024 + (y 0).val) :
    (iblk0 V c 2 t : Vec F S1024x1 .f32) y = V c main_v0 a := by
  obtain ⟨e0, e1⟩ := idx0_2 t
  unfold iblk0
  rw [View.read_apply]
  show V c main_v0 (((cfg0.win 2).blk t).view.emb y) = V c main_v0 a
  refine congrArg (V c main_v0) (funext fun ax => Fin.ext ?_)
  match ax with
  | ⟨0, _⟩ =>
    show win0_2.index t (0 : Fin 2) * 1024 + 1 * (y 0).val = (a 0).val
    rw [e0, h0, Nat.one_mul]
  | ⟨1, _⟩ =>
    show win0_2.index t (1 : Fin 2) * 1 + 1 * (y 1).val = (a 1).val
    have hy : (y 1).val < 1 := (y 1).isLt
    have ha : (a 1).val < 1 := (a 1).isLt
    rw [e1]; omega

/-- Window 3's block at point t, at y: the bias row's entry in column (t/4%8)·1024 + y₁; the unit axis has the one
    coordinate 0 on both sides. -/
theorem iblk0_3_apply (c : Dev nD) (t : Fin cfg0.N) (y : S1x1024.Idx) (a : S1x8192.Idx)
    (h1 : (a 1).val = t.val / 4 % 8 * 1024 + (y 1).val) :
    (iblk0 V c 3 t : Vec F S1x1024 .f32) y = V c main_v1 a := by
  obtain ⟨e0, e1⟩ := idx0_3 t
  unfold iblk0
  rw [View.read_apply]
  show V c main_v1 (((cfg0.win 3).blk t).view.emb y) = V c main_v1 a
  refine congrArg (V c main_v1) (funext fun ax => Fin.ext ?_)
  match ax with
  | ⟨0, _⟩ =>
    show win0_3.index t (0 : Fin 2) * 1 + 1 * (y 0).val = (a 0).val
    have hy : (y 0).val < 1 := (y 0).isLt
    have ha : (a 0).val < 1 := (a 0).isLt
    rw [e0]; omega
  | ⟨1, _⟩ =>
    show win0_3.index t (1 : Fin 2) * 1024 + 1 * (y 1).val = (a 1).val
    rw [e1, h1, Nat.one_mul]

/-- Reading an array through the output window's block at a point: at y, the array's entry in row (t/32)·1024 + y₀, column (t/4%8)·1024 + y₁. -/
theorem oblk0_apply (c : Dev nD) (t : Fin cfg0.N) (G : S8192x8192.Idx → Elt F .bf16) (y : S1024x1024.Idx) (a : S8192x8192.Idx)
    (h0 : (a 0).val = t.val / 32 * 1024 + (y 0).val) (h1 : (a 1).val = t.val / 4 % 8 * 1024 + (y 1).val) :
    (((cfg0.win 4).blk t).view.read (Elt F) G : Vec F S1024x1024 .bf16) y = G a := by
  obtain ⟨e0, e1⟩ := idx0_4 t
  rw [View.read_apply]
  show G (((cfg0.win 4).blk t).view.emb y) = G a
  refine congrArg G (funext fun ax => Fin.ext ?_)
  match ax with
  | ⟨0, _⟩ =>
    show win0_4.index t (0 : Fin 2) * 1024 + 1 * (y 0).val = (a 0).val
    rw [e0, h0, Nat.one_mul]
  | ⟨1, _⟩ =>
    show win0_4.index t (1 : Fin 2) * 1024 + 1 * (y 1).val = (a 1).val
    rw [e1, h1, Nat.one_mul]

/-- Every entry of the output array lies in the block of a point whose contraction block is the last: entry (r, h) in that of point ((r/1024)·8 + h/1024)·4 + 3. -/
theorem cover0 (i : S8192x8192.Idx) : ∃ t : Fin cfg0.N, t.val % 4 = 3 ∧ i ∈ ((cfg0.win 4).blk t).view.set := by
  have hi0 : (i 0).val < 8192 := (i 0).isLt
  have hi1 : (i 1).val < 8192 := (i 1).isLt
  have hN : cfg0.N = 256 := N_0
  obtain ⟨t, ht⟩ : ∃ t : Fin cfg0.N, t.val = ((i 0).val / 1024 * 8 + (i 1).val / 1024) * 4 + 3 :=
    ⟨⟨((i 0).val / 1024 * 8 + (i 1).val / 1024) * 4 + 3, by rw [hN]; omega⟩, rfl⟩
  obtain ⟨e0, e1⟩ := idx0_4 t
  refine ⟨t, by omega, ?_⟩
  show i ∈ ((View.whole main_v4).slice (win0_4.rect t)).set
  rw [View.set_slice_whole, Rect.mem_set_unit]
  intro ax
  match ax with
  | ⟨0, _⟩ =>
    show win0_4.index t (0 : Fin 2) * 1024 ≤ (i 0).val ∧ (i 0).val < win0_4.index t (0 : Fin 2) * 1024 + 1024
    rw [e0]; omega
  | ⟨1, _⟩ =>
    show win0_4.index t (1 : Fin 2) * 1024 ≤ (i 1).val ∧ (i 1).val < win0_4.index t (1 : Fin 2) * 1024 + 1024
    rw [e1]; omega

end Cert.KernelIdeal.Fr

end
-- ==== Proof.Spec.lean ====
/-
  The function both programs compute, over the extended reals.

  A two-layer perceptron with a zero-point-adjusted first weight: for a token row t and a hidden unit h the
  pre-activation is  z(t, h) = (∑ k, x[t, k] · (w1[h, k] − zp[h])) + b1[h],  the hidden value is  z · σ(z)  with σ the
  logistic function  1 / (1 + e^(−z)),  and the result at (t, d) is  ∑ h, hidden(t, h) · w2[d, h].  The zero point is
  taken as a column [8192, 1] and the bias as a row [1, 8192]: the shapes the first layer reads them in.
-/
import Idealize.ShloMosaic.PureOps.Ideal
import Idealize.ShloMosaic.Lib.ValueIdx

noncomputable section

namespace Cert.Spec

open Idealize.ShloMosaic Idealize.ShloMosaic.ValueIdx

/-- z · σ(z). -/
def silu (z : EReal) : EReal := z * Ideal.logistic z

/-- The hidden layer: at (t, h), z · σ(z) of z = (∑ k, x[t, k] · (w1[h, k] − zp[h, 0])) + b1[0, h]. -/
def hid (xb w1 : (⟨2, ![8192, 4096]⟩ : Shape).Idx → EReal) (zpc : (⟨2, ![8192, 1]⟩ : Shape).Idx → EReal)
    (b1r : (⟨2, ![1, 8192]⟩ : Shape).Idx → EReal) : (⟨2, ![8192, 8192]⟩ : Shape).Idx → EReal :=
  fun j => silu ((∑ k : Fin 4096, xb (ix2 (j 0) k) * (w1 (ix2 (j 1) k) - zpc (ix2 (j 1) (0 : Fin 1)))) + b1r (ix2 (0 : Fin 1) (j 1)))

/-- The second layer: at (t, d), ∑ q, h[t, q] · w2[d, q]. -/
def out (h : (⟨2, ![8192, 8192]⟩ : Shape).Idx → EReal) (w2 : (⟨2, ![4096, 8192]⟩ : Shape).Idx → EReal) :
    (⟨2, ![8192, 4096]⟩ : Shape).Idx → EReal :=
  fun i => ∑ q : Fin 8192, h (ix2 (i 0) q) * w2 (ix2 (i 1) q)

end Cert.Spec

end
-- ==== Proof.LibTransposedRhsDot.lean ====
/-
  A matrix product against a transposed right operand, read at an entry, at the ideal instance.

  For a left operand [M, K] and a right operand [N, K] contracted on the LAST axis of both (the dimension record
  `DotDims.transposedRhs M K N`: no batch axis, the left rows first in the result, then the right rows), the
  product accumulated into the zero array holds at entry (i, j) the sum over k of l[i, k] · r[j, k]: the
  extended reals' sum and product, the zero accumulator's word being the real 0. The operand indices the record
  computes at a result index and a contraction position are read off coordinate by coordinate: the left one is
  (i, k), the right one (j, k); the contraction positions, a rank-1 index set of K entries, are renumbered by Fin K.
  Stated for any record EQUAL to `transposedRhs M K N`, so that a program's own record, whose fields are these
  lists, is used through `rfl`.
-/
import Idealize.ShloMosaic.PureOps.Ideal.Laws
import Idealize.ShloMosaic.Lib.ValueIdx

noncomputable section

namespace Idealize.ShloMosaic.TransposedRhsDot

open Idealize.ShloMosaic Idealize.ShloMosaic.ValueIdx

variable {M K N : Nat}

/-- The left operand's row is the result's row. -/
theorem lhs_0 (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.2 rfl)]
  rfl

/-- The left operand's column is the contraction position. -/
theorem lhs_1 (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

/-- The right operand's row is the result's column. -/
theorem rhs_0 (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.2 rfl)]
  rfl

/-- The right operand's column is the contraction position. -/
theorem rhs_1 (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- A `tpu.matmul` into the zero accumulator, its record `transposedRhs M K N`, at entry `j`: the sum over `k` of
    the left operand at (j 0, k) times the right operand at (j 1, k). -/
theorem matmul_zero_apply {φ₁ φ₂ : FTy} (d : DotDims ⟨2, ![M, K]⟩ ⟨2, ![N, K]⟩ ⟨2, ![M, N]⟩)
    (hd : d = DotDims.transposedRhs M K N) (prec : Option ContractPrecision)
    (l : FVec Ideal ⟨2, ![M, K]⟩ φ₁) (r : FVec Ideal ⟨2, ![N, K]⟩ φ₂) (j : (⟨2, ![M, N]⟩ : Shape).Idx) :
    FloatOps.matmul d prec l r (constant (F := Ideal) ⟨2, ![M, N]⟩ .f32 0x00000000#32) j
      = ∑ k : Fin K, l (ix2 (j 0) k) * r (ix2 (j 1) k) := by
  subst hd
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx j ((contrEquiv1 (DotDims.transposedRhs M K N) K rfl rfl).symm k) = ix2 (j 0) k :=
    funext fun a => Fin.ext (by
      match a with
      | ⟨0, _⟩ => exact lhs_0 _ _
      | ⟨1, _⟩ => exact (lhs_1 _ _).trans hk)
  have er : (DotDims.transposedRhs M K N).rhsIdx j ((contrEquiv1 (DotDims.transposedRhs M K N) K rfl rfl).symm k) = ix2 (j 1) k :=
    funext fun a => Fin.ext (by
      match a with
      | ⟨0, _⟩ => exact rhs_0 _ _
      | ⟨1, _⟩ => exact (rhs_1 _ _).trans hk)
  rw [el, er]
  rfl

end Idealize.ShloMosaic.TransposedRhsDot

end
-- ==== Proof.LibKeepdims.lean ====
/-
  Column and unit-axis layouts read at an index, by coordinates.

  A vector of `a` entries viewed as a column `[a, 1]`, a column `[a, 1]` broadcast across `b` columns, a
  `[1, 1, a]` block viewed as a vector, and an `[a, b]` array given a middle unit axis: each only re-addresses its operand, and each is read here at an index written
  by its coordinates, so that a chain of them rewrites to the operand at one explicit index. They stand beside the
  library's row forms (`[a]` as `[1, a]`, a row `[1, b]` broadcast down `a` rows).
-/
import Idealize.ShloMosaic.Lib.Pipeline.Value
import Idealize.ShloMosaic.Lib.ValueIdx

namespace Cert.Keepdims

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, 1, a]` array cast to `[a]` reads, at `i`, the operand at `(0, 0, i)`. -/
theorem shapeCast_11a_a_apply {a : ℕ} (x : (⟨3, ![1, 1, a]⟩ : Shape).Idx → α) (h : (⟨3, ![1, 1, a]⟩ : Shape).ShapeCasts ⟨1, ![a]⟩)
    (i : Fin a) : shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp)

/-- An `[a, b]` array cast to `[a, 1, b]` reads, at `(i, u, j)`, the operand at `(i, j)`, whatever the unit coordinate `u`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.KI.Pay.lean ====
/-
  What the two kernel bodies store, entry by entry, over the extended reals.

  Each body keeps a 1024 × 1024 accumulator. On the first block of the contraction axis it is set to zero; on every
  block the product of the two operand blocks, both contracted along their last axis, is added to it. In the first
  body the right operand is the weight block with its zero point subtracted, the zero point being one number per
  weight row held as a column [1024, 1], so the term added at (p, q) is  ∑ r, x[p, r] · (w1[q, r] − zp[q]).  On the
  last block the first body adds the bias, a row [1, 1024] repeated down the rows, and applies  z ↦ z · σ(z).  In the
  second body the term added at (p, q) is  ∑ r, h[p, r] · w2[q, r].  With exact arithmetic, narrowing a value to a
  shorter format leaves it unchanged and recasting an array to its own shape is the identity, so every stored value
  is the plain formula stated for it here.
-/
import proofs.«127535_j57449482551364_1_alg».proof.Proof.Gen.KernelIdeal.Skeleton
import proofs.«127535_j57449482551364_1_alg».proof.Proof.Spec
import proofs.«127535_j57449482551364_1_alg».proof.Proof.LibTransposedRhsDot
import proofs.«127535_j57449482551364_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-- The first body's initial accumulator value is zero at every entry. -/
theorem pay1_0_apply (j : S1024x1024.Idx) : k0_pay1 (F := Ideal) j = 0 := by
  unfold k0_pay1
  rw [shapeCast_self]
  exact Ideal.ofBits_zero_f32

/-- The first body's accumulation step: the old accumulator plus, at (p, q), the sum over the block's contraction
    positions r of the token entry (p, r) times the zero-point-adjusted weight entry (q, r). -/
theorem pay2_0_apply (v3 : Vec Ideal S1024x1024 .f32) (v4 : Vec Ideal S1024x1 .f32) (v9 : Vec Ideal S1024x1024 .f32) (v10 : Vec Ideal S1024x1024 .bf16) (p q : Fin 1024) :
    k0_pay2 v3 v4 v9 v10 (ix2 p q) = v9 (ix2 p q) + ∑ r : Fin 1024, v10 (ix2 p r) * (v3 (ix2 q r) - v4 (ix2 q (0 : Fin 1))) := by
  unfold k0_pay2
  simp only [shapeCast_self]
  refine (addf_apply _ _ _).trans ?_
  refine congrArg (v9 (ix2 p q) + ·) ?_
  refine (TransposedRhsDot.matmul_zero_apply dot_S1024x1024_S1024x1024_S1024x1024_1_1_0_0_n_n rfl none _ _ (ix2 p q)).trans ?_
  refine Finset.sum_congr rfl fun r _ => ?_
  show v10 (ix2 p r) * (v3 (ix2 q r) - broadcastTo S1024x1024 v4 broadcasts_S1024x1_S1024x1024 (ix2 q r)) = _
  rw [Cert.Keepdims.broadcastTo_a1_ab_apply]

/-- The first body's final value: at (p, q), z · σ(z) of z = the accumulator at (p, q) plus the bias row at q. -/
theorem pay3_0_apply (v20 : Vec Ideal S1024x1024 .f32) (v21 : Vec Ideal S1x1024 .f32) (p q : Fin 1024) :
    k0_pay3 v20 v21 (ix2 p q) = Cert.Spec.silu (v20 (ix2 p q) + v21 (ix2 (0 : Fin 1) q)) := by
  unfold k0_pay3
  simp only [shapeCast_self]
  show (v20 (ix2 p q) + broadcastTo S1024x1024 v21 broadcasts_S1x1024_S1024x1024 (ix2 p q))
      * Ideal.logistic (v20 (ix2 p q) + broadcastTo S1024x1024 v21 broadcasts_S1x1024_S1024x1024 (ix2 p q)) = _
  rw [broadcastTo_1b_ab_apply]
  rfl

/-- The second body's initial accumulator value is zero at every entry. -/
theorem pay1_1_apply (j : S1024x1024.Idx) : k1_pay1 (F := Ideal) j = 0 := by
  unfold k1_pay1
  rw [shapeCast_self]
  exact Ideal.ofBits_zero_f32

/-- The second body's accumulation step: the old accumulator plus, at (p, q), the sum over the block's contraction
    positions r of the hidden entry (p, r) times the second weight's entry (q, r). -/
theorem pay2_1_apply (v3 : Vec Ideal S1024x1024 .f32) (v4 v6 : Vec Ideal S1024x1024 .bf16) (p q : Fin 1024) :
    k1_pay2 v3 v4 v6 (ix2 p q) = v3 (ix2 p q) + ∑ r : Fin 1024, v4 (ix2 p r) * v6 (ix2 q r) := by
  unfold k1_pay2
  simp only [shapeCast_self]
  refine (addf_apply _ _ _).trans ?_
  refine congrArg (v3 (ix2 p q) + ·) ?_
  exact TransposedRhsDot.matmul_zero_apply dot_S1024x1024_S1024x1024_S1024x1024_1_1_0_0_n_n rfl none _ _ (ix2 p q)

end Cert.KernelIdeal.Pay

end
-- ==== Proof.LibPartialSum.lean ====
/-
  Partial sums along a finite index range.

  For a family f over the positions 0, …, N − 1 with values in a commutative additive monoid, psum f n is the sum of
  f over the positions below n; a position at or beyond N counts as zero, so psum f n is defined for every n. Three
  facts: the empty partial sum is zero; the partial sum up to n + b is the partial sum up to n plus the block of b
  terms f(n), …, f(n + b − 1), when that block lies inside the range; and the partial sum up to N is the sum of f over
  all positions. Together they say a sum over the whole range can be reached by adding it block by block.
-/
import Mathlib.Algebra.BigOperators.Fin
import Mathlib.Algebra.BigOperators.Group.Finset.Basic

noncomputable section

namespace Cert.PartialSum

variable {M : Type*} [AddCommMonoid M]

/-- The sum of f over the positions below n (positions at or beyond N contribute nothing). -/
def psum {N : ℕ} (f : Fin N → M) (n : ℕ) : M := ∑ q ∈ Finset.range n, if h : q < N then f ⟨q, h⟩ else 0

/-- The sum over no positions is zero. -/
theorem psum_zero {N : ℕ} (f : Fin N → M) : psum f 0 = 0 := by
  unfold psum
  exact Finset.sum_range_zero _

/-- The sum over the positions below n + b is the sum over those below n plus the block f(n), …, f(n + b − 1), when
    n + b ≤ N. -/
theorem psum_add {N : ℕ} (f : Fin N → M) (n b : ℕ) (h : n + b ≤ N) :
    psum f (n + b) = psum f n + ∑ r : Fin b, f ⟨n + r.val, by omega⟩ := by
  unfold psum
  rw [Finset.sum_range_add]
  refine congrArg _ ?_
  rw [Finset.sum_range]
  refine Finset.sum_congr rfl fun r _ => ?_
  exact dif_pos (show n + r.val < N by omega)

/-- The sum over the positions below N is the sum over all of them. -/
theorem psum_full {N : ℕ} (f : Fin N → M) : psum f N = ∑ k : Fin N, f k := by
  unfold psum
  rw [Finset.sum_range]
  exact Finset.sum_congr rfl fun k _ => dif_pos k.isLt

end Cert.PartialSum

end
-- ==== Proof.KI.Val0.lean ====
/-
  The value of the first region: after it the hidden array holds  z · σ(z)  of  z(t, h) = (∑ k, x[t, k] · (w1[h, k] − zp[h])) + b1[h].

  The region walks 8 · 8 · 4 points, the contraction block innermost, and keeps a 1024 × 1024 accumulator across the
  four points of one (row block, column block) pair. What each of the three control cases leaves is read off the
  stores its run found: the first case stores the zero block and then the zero block plus the product of the token
  block with the zero-point-adjusted weight block; the other two store what the accumulator held plus that product;
  the last case also stores, into the output window's buffer,  z · σ(z)  of the new accumulator plus the bias row.
  Hence, by induction on the position n, the accumulator after position n holds at (p, q) the PARTIAL SUM of the
  contraction over its first n % 4 + 1 blocks of 1024 positions, for the token row (n / 32) · 1024 + p and the hidden
  unit (n / 4 % 8) · 1024 + q: a position with n % 4 ≠ 0 has the row and column block of the position before it, and
  a block of the operands at contraction block k is the arrays' entries at positions k · 1024, …, k · 1024 + 1023. At a
  point whose contraction block is the last the partial sum is the whole sum, so the output buffer holds that point's
  block of the hidden layer; those points are the ones that write back, and their blocks cover the hidden array.
-/
import proofs.«127535_j57449482551364_1_alg».proof.Proof.KI.Reg0
import proofs.«127535_j57449482551364_1_alg».proof.Proof.KI.Blk0
import proofs.«127535_j57449482551364_1_alg».proof.Proof.KI.Pay
import proofs.«127535_j57449482551364_1_alg».proof.Proof.LibPartialSum
import proofs.«127535_j57449482551364_1_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-- The zero offsets of a whole-buffer access. -/
theorem hz0 : (![0, 0] : Fin 2 → Nat) = fun _ => 0 := funext fun a => by fin_cases a <;> rfl

/-- The first case leaves in the accumulator the accumulation step of the zero block: the reset is read back. -/
theorem sout0_A_eq (c : Dev nD) (i : grid0.Coords) (arg3 : Memref sig .tc .vmem S1024x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : cond0_0 i) (hc1 : ¬cond0_1 i) (x0 : Vec Ideal S1024x1024 .bf16) (x1 : Vec Ideal S1024x1024 .f32) (x2 : Vec Ideal S1024x1 .f32) (x3 : Vec Ideal S1x1024 .f32) :
    sout0_A c i arg3 harg3 arg4 harg4 arg5 harg5 arg6 harg6 arg7 harg7 arg8 harg8 hc0 hc1 x0 x1 x2 x3 = k0_pay2 x1 x2 (k0_pay1 (F := Ideal)) x0 := by
  unfold sout0_A
  rw [View.read_writes_eq_canon _ _ _ (scover0_A c i arg3 harg3 arg4 harg4 arg5 harg5 arg6 harg6 arg7 harg7 arg8 harg8 hc0 hc1 x0 x1 x2 x3)]
  unfold kernelRun0_A
  dsimp only
  sl_unfold_words
  rw [View.canon_cons_unit_zero (S := S1024x1024) hz0, View.readCov_unit_zero (S := S1024x1024) _ hz0]
  simp only [View.readAt_eq_ld, harg3.read_unread, harg4.read_unread, harg5.read_unread, harg6.read_unread, harg8.read_unread, View.ld_unit_zero (S := S1024x1024) hz0, View.ld_unit_zero (S := S1024x1) hz0, View.ld_unit_zero (S := S1x1024) hz0]

/-- The middle case leaves in the accumulator the accumulation step of what it held. -/
theorem sout0_B_eq (c : Dev nD) (i : grid0.Coords) (arg3 : Memref sig .tc .vmem S1024x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : ¬cond0_1 i) (x0 : Vec Ideal S1024x1024 .bf16) (x1 : Vec Ideal S1024x1024 .f32) (x2 : Vec Ideal S1024x1 .f32) (x3 : Vec Ideal S1x1024 .f32) (xs : Vec Ideal S1024x1024 .f32) :
    sout0_B c i arg3 harg3 arg4 harg4 arg5 harg5 arg6 harg6 arg7 harg7 arg8 harg8 hc0 hc1 x0 x1 x2 x3 xs = k0_pay2 x1 x2 xs x0 := by
  unfold sout0_B
  rw [View.read_writes_eq_canon _ _ _ (scover0_B c i arg3 harg3 arg4 harg4 arg5 harg5 arg6 harg6 arg7 harg7 arg8 harg8 hc0 hc1 x0 x1 x2 x3 xs)]
  unfold kernelRun0_B
  dsimp only
  sl_unfold_words
  rw [View.canon_unit_zero hz0]
  simp only [View.readAt_eq_ld, harg3.read_unread, harg4.read_unread, harg5.read_unread, harg6.read_unread, harg8.read_unread, View.ld_unit_zero (S := S1024x1024) hz0, View.ld_unit_zero (S := S1024x1) hz0, View.ld_unit_zero (S := S1x1024) hz0]

/-- The last case leaves in the accumulator the accumulation step of what it held. -/
theorem sout0_C_eq (c : Dev nD) (i : grid0.Coords) (arg3 : Memref sig .tc .vmem S1024x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : cond0_1 i) (x0 : Vec Ideal S1024x1024 .bf16) (x1 : Vec Ideal S1024x1024 .f32) (x2 : Vec Ideal S1024x1 .f32) (x3 : Vec Ideal S1x1024 .f32) (xs : Vec Ideal S1024x1024 .f32) :
    sout0_C c i arg3 harg3 arg4 harg4 arg5 harg5 arg6 harg6 arg7 harg7 arg8 harg8 hc0 hc1 x0 x1 x2 x3 xs = k0_pay2 x1 x2 xs x0 := by
  unfold sout0_C
  rw [View.read_writes_eq_canon _ _ _ (scover0_C c i arg3 harg3 arg4 harg4 arg5 harg5 arg6 harg6 arg7 harg7 arg8 harg8 hc0 hc1 x0 x1 x2 x3 xs)]
  unfold kernelRun0_C
  dsimp only
  sl_unfold_words
  rw [View.canon_unit_zero hz0]
  simp only [View.readAt_eq_ld, harg3.read_unread, harg4.read_unread, harg5.read_unread, harg6.read_unread, harg8.read_unread, View.ld_unit_zero (S := S1024x1024) hz0, View.ld_unit_zero (S := S1024x1) hz0, View.ld_unit_zero (S := S1x1024) hz0]

/-- The last case leaves in the output window's buffer z · σ(z) of the new accumulator plus the bias row. -/
theorem out0_C_eq (c : Dev nD) (i : grid0.Coords) (arg3 : Memref sig .tc .vmem S1024x1024 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : cond0_1 i) (x0 : Vec Ideal S1024x1024 .bf16) (x1 : Vec Ideal S1024x1024 .f32) (x2 : Vec Ideal S1024x1 .f32) (x3 : Vec Ideal S1x1024 .f32) (xs : Vec Ideal S1024x1024 .f32) :
    out0_C c i arg3 harg3 arg4 harg4 arg5 harg5 arg6 harg6 arg7 harg7 arg8 harg8 hc0 hc1 x0 x1 x2 x3 xs = k0_pay3 (k0_pay2 x1 x2 xs x0) x3 := by
  unfold out0_C
  rw [View.read_writes_eq_canon _ _ _ (cover0_C c i arg3 harg3 arg4 harg4 arg5 harg5 arg6 harg6 arg7 harg7 arg8 harg8 hc0 hc1 x0 x1 x2 x3 xs)]
  unfold kernelRun0_C
  dsimp only
  sl_unfold_words
  rw [View.canon_unit_zero hz0]
  simp only [View.readAt_eq_ld, harg3.read_unread, harg4.read_unread, harg5.read_unread, harg6.read_unread, harg8.read_unread, View.ld_unit_zero (S := S1024x1024) hz0, View.ld_unit_zero (S := S1024x1) hz0, View.ld_unit_zero (S := S1x1024) hz0, View.readCov_unit_zero (S := S1024x1024) _ hz0]

/-! ## The arrays and the blocks, by their literal types -/

/-- The token array as the region finds it. -/
abbrev tok0 (c : Dev nD) : (⟨2, ![8192, 4096]⟩ : Shape).Idx → EReal := V c main_v2
/-- The first weight as the region finds it. -/
abbrev wgt0 (c : Dev nD) : (⟨2, ![8192, 4096]⟩ : Shape).Idx → EReal := V c main_arg1
/-- The zero-point column as the region finds it. -/
abbrev zpt0 (c : Dev nD) : (⟨2, ![8192, 1]⟩ : Shape).Idx → EReal := V c main_v0
/-- The bias row as the region finds it. -/
abbrev bia0 (c : Dev nD) : (⟨2, ![1, 8192]⟩ : Shape).Idx → EReal := V c main_v1
/-- The token block at a point. -/
abbrev tokB (c : Dev nD) (t : Fin cfg0.N) : Vec Ideal S1024x1024 .bf16 := iblk0 V c 0 t
/-- The weight block at a point. -/
abbrev wgtB (c : Dev nD) (t : Fin cfg0.N) : Vec Ideal S1024x1024 .f32 := iblk0 V c 1 t
/-- The zero-point block at a point. -/
abbrev zptB (c : Dev nD) (t : Fin cfg0.N) : Vec Ideal S1024x1 .f32 := iblk0 V c 2 t
/-- The bias block at a point. -/
abbrev biaB (c : Dev nD) (t : Fin cfg0.N) : Vec Ideal S1x1024 .f32 := iblk0 V c 3 t

/-- The contraction's term at token row R, hidden unit H, position r: x[R, r] · (w1[H, r] − zp[H]). -/
def term0 (X W : (⟨2, ![8192, 4096]⟩ : Shape).Idx → EReal) (Z : (⟨2, ![8192, 1]⟩ : Shape).Idx → EReal)
    (R H : Fin 8192) (r : Fin 4096) : EReal :=
  X (ix2 R r) * (W (ix2 H r) - Z (ix2 H (0 : Fin 1)))

/-- One block of the contraction: if the accumulator holds the partial sum over the first k blocks, and the three
    operand blocks are the arrays' entries of block k, adding the block's product gives the partial sum over k + 1. -/
theorem psum_block (X W : (⟨2, ![8192, 4096]⟩ : Shape).Idx → EReal) (Z : (⟨2, ![8192, 1]⟩ : Shape).Idx → EReal)
    (x0 : Vec Ideal S1024x1024 .bf16) (x1 : Vec Ideal S1024x1024 .f32) (x2 : Vec Ideal S1024x1 .f32)
    (R H : Fin 8192) (k : ℕ) (hk : k < 4) (p q : Fin 1024)
    (h0 : ∀ r : Fin 1024, x0 (ix2 p r) = X (ix2 R ⟨k * 1024 + r.val, by omega⟩))
    (h1 : ∀ r : Fin 1024, x1 (ix2 q r) = W (ix2 H ⟨k * 1024 + r.val, by omega⟩))
    (h2 : x2 (ix2 q (0 : Fin 1)) = Z (ix2 H (0 : Fin 1)))
    (acc : EReal) (hacc : acc = Cert.PartialSum.psum (term0 X W Z R H) (k * 1024)) :
    acc + ∑ r : Fin 1024, x0 (ix2 p r) * (x1 (ix2 q r) - x2 (ix2 q (0 : Fin 1)))
      = Cert.PartialSum.psum (term0 X W Z R H) ((k + 1) * 1024) := by
  rw [show (k + 1) * 1024 = k * 1024 + 1024 by omega, Cert.PartialSum.psum_add _ _ _ (by omega), hacc]
  refine congrArg _ (Finset.sum_congr rfl fun r _ => ?_)
  rw [h0 r, h1 r, h2]
  rfl

/-! ## The cases at a point -/

/-- At a point whose contraction block is the first the accumulator ends at the accumulation step of the zero block. -/
theorem ptA0_eq (c : Dev nD) (t : Fin cfg0.N) (h0 : t.val % 4 = 0) :
    ptA0 V c t h0 = k0_pay2 (wgtB V c t) (zptB V c t) (k0_pay1 (F := Ideal)) (tokB V c t) := by
  unfold ptA0
  exact sout0_A_eq c (grid0.coords t) (ms0_0 t) (hs0_0 t) (ms0_1 t) (hs0_1 t) (ms0_2 t) (hs0_2 t) (ms0_3 t) (hs0_3 t) (ms0_4 t) (hs0_4 t) scM0 (Memref.isWhole_whole _) _ _ (tokB V c t) (wgtB V c t) (zptB V c t) (biaB V c t)

/-- At a point whose contraction block is neither the first nor the last the accumulator ends at the accumulation step of what it held. -/
theorem ptB0_eq (c : Dev nD) (t : Fin cfg0.N) (h0 : ¬t.val % 4 = 0) (h1 : ¬t.val % 4 = 3) (xs : Vec Ideal S1024x1024 .f32) :
    ptB0 V c t h0 h1 xs = k0_pay2 (wgtB V c t) (zptB V c t) xs (tokB V c t) := by
  unfold ptB0
  exact sout0_B_eq c (grid0.coords t) (ms0_0 t) (hs0_0 t) (ms0_1 t) (hs0_1 t) (ms0_2 t) (hs0_2 t) (ms0_3 t) (hs0_3 t) (ms0_4 t) (hs0_4 t) scM0 (Memref.isWhole_whole _) _ _ (tokB V c t) (wgtB V c t) (zptB V c t) (biaB V c t) xs

/-- At a point whose contraction block is the last the accumulator ends at the accumulation step of what it held. -/
theorem ptC0_eq (c : Dev nD) (t : Fin cfg0.N) (h1 : t.val % 4 = 3) (xs : Vec Ideal S1024x1024 .f32) :
    ptC0 V c t h1 xs = k0_pay2 (wgtB V c t) (zptB V c t) xs (tokB V c t) := by
  unfold ptC0
  exact sout0_C_eq c (grid0.coords t) (ms0_0 t) (hs0_0 t) (ms0_1 t) (hs0_1 t) (ms0_2 t) (hs0_2 t) (ms0_3 t) (hs0_3 t) (ms0_4 t) (hs0_4 t) scM0 (Memref.isWhole_whole _) _ _ (tokB V c t) (wgtB V c t) (zptB V c t) (biaB V c t) xs

/-- At a point whose contraction block is the last the output buffer ends at z · σ(z) of the new accumulator plus the bias row. -/
theorem ptO0_eq (c : Dev nD) (t : Fin cfg0.N) (h1 : t.val % 4 = 3) (xs : Vec Ideal S1024x1024 .f32) :
    ptO0 V c t h1 xs = k0_pay3 (k0_pay2 (wgtB V c t) (zptB V c t) xs (tokB V c t)) (biaB V c t) := by
  unfold ptO0
  exact out0_C_eq c (grid0.coords t) (ms0_0 t) (hs0_0 t) (ms0_1 t) (hs0_1 t) (ms0_2 t) (hs0_2 t) (ms0_3 t) (hs0_3 t) (ms0_4 t) (hs0_4 t) scM0 (Memref.isWhole_whole _) _ _ (tokB V c t) (wgtB V c t) (zptB V c t) (biaB V c t) xs

/-! ## The accumulator is a partial sum -/

/-- The token row of block row p at position n: the row block n / 32, then p. -/
def rowAt (n : ℕ) (hn : n < 256) (p : Fin 1024) : Fin 8192 := ⟨n / 32 * 1024 + p.val, by omega⟩
/-- The hidden unit of block column q at position n: the column block n / 4 % 8, then q. -/
def colAt (n : ℕ) (hn : n < 256) (q : Fin 1024) : Fin 8192 := ⟨n / 4 % 8 * 1024 + q.val, by omega⟩

/-- A position of the grid is below 256. -/
theorem lt256 {n : ℕ} (hn : n < cfg0.N) : n < 256 := lt_of_lt_of_eq hn (show cfg0.N = 256 from N_0)

/-- The accumulation step at point t, entry (p, q): from the partial sum over the first t % 4 blocks of the
    contraction axis to the partial sum over t % 4 + 1 blocks. -/
theorem step_at (c : Dev nD) (t : Fin cfg0.N) (xs : Vec Ideal S1024x1024 .f32) (p q : Fin 1024)
    (hxs : xs (ix2 p q) = Cert.PartialSum.psum (term0 (tok0 V c) (wgt0 V c) (zpt0 V c) (rowAt t.val (lt256 t.isLt) p) (colAt t.val (lt256 t.isLt) q)) (t.val % 4 * 1024)) :
    k0_pay2 (wgtB V c t) (zptB V c t) xs (tokB V c t) (ix2 p q)
      = Cert.PartialSum.psum (term0 (tok0 V c) (wgt0 V c) (zpt0 V c) (rowAt t.val (lt256 t.isLt) p) (colAt t.val (lt256 t.isLt) q)) ((t.val % 4 + 1) * 1024) := by
  refine (Pay.pay2_0_apply (wgtB V c t) (zptB V c t) xs (tokB V c t) p q).trans ?_
  refine psum_block (tok0 V c) (wgt0 V c) (zpt0 V c) (tokB V c t) (wgtB V c t) (zptB V c t)
    (rowAt t.val (lt256 t.isLt) p) (colAt t.val (lt256 t.isLt) q) (t.val % 4) (Nat.mod_lt _ (by decide)) p q ?_ ?_ ?_ _ hxs
  · intro r
    exact iblk0_0_apply V c t (ix2 p r) (ix2 (rowAt t.val (lt256 t.isLt) p) ⟨t.val % 4 * 1024 + r.val, by omega⟩) rfl rfl
  · intro r
    exact iblk0_1_apply V c t (ix2 q r) (ix2 (colAt t.val (lt256 t.isLt) q) ⟨t.val % 4 * 1024 + r.val, by omega⟩) rfl rfl
  · exact iblk0_2_apply V c t (ix2 q (0 : Fin 1)) (ix2 (colAt t.val (lt256 t.isLt) q) (0 : Fin 1)) rfl

/-- After position n the accumulator holds, at (p, q), the partial sum over the first n % 4 + 1 blocks of the
    contraction axis, for the token row and the hidden unit of the point's row and column blocks. -/
theorem acc_psum (c : Dev nD) : ∀ (n : ℕ) (hn : n < cfg0.N) (p q : Fin 1024),
    accAt0 V c n hn (ix2 p q)
      = Cert.PartialSum.psum (term0 (tok0 V c) (wgt0 V c) (zpt0 V c) (rowAt n (lt256 hn) p) (colAt n (lt256 hn) q)) ((n % 4 + 1) * 1024) := by
  intro n
  induction n with
  | zero =>
    intro hn p q
    refine (congrFun (ptA0_eq V c ⟨0, hn⟩ (Nat.zero_mod _)) (ix2 p q)).trans ?_
    refine step_at V c ⟨0, hn⟩ _ p q ?_
    exact (Pay.pay1_0_apply (ix2 p q)).trans (Cert.PartialSum.psum_zero _).symm
  | succ n ih =>
    intro hn p q
    have hN : n + 1 < 256 := lt256 hn
    by_cases h0 : (n + 1) % 4 = 0
    · refine (congrFun (accAt0_A V c ⟨n + 1, hn⟩ h0) (ix2 p q)).trans ?_
      refine (congrFun (ptA0_eq V c ⟨n + 1, hn⟩ h0) (ix2 p q)).trans ?_
      refine step_at V c ⟨n + 1, hn⟩ _ p q ?_
      rw [show (⟨n + 1, hn⟩ : Fin cfg0.N).val % 4 * 1024 = 0 from by show (n + 1) % 4 * 1024 = 0; omega]
      exact (Pay.pay1_0_apply (ix2 p q)).trans (Cert.PartialSum.psum_zero _).symm
    · have ih' := ih (Nat.lt_of_succ_lt hn) p q
      have hrow : rowAt n (lt256 (Nat.lt_of_succ_lt hn)) p = rowAt (n + 1) hN p := Fin.ext (by show n / 32 * 1024 + p.val = (n + 1) / 32 * 1024 + p.val; omega)
      have hcol : colAt n (lt256 (Nat.lt_of_succ_lt hn)) q = colAt (n + 1) hN q := Fin.ext (by show n / 4 % 8 * 1024 + q.val = (n + 1) / 4 % 8 * 1024 + q.val; omega)
      have hk : (n % 4 + 1) * 1024 = (n + 1) % 4 * 1024 := by omega
      rw [hrow, hcol, hk] at ih'
      by_cases h1 : (n + 1) % 4 = 3
      · refine (congrFun (accAt0_C V c ⟨n + 1, hn⟩ h1) (ix2 p q)).trans ?_
        refine (congrFun (ptC0_eq V c ⟨n + 1, hn⟩ h1 _) (ix2 p q)).trans ?_
        exact step_at V c ⟨n + 1, hn⟩ _ p q ih'
      · refine (congrFun (accAt0_B V c ⟨n + 1, hn⟩ h0 h1) (ix2 p q)).trans ?_
        refine (congrFun (ptB0_eq V c ⟨n + 1, hn⟩ h0 h1 _) (ix2 p q)).trans ?_
        exact step_at V c ⟨n + 1, hn⟩ _ p q ih'

/-! ## The output block, the write-back and the result -/

/-- The hidden layer of the four arrays as the region finds them. -/
abbrev hid0 (c : Dev nD) : (⟨2, ![8192, 8192]⟩ : Shape).Idx → EReal :=
  Cert.Spec.hid (tok0 V c) (wgt0 V c) (zpt0 V c) (bia0 V c)

/-- At a point whose contraction block is the last the output buffer holds, at (p, q), the hidden layer's entry for the
    token row and the hidden unit of the point's row and column blocks: the accumulator has reached the whole sum. -/
theorem out_hid (c : Dev nD) (t : Fin cfg0.N) (h1 : t.val % 4 = 3) (p q : Fin 1024) :
    outAt0 V c t (ix2 p q) = hid0 V c (ix2 (rowAt t.val (lt256 t.isLt) p) (colAt t.val (lt256 t.isLt) q)) := by
  refine (congrFun (outAt0_C V c t h1) (ix2 p q)).trans ?_
  refine (congrFun (ptO0_eq V c t h1 _) (ix2 p q)).trans ?_
  refine (Pay.pay3_0_apply _ (biaB V c t) p q).trans ?_
  have hacc : k0_pay2 (wgtB V c t) (zptB V c t) (accAt0 V c (t.val - 1) (Nat.lt_of_le_of_lt (Nat.sub_le _ _) t.isLt)) (tokB V c t) (ix2 p q)
      = ∑ k : Fin 4096, term0 (tok0 V c) (wgt0 V c) (zpt0 V c) (rowAt t.val (lt256 t.isLt) p) (colAt t.val (lt256 t.isLt) q) k := by
    refine (congrFun ((accAt0_C V c t h1).trans (ptC0_eq V c t h1 _)) (ix2 p q)).symm.trans ?_
    rw [acc_psum V c t.val t.isLt p q, show (t.val % 4 + 1) * 1024 = 4096 by omega]
    exact Cert.PartialSum.psum_full _
  have hb : biaB V c t (ix2 (0 : Fin 1) q) = bia0 V c (ix2 (0 : Fin 1) (colAt t.val (lt256 t.isLt) q)) :=
    iblk0_3_apply V c t (ix2 (0 : Fin 1) q) (ix2 (0 : Fin 1) (colAt t.val (lt256 t.isLt) q)) rfl
  refine (congrArg Cert.Spec.silu (congrArg₂ (· + ·) hacc hb)).trans ?_
  rfl

/-- What a point whose contraction block is the last writes back is its block of the hidden layer. -/
theorem flushed0_eq (c : Dev nD) (t : Fin cfg0.N) (hf : (cfg0.win 4).flush t = true) :
    (dat0 V c).flushed 4 t = ((cfg0.win 4).blk t).view.read (Elt Ideal) (hid0 V c) := by
  have h1 : t.val % 4 = 3 := (flush0_4 t).mp hf
  show (cfg0.win 4).cut (grid0.coords t) ((dat0 V c).after 4 t) = _
  rw [after0_4]
  refine funext fun (y : S1024x1024.Idx) => ?_
  obtain ⟨p, q, rfl⟩ : ∃ (p q : Fin 1024), y = ix2 p q := ⟨y 0, y 1, eq_ix2 y⟩
  show outAt0 V c t (ix2 p q) = _
  rw [out_hid V c t h1 p q]
  exact (oblk0_apply (F := Ideal) c t (hid0 V c) (ix2 p q) (ix2 (rowAt t.val (lt256 t.isLt) p) (colAt t.val (lt256 t.isLt) q)) rfl rfl).symm

/-- THE RESULT: after the region the hidden array holds Spec.hid of the four input arrays as the region found them. -/
theorem final0 (c : Dev nD) : (dat0 V c).arrAt 4 cfg0.N = Cert.Spec.hid (V c main_v2) (V c main_arg1) (V c main_v0) (V c main_v1) :=
  (dat0 V c).arrAt_eq_of_cover 4 (hid0 V c) (flushed0_eq V c) fun i => by
    obtain ⟨t, h3, hi⟩ := cover0 i
    exact ⟨t, (flush0_4 t).mpr h3, hi⟩

end Cert.KernelIdeal.Fr

end
-- ==== Proof.KI.Blk1.lean ====
/-
  The second region's blocks, by coordinates.

  The second region walks an 8 x 4 x 8 grid: point t = (i · 4 + j) · 8 + k, with i the row block, j the column block
  and k the contraction block, so i = t / 32, j = t / 8 % 4 and k = t % 8. At a point the left operand's block is
  block (i, k) of the [8192, 8192] hidden array, the right operand's is block (j, k) of the [4096, 8192] weight
  array, and the output's is block (i, j) of the [8192, 4096] result; every block is 1024 x 1024.
  Here: those block indices in closed form over the 256 points; each block read at a position inside it, which is the
  array's entry whose coordinate on each axis is the block index times 1024 plus the position; and that every entry
  of the result lies in the output block of a point whose contraction block is the last.
-/
import proofs.«127535_j57449482551364_1_alg».proof.Proof.KI.Base
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The left operand's block index at a point: row block t / 32, contraction block t % 8. -/
theorem idx1_0 : ∀ t : Fin cfg1.N, win1_0.index t (0 : Fin 2) = t.val / 32 ∧ win1_0.index t (1 : Fin 2) = t.val % 8 :=
  (by decide +kernel : ∀ t : Fin grid1.N, win1_0.index t (0 : Fin 2) = t.val / 32 ∧ win1_0.index t (1 : Fin 2) = t.val % 8)
/-- The right operand's block index at a point: column block t / 8 % 4, contraction block t % 8. -/
theorem idx1_1 : ∀ t : Fin cfg1.N, win1_1.index t (0 : Fin 2) = t.val / 8 % 4 ∧ win1_1.index t (1 : Fin 2) = t.val % 8 :=
  (by decide +kernel : ∀ t : Fin grid1.N, win1_1.index t (0 : Fin 2) = t.val / 8 % 4 ∧ win1_1.index t (1 : Fin 2) = t.val % 8)
/-- The output's block index at a point: row block t / 32, column block t / 8 % 4. -/
theorem idx1_2 : ∀ t : Fin cfg1.N, win1_2.index t (0 : Fin 2) = t.val / 32 ∧ win1_2.index t (1 : Fin 2) = t.val / 8 % 4 :=
  (by decide +kernel : ∀ t : Fin grid1.N, win1_2.index t (0 : Fin 2) = t.val / 32 ∧ win1_2.index t (1 : Fin 2) = t.val / 8 % 4)

/-- The left block at a point, at (p, r), is the array's entry in row (t/32)·1024 + p, column (t%8)·1024 + r. -/
theorem iblk1_0_apply (c : Dev nD) (t : Fin cfg1.N) (y : S1024x1024.Idx) (a : S8192x8192.Idx)
    (h0 : (a 0).val = t.val / 32 * 1024 + (y 0).val) (h1 : (a 1).val = t.val % 8 * 1024 + (y 1).val) :
    (iblk1 V c 0 t : Vec F S1024x1024 .bf16) y = V c main_v4 a := by
  obtain ⟨e0, e1⟩ := idx1_0 t
  unfold iblk1
  rw [View.read_apply]
  show V c main_v4 (((cfg1.win 0).blk t).view.emb y) = V c main_v4 a
  congr 1
  funext ax
  apply Fin.ext
  match ax with
  | ⟨0, _⟩ => show win1_0.index t (0 : Fin 2) * 1024 + 1 * (y 0).val = (a 0).val; rw [e0, h0]; omega
  | ⟨1, _⟩ => show win1_0.index t (1 : Fin 2) * 1024 + 1 * (y 1).val = (a 1).val; rw [e1, h1]; omega

/-- The right block at a point, at (p, r), is the array's entry in row (t/8%4)·1024 + p, column (t%8)·1024 + r. -/
theorem iblk1_1_apply (c : Dev nD) (t : Fin cfg1.N) (y : S1024x1024.Idx) (a : S4096x8192.Idx)
    (h0 : (a 0).val = t.val / 8 % 4 * 1024 + (y 0).val) (h1 : (a 1).val = t.val % 8 * 1024 + (y 1).val) :
    (iblk1 V c 1 t : Vec F S1024x1024 .bf16) y = V c main_v3 a := by
  obtain ⟨e0, e1⟩ := idx1_1 t
  unfold iblk1
  rw [View.read_apply]
  show V c main_v3 (((cfg1.win 1).blk t).view.emb y) = V c main_v3 a
  congr 1
  funext ax
  apply Fin.ext
  match ax with
  | ⟨0, _⟩ => show win1_1.index t (0 : Fin 2) * 1024 + 1 * (y 0).val = (a 0).val; rw [e0, h0]; omega
  | ⟨1, _⟩ => show win1_1.index t (1 : Fin 2) * 1024 + 1 * (y 1).val = (a 1).val; rw [e1, h1]; omega

/-- Reading an array through the output window's block at a point: at y, the array's entry in row (t/32)·1024 + y₀, column (t/8%4)·1024 + y₁. -/
theorem oblk1_apply (c : Dev nD) (t : Fin cfg1.N) (G : S8192x4096.Idx → Elt F .f32) (y : S1024x1024.Idx) (a : S8192x4096.Idx)
    (h0 : (a 0).val = t.val / 32 * 1024 + (y 0).val) (h1 : (a 1).val = t.val / 8 % 4 * 1024 + (y 1).val) :
    (((cfg1.win 2).blk t).view.read (Elt F) G : Vec F S1024x1024 .f32) y = G a := by
  obtain ⟨e0, e1⟩ := idx1_2 t
  rw [View.read_apply]
  show G (((cfg1.win 2).blk t).view.emb y) = G a
  congr 1
  funext ax
  apply Fin.ext
  match ax with
  | ⟨0, _⟩ => show win1_2.index t (0 : Fin 2) * 1024 + 1 * (y 0).val = (a 0).val; rw [e0, h0]; omega
  | ⟨1, _⟩ => show win1_2.index t (1 : Fin 2) * 1024 + 1 * (y 1).val = (a 1).val; rw [e1, h1]; omega

/-- Every entry of the output array lies in the block of a point whose contraction block is the last: entry (r, d) in that of point ((r/1024)·4 + d/1024)·8 + 7. -/
theorem cover1 (i : S8192x4096.Idx) : ∃ t : Fin cfg1.N, t.val % 8 = 7 ∧ i ∈ ((cfg1.win 2).blk t).view.set := by
  have hi0 : (i 0).val < 8192 := (i 0).isLt
  have hi1 : (i 1).val < 4096 := (i 1).isLt
  have hN : cfg1.N = 256 := by decide
  obtain ⟨t, ht⟩ : ∃ t : Fin cfg1.N, t.val = ((i 0).val / 1024 * 4 + (i 1).val / 1024) * 8 + 7 :=
    ⟨⟨((i 0).val / 1024 * 4 + (i 1).val / 1024) * 8 + 7, by rw [hN]; omega⟩, rfl⟩
  obtain ⟨e0, e1⟩ := idx1_2 t
  refine ⟨t, by omega, ?_⟩
  show i ∈ ((View.whole main_v5).slice (win1_2.rect t)).set
  rw [View.set_slice_whole, Rect.mem_set_unit]
  intro ax
  match ax with
  | ⟨0, _⟩ =>
    show win1_2.index t (0 : Fin 2) * 1024 ≤ (i 0).val ∧ (i 0).val < win1_2.index t (0 : Fin 2) * 1024 + 1024
    rw [e0]; omega
  | ⟨1, _⟩ =>
    show win1_2.index t (1 : Fin 2) * 1024 ≤ (i 1).val ∧ (i 1).val < win1_2.index t (1 : Fin 2) * 1024 + 1024
    rw [e1]; omega

end Cert.KernelIdeal.Fr

end
-- ==== Proof.KI.Val1.lean ====
/-
  What the second region leaves in its output array, over the extended reals.

  The region computes out[a, d] = ∑ r, h[a, r] · w2[d, r], 1024 contraction positions at a time. For a row block i and
  a column block j the accumulator entry (p, q) stands for the result entry (a, d) = (1024 i + p, 1024 j + q). Every
  case of the body leaves in the accumulator the update value: the old contents (zero where the contraction block is
  the first) plus the product of the two input blocks contracted along their last axis. So, by induction on the
  position n = (i · 4 + j) · 8 + k, after position n the accumulator entry (p, q) is the partial sum of the terms
  h[a, r] · w2[d, r] over r < 1024 (k + 1): the step adds block k's 1024 terms, and for k > 0 the position before has
  the same row and column block. At k = 7 the partial sum is the whole sum; there the body also stores the accumulator
  into the output window's buffer, and the point writes that buffer back as block (i, j) of the result. These blocks
  cover the result array, so it ends holding the specification's second layer of the two input arrays as the region
  found them.
-/
import proofs.«127535_j57449482551364_1_alg».proof.Proof.KI.Reg1
import proofs.«127535_j57449482551364_1_alg».proof.Proof.KI.Blk1
import proofs.«127535_j57449482551364_1_alg».proof.Proof.KI.Pay
import proofs.«127535_j57449482551364_1_alg».proof.Proof.LibPartialSum
import proofs.«127535_j57449482551364_1_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

local notation "𝕄" => MT nD τ sig Unit (Elt Ideal) ℕ (UR sig nD τ) ℕ

variable (V : (c : Dev nD) → (b : Ref sig .tc) → Buf (Elt Ideal) ((c : Thread nD τ).loc b))

open Cert.PartialSum

/-! ## What each case leaves -/

/-- The offset that is zero on both axes. -/
theorem hz1 : (![0, 0] : Fin 2 → Nat) = fun _ => 0 := funext fun a => by fin_cases a <;> rfl

/-- Case values: what a case leaves in the accumulator (and the last case in the output buffer) is the update payload.
    First case: the update of the zero block by the two input blocks. -/
theorem sout1_A_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond1_0 i) (hc1 : ¬cond1_1 i) (x0 x1 : Vec Ideal S1024x1024 .bf16) :
    sout1_A c i arg3 harg3 arg4 harg4 arg5 harg5 arg6 harg6 hc0 hc1 x0 x1 = k1_pay2 (k1_pay1 (F := Ideal)) x0 x1 := by
  unfold sout1_A
  rw [View.read_writes_eq_canon _ _ _ (scover1_A c i arg3 harg3 arg4 harg4 arg5 harg5 arg6 harg6 hc0 hc1 x0 x1)]
  unfold kernelRun1_A
  dsimp only
  sl_unfold_words
  rw [View.canon_cons_unit_zero (S := S1024x1024) hz1, View.readCov_unit_zero (S := S1024x1024) _ hz1]
  simp only [View.readAt_eq_ld, harg3.read_unread, harg4.read_unread, harg5.read_unread, harg6.read_unread, View.ld_unit_zero (S := S1024x1024) hz1, View.readCov_unit_zero (S := S1024x1024) _ hz1]

/-- Middle case: the update of the accumulator's old contents by the two input blocks. -/
theorem sout1_B_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : ¬cond1_1 i) (x0 x1 : Vec Ideal S1024x1024 .bf16) (xs : Vec Ideal S1024x1024 .f32) :
    sout1_B c i arg3 harg3 arg4 harg4 arg5 harg5 arg6 harg6 hc0 hc1 x0 x1 xs = k1_pay2 xs x0 x1 := by
  unfold sout1_B
  rw [View.read_writes_eq_canon _ _ _ (scover1_B c i arg3 harg3 arg4 harg4 arg5 harg5 arg6 harg6 hc0 hc1 x0 x1 xs)]
  unfold kernelRun1_B
  dsimp only
  sl_unfold_words
  rw [View.canon_unit_zero hz1]
  simp only [View.readAt_eq_ld, harg3.read_unread, harg4.read_unread, harg5.read_unread, harg6.read_unread, View.ld_unit_zero (S := S1024x1024) hz1, View.readCov_unit_zero (S := S1024x1024) _ hz1]

/-- Last case, the accumulator: the update of its old contents by the two input blocks. -/
theorem sout1_C_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i) (x0 x1 : Vec Ideal S1024x1024 .bf16) (xs : Vec Ideal S1024x1024 .f32) :
    sout1_C c i arg3 harg3 arg4 harg4 arg5 harg5 arg6 harg6 hc0 hc1 x0 x1 xs = k1_pay2 xs x0 x1 := by
  unfold sout1_C
  rw [View.read_writes_eq_canon _ _ _ (scover1_C c i arg3 harg3 arg4 harg4 arg5 harg5 arg6 harg6 hc0 hc1 x0 x1 xs)]
  unfold kernelRun1_C
  dsimp only
  sl_unfold_words
  rw [View.canon_unit_zero hz1]
  simp only [View.readAt_eq_ld, harg3.read_unread, harg4.read_unread, harg5.read_unread, harg6.read_unread, View.ld_unit_zero (S := S1024x1024) hz1, View.readCov_unit_zero (S := S1024x1024) _ hz1]

/-- Last case, the output buffer: the same updated value, read back from the accumulator and stored. -/
theorem out1_C_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i) (x0 x1 : Vec Ideal S1024x1024 .bf16) (xs : Vec Ideal S1024x1024 .f32) :
    out1_C c i arg3 harg3 arg4 harg4 arg5 harg5 arg6 harg6 hc0 hc1 x0 x1 xs = k1_pay2 xs x0 x1 := by
  unfold out1_C
  rw [View.read_writes_eq_canon _ _ _ (cover1_C c i arg3 harg3 arg4 harg4 arg5 harg5 arg6 harg6 hc0 hc1 x0 x1 xs)]
  unfold kernelRun1_C
  dsimp only
  sl_unfold_words
  rw [View.canon_unit_zero hz1]
  simp only [View.readAt_eq_ld, harg3.read_unread, harg4.read_unread, harg5.read_unread, harg6.read_unread, View.ld_unit_zero (S := S1024x1024) hz1, View.readCov_unit_zero (S := S1024x1024) _ hz1]

/-! ## The arrays and blocks, at their literal types -/

/-- The hidden array as the region finds it. -/
abbrev hidArr (c : Dev nD) : Vec Ideal S8192x8192 .bf16 := V c main_v4
/-- The second weight array as the region finds it. -/
abbrev w2Arr (c : Dev nD) : Vec Ideal S4096x8192 .bf16 := V c main_v3
/-- The hidden array's block at a point. -/
abbrev lblk (c : Dev nD) (t : Fin cfg1.N) : Vec Ideal S1024x1024 .bf16 := iblk1 V c 0 t
/-- The second weight's block at a point. -/
abbrev rblk (c : Dev nD) (t : Fin cfg1.N) : Vec Ideal S1024x1024 .bf16 := iblk1 V c 1 t

/-- The terms of the second layer's sum for the result entry (a, d): position r gives h[a, r] · w2[d, r]. -/
def term1 (c : Dev nD) (a : Fin 8192) (d : Fin 4096) : Fin 8192 → EReal :=
  fun r => hidArr V c (ix2 a r) * w2Arr V c (ix2 d r)

/-- The product of the two blocks' entries (p, r) and (q, r) at a point is the term of entry (a, d) at the
    contraction position the point's contraction block puts r at. -/
theorem blockTerm_eq (c : Dev nD) (t : Fin cfg1.N) (p q r : Fin 1024) (a : Fin 8192) (d : Fin 4096) (s : Fin 8192)
    (ha : a.val = t.val / 32 * 1024 + p.val) (hd : d.val = t.val / 8 % 4 * 1024 + q.val)
    (hs : s.val = t.val % 8 * 1024 + r.val) :
    lblk V c t (ix2 p r) * rblk V c t (ix2 q r) = term1 V c a d s :=
  congrArg₂ (· * ·) (iblk1_0_apply V c t (ix2 p r) (ix2 a s) ha hs) (iblk1_1_apply V c t (ix2 q r) (ix2 d s) hd hs)

/-- One update at a point: the new accumulator entry (p, q) is the old one plus the point's block of 1024 terms of
    the result entry (a, d) that (p, q) stands for. -/
theorem update_eq (c : Dev nD) (t : Fin cfg1.N) (xs : Vec Ideal S1024x1024 .f32) (p q : Fin 1024) (a : Fin 8192) (d : Fin 4096)
    (ha : a.val = t.val / 32 * 1024 + p.val) (hd : d.val = t.val / 8 % 4 * 1024 + q.val) :
    k1_pay2 xs (lblk V c t) (rblk V c t) (ix2 p q)
      = xs (ix2 p q) + ∑ r : Fin 1024, term1 V c a d ⟨t.val % 8 * 1024 + r.val, by omega⟩ :=
  (Pay.pay2_1_apply xs (lblk V c t) (rblk V c t) p q).trans
    (congrArg (xs (ix2 p q) + ·) (Finset.sum_congr rfl fun r _ => blockTerm_eq V c t p q r a d _ ha hd rfl))

/-! ## The accumulator is a partial sum -/

/-- At a point whose contraction block is the first, the accumulator entry (p, q) is the first 1024 terms of the
    result entry (a, d). -/
theorem accAt1_first (c : Dev nD) (t : Fin cfg1.N) (h0 : t.val % 8 = 0) (p q : Fin 1024) (a : Fin 8192) (d : Fin 4096)
    (ha : a.val = t.val / 32 * 1024 + p.val) (hd : d.val = t.val / 8 % 4 * 1024 + q.val) :
    accAt1 V c t.val t.isLt (ix2 p q) = psum (term1 V c a d) (t.val % 8 * 1024 + 1024) := by
  have hle : t.val % 8 * 1024 + 1024 ≤ 8192 := by omega
  have hnone : psum (term1 V c a d) (t.val % 8 * 1024) = 0 := by
    rw [show t.val % 8 * 1024 = 0 by omega]; exact psum_zero _
  rw [psum_add (term1 V c a d) (t.val % 8 * 1024) 1024 hle, hnone, accAt1_A V c t h0]
  unfold ptA1
  rw [sout1_A_eq c (grid1.coords t) (ms1_0 t) (hs1_0 t) (ms1_1 t) (hs1_1 t) (ms1_2 t) (hs1_2 t) scM1 (Memref.isWhole_whole _) _ _ (iblk1 V c 0 t) (iblk1 V c 1 t)]
  refine (update_eq V c t (k1_pay1 (F := Ideal)) p q a d ha hd).trans ?_
  rw [Pay.pay1_1_apply]

/-- At a later contraction block, if the point before left the terms below this block in entry (p, q), this point
    leaves the terms up to the end of this block. -/
theorem accAt1_next (c : Dev nD) (t : Fin cfg1.N) (h0 : ¬t.val % 8 = 0) (p q : Fin 1024) (a : Fin 8192) (d : Fin 4096)
    (ha : a.val = t.val / 32 * 1024 + p.val) (hd : d.val = t.val / 8 % 4 * 1024 + q.val)
    (prev : accAt1 V c (t.val - 1) (Nat.lt_of_le_of_lt (Nat.sub_le _ _) t.isLt) (ix2 p q)
      = psum (term1 V c a d) (t.val % 8 * 1024)) :
    accAt1 V c t.val t.isLt (ix2 p q) = psum (term1 V c a d) (t.val % 8 * 1024 + 1024) := by
  have hle : t.val % 8 * 1024 + 1024 ≤ 8192 := by omega
  rw [psum_add (term1 V c a d) (t.val % 8 * 1024) 1024 hle, ← prev]
  by_cases h1 : t.val % 8 = 7
  · rw [accAt1_C V c t h1]
    unfold ptC1
    rw [sout1_C_eq c (grid1.coords t) (ms1_0 t) (hs1_0 t) (ms1_1 t) (hs1_1 t) (ms1_2 t) (hs1_2 t) scM1 (Memref.isWhole_whole _) _ _ (iblk1 V c 0 t) (iblk1 V c 1 t) _]
    exact update_eq V c t _ p q a d ha hd
  · rw [accAt1_B V c t h0 h1]
    unfold ptB1
    rw [sout1_B_eq c (grid1.coords t) (ms1_0 t) (hs1_0 t) (ms1_1 t) (hs1_1 t) (ms1_2 t) (hs1_2 t) scM1 (Memref.isWhole_whole _) _ _ (iblk1 V c 0 t) (iblk1 V c 1 t) _]
    exact update_eq V c t _ p q a d ha hd

/-- After position n, whose row block is n / 32, column block n / 8 % 4 and contraction block n % 8, the accumulator
    entry (p, q) is the sum of the terms of the result entry (a, d) it stands for over the contraction positions
    below the end of block n % 8. -/
theorem accAt1_eq (c : Dev nD) : ∀ (n : ℕ) (hn : n < cfg1.N) (p q : Fin 1024) (a : Fin 8192) (d : Fin 4096),
    a.val = n / 32 * 1024 + p.val → d.val = n / 8 % 4 * 1024 + q.val →
    accAt1 V c n hn (ix2 p q) = psum (term1 V c a d) (n % 8 * 1024 + 1024)
  | 0, hn, p, q, a, d, ha, hd => accAt1_first V c ⟨0, hn⟩ rfl p q a d ha hd
  | m + 1, hn, p, q, a, d, ha, hd => by
    by_cases h0 : (m + 1) % 8 = 0
    · exact accAt1_first V c ⟨m + 1, hn⟩ h0 p q a d ha hd
    · have ih := accAt1_eq c m (Nat.lt_of_succ_lt hn) p q a d (by omega) (by omega)
      have e : m % 8 * 1024 + 1024 = (m + 1) % 8 * 1024 := by omega
      exact accAt1_next V c ⟨m + 1, hn⟩ h0 p q a d ha hd (ih.trans (congrArg (psum (term1 V c a d)) e))

/-! ## The output block, the write-back, the array -/

/-- Where the contraction block is the last, the output buffer holds what the accumulator holds. -/
theorem outAt1_eq_acc (c : Dev nD) (t : Fin cfg1.N) (h1 : t.val % 8 = 7) : outAt1 V c t = accAt1 V c t.val t.isLt := by
  rw [outAt1_C V c t h1, accAt1_C V c t h1]
  unfold ptO1 ptC1
  rw [out1_C_eq c (grid1.coords t) (ms1_0 t) (hs1_0 t) (ms1_1 t) (hs1_1 t) (ms1_2 t) (hs1_2 t) scM1 (Memref.isWhole_whole _) _ _ (iblk1 V c 0 t) (iblk1 V c 1 t) _, sout1_C_eq c (grid1.coords t) (ms1_0 t) (hs1_0 t) (ms1_1 t) (hs1_1 t) (ms1_2 t) (hs1_2 t) scM1 (Memref.isWhole_whole _) _ _ (iblk1 V c 0 t) (iblk1 V c 1 t) _]

/-- Where the contraction block is the last, the output buffer's entry (p, q) is the whole sum: the second layer at
    the result entry (a, d) it stands for. -/
theorem outAt1_last (c : Dev nD) (t : Fin cfg1.N) (h1 : t.val % 8 = 7) (p q : Fin 1024) (a : Fin 8192) (d : Fin 4096)
    (ha : a.val = t.val / 32 * 1024 + p.val) (hd : d.val = t.val / 8 % 4 * 1024 + q.val) :
    outAt1 V c t (ix2 p q) = Cert.Spec.out (hidArr V c) (w2Arr V c) (ix2 a d) := by
  rw [outAt1_eq_acc V c t h1, accAt1_eq V c t.val t.isLt p q a d ha hd,
    show t.val % 8 * 1024 + 1024 = 8192 by omega, psum_full]
  rfl

/-- Where the contraction block is the last, the output buffer is the output window's block of the second layer. -/
theorem outAt1_read (c : Dev nD) (t : Fin cfg1.N) (h1 : t.val % 8 = 7) (y : S1024x1024.Idx) :
    outAt1 V c t y
      = (((cfg1.win 2).blk t).view.read (Elt Ideal) (Cert.Spec.out (hidArr V c) (w2Arr V c)) : Vec Ideal S1024x1024 .f32) y := by
  have hN : t.val < 256 := lt_of_lt_of_eq t.isLt N_1
  obtain ⟨p, q, rfl⟩ : ∃ (p q : Fin 1024), y = ix2 p q := ⟨y 0, y 1, eq_ix2 y⟩
  refine Eq.trans ?_ (oblk1_apply (F := Ideal) c t (Cert.Spec.out (hidArr V c) (w2Arr V c)) (ix2 p q)
    (ix2 (⟨t.val / 32 * 1024 + p.val, by omega⟩ : Fin 8192) (⟨t.val / 8 % 4 * 1024 + q.val, by omega⟩ : Fin 4096)) rfl rfl).symm
  exact outAt1_last V c t h1 p q _ _ rfl rfl

/-- What a point whose contraction block is the last writes back is its block of the second layer. -/
theorem flushed1_eq (c : Dev nD) (t : Fin cfg1.N) (hf : (cfg1.win 2).flush t = true) :
    (dat1 V c).flushed 2 t = ((cfg1.win 2).blk t).view.read (Elt Ideal) (Cert.Spec.out (hidArr V c) (w2Arr V c)) := by
  have h1 : t.val % 8 = 7 := (flush1_2 t).mp hf
  show (cfg1.win 2).cut (grid1.coords t) ((dat1 V c).after 2 t) = _
  rw [after1_2]
  exact funext fun y => outAt1_read V c t h1 y

/-- THE RESULT: after the region the output array holds Spec.out of the two input arrays as the region found them. -/
theorem final1 (c : Dev nD) : (dat1 V c).arrAt 2 cfg1.N = Cert.Spec.out (V c main_v4) (V c main_v3) :=
  (dat1 V c).arrAt_eq_of_cover 2 (Cert.Spec.out (hidArr V c) (w2Arr V c)) (flushed1_eq V c) fun i => by
    obtain ⟨t, h7, hi⟩ := cover1 i
    exact ⟨t, (flush1_2 t).mpr h7, hi⟩

end Cert.KernelIdeal.Fr

end
-- ==== Proof.KI.Result.lean ====
/-
  The kernel's result as one function of the launch memory, at the ideal instance.

  The second region leaves in the result array the second layer of the hidden array it found and of the second
  weight; the hidden array it found is what the first region left: the first layer of the tokens, the first weight,
  the zero point as a column and the bias as a row, as the host operations wrote them. A change of float format is
  the identity here, so the narrowed tokens and the narrowed second weight are the arguments themselves.
-/
import proofs.«127535_j57449482551364_1_alg».proof.Proof.KI.Entry
import proofs.«127535_j57449482551364_1_alg».proof.Proof.KI.Val0
import proofs.«127535_j57449482551364_1_alg».proof.Proof.KI.Val1

noncomputable section

namespace Cert.KernelIdeal.Fr

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The zero point of the launch memory as a column, the bias as a row. -/
abbrev zpCol (c : Dev nD) : S8192x1.Idx → EReal := shapeCast S8192x1 (m ((c : Thread nD τ).loc main_arg3)) shapeCasts_S8192_S8192x1
abbrev b1Row (c : Dev nD) : S1x8192.Idx → EReal := shapeCast S1x8192 (m ((c : Thread nD τ).loc main_arg2)) shapeCasts_S8192_S1x8192

/-- The result, as a function of the launch memory. -/
def resultOf (c : Dev nD) : Buf (Elt Ideal) ((c : Thread nD τ).loc main_v5) :=
  Cert.Spec.out (Cert.Spec.hid (m ((c : Thread nD τ).loc main_arg0)) (m ((c : Thread nD τ).loc main_arg1)) (zpCol m c) (b1Row m c))
    (m ((c : Thread nD τ).loc main_arg4))

/-- What the second region's write-backs leave is that function. -/
theorem result_eq (c : Dev nD) : (dat1 (E2 m) c).arrAt 2 cfg1.N = resultOf m c := by
  rw [final1 (E2 m) c, E2_main_v4, E2_main_v3, final0 (E1 m) c, E1_main_v0, E1_main_v1, E1_main_v2, E1_main_v3, E1_main_arg1]
  rfl

/-- The run of the idealized kernel with its result named. -/
theorem kernel_run : θ_run defs (onTc (τ := τ) (main (F := Ideal))) ⟨m, fun _ => 0, ρ⟩ (fun r => ∀ c : Dev nD,
      r.2.mem ((c.tc : Thread nD τ).loc main_v5) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (result_eq m c), (h c).2⟩) (run_result m ρ)

end Cert.KernelIdeal.Fr

end
-- ==== Proof.RefIsSpec.lean ====
/-
  The reference program computes the two-layer function of the specification.

  Read one operation at a time at an index, the reference's first product is, at (t, h), the sum over k of
  x[t, k] · (w1[h, k] − zp[h]) (the zero point reaches every column of row h through two broadcasts), its bias add
  puts b1[h] on it (the bias reaches every row through two broadcasts), the activation multiplies that value z by
  1 / (1 + e^(−z)), where the literal 1 is the single-precision word 0x3F800000, and the second product is, at (t, d),
  the sum over q of hidden(t, q) · w2[d, q]. With the zero point given as a column and the bias as a row, that is the
  specification's second layer applied to its hidden layer.
-/
import proofs.«127535_j57449482551364_1_alg».proof.Proof.Gen.ReferenceIdeal.Read
import proofs.«127535_j57449482551364_1_alg».proof.Proof.Spec
import Idealize.ShloMosaic.Lib.ValueIdx
import Idealize.ShloMosaic.PureOps.Ideal.Laws

noncomputable section

namespace Cert.RefSpec

open Cert.ReferenceIdeal Cert.ReferenceIdeal.Read Idealize.ShloMosaic Idealize.ShloMosaic.ValueIdx

/-- The single-precision word 0x3F800000 is the number one. -/
theorem one_word : Ideal.ofBits .f32 0x3F800000#32 = 1 := by
  simp [Ideal.ofBits, Ideal.ieee, -EReal.coe_mul]; norm_num

/-- The reference's value before the activation, at (t, h): (∑ k, x[t, k] · (w1[h, k] − zp[h, 0])) + b1[0, h]. -/
theorem pre_eq (x0 x1 : FVec Ideal S8192x4096 .f32) (x2 x3 : FVec Ideal S8192 .f32)
    (zpc : (⟨2, ![8192, 1]⟩ : Shape).Idx → EReal) (b1r : (⟨2, ![1, 8192]⟩ : Shape).Idx → EReal)
    (hz : ∀ h : Fin 8192, zpc (ix2 h (0 : Fin 1)) = x3 (ix1 h)) (hb : ∀ h : Fin 8192, b1r (ix2 (0 : Fin 1) h) = x2 (ix1 h))
    (t h : Fin 8192) :
    val_main_v6 (F := Ideal) x0 x1 x2 x3 (ix2 t h)
      = (∑ k : Fin 4096, x0 (ix2 t k) * (x1 (ix2 h k) - zpc (ix2 h (0 : Fin 1)))) + b1r (ix2 (0 : Fin 1) h) := by
  rw [val_main_v6_apply, val_main_v3_apply, val_main_v5_apply, val_main_v4_apply, Ideal.addf_def]
  have e4 : idx_main_v4 (idx_main_v5 (ix2 t h : S8192x8192.Idx)) = ix1 h :=
    funext fun a => by match a with | ⟨0, _⟩ => rfl
  rw [e4, ← hb h]
  refine congrArg (· + b1r (ix2 (0 : Fin 1) h)) (Finset.sum_congr rfl fun k _ => ?_)
  have el : lidx_main_v3 (ix2 t h : S8192x8192.Idx) k = ix2 t k :=
    funext fun a => by match a with | ⟨0, _⟩ => rfl | ⟨1, _⟩ => rfl
  have er : ridx_main_v3 (ix2 t h : S8192x8192.Idx) k = ix2 h k :=
    funext fun a => by match a with | ⟨0, _⟩ => rfl | ⟨1, _⟩ => rfl
  have e0 : idx_main_v0 (idx_main_v1 (ix2 h k : S8192x4096.Idx)) = ix1 h :=
    funext fun a => by match a with | ⟨0, _⟩ => rfl
  rw [el, er, val_main_v2_apply, val_main_v1_apply, val_main_v0_apply, e0, ← hz h, Ideal.subf_def]

/-- The reference's hidden value at (t, h) is the specification's: z · σ(z) at the value z before the activation. -/
theorem hid_eq (x0 x1 : FVec Ideal S8192x4096 .f32) (x2 x3 : FVec Ideal S8192 .f32)
    (zpc : (⟨2, ![8192, 1]⟩ : Shape).Idx → EReal) (b1r : (⟨2, ![1, 8192]⟩ : Shape).Idx → EReal)
    (hz : ∀ h : Fin 8192, zpc (ix2 h (0 : Fin 1)) = x3 (ix1 h)) (hb : ∀ h : Fin 8192, b1r (ix2 (0 : Fin 1) h) = x2 (ix1 h))
    (t h : Fin 8192) :
    val_main_v7 (F := Ideal) x0 x1 x2 x3 (ix2 t h) = Cert.Spec.hid x0 x1 zpc b1r (ix2 t h) := by
  rw [val_main_v7_apply, val_main_call0_v5_apply, val_main_call0_v4_apply, val_main_call0_cst_0_apply,
    val_main_call0_v3_apply, val_main_call0_v2_apply, val_main_call0_cst_apply, val_main_call0_v1_apply,
    val_main_call0_v0_apply, pre_eq x0 x1 x2 x3 zpc b1r hz hb t h]
  simp only [Ideal.mulf_def, Ideal.hostDivf_def, Ideal.addf_def, Ideal.hostUnary_exp_def, Ideal.hostNegf_def,
    Ideal.negf_def, Ideal.ofBits_def, one_word]
  rfl

/-- The reference's result is the specification's second layer applied to its hidden layer. -/
theorem ref_eq (x0 x1 : FVec Ideal S8192x4096 .f32) (x2 x3 : FVec Ideal S8192 .f32) (x4 : FVec Ideal S4096x8192 .f32)
    (zpc : (⟨2, ![8192, 1]⟩ : Shape).Idx → EReal) (b1r : (⟨2, ![1, 8192]⟩ : Shape).Idx → EReal)
    (hz : ∀ h : Fin 8192, zpc (ix2 h (0 : Fin 1)) = x3 (ix1 h)) (hb : ∀ h : Fin 8192, b1r (ix2 (0 : Fin 1) h) = x2 (ix1 h)) :
    val_main_v8 (F := Ideal) x0 x1 x2 x3 x4 = Cert.Spec.out (Cert.Spec.hid x0 x1 zpc b1r) x4 := by
  funext i
  obtain ⟨t, d, rfl⟩ : ∃ (t : Fin 8192) (d : Fin 4096), i = ix2 t d := ⟨i 0, i 1, eq_ix2 i⟩
  rw [val_main_v8_apply]
  unfold Cert.Spec.out
  refine Finset.sum_congr rfl fun q _ => ?_
  have el : lidx_main_v8 (ix2 t d : S8192x4096.Idx) q = ix2 t q :=
    funext fun a => by match a with | ⟨0, _⟩ => rfl | ⟨1, _⟩ => rfl
  have er : ridx_main_v8 (ix2 t d : S8192x4096.Idx) q = ix2 d q :=
    funext fun a => by match a with | ⟨0, _⟩ => rfl | ⟨1, _⟩ => rfl
  rw [el, er, hid_eq x0 x1 x2 x3 zpc b1r hz hb t q]

end Cert.RefSpec

end
-- ==== Proof.lean ====
/-
  The certificate's five claims.

  Both programs compute, over the extended reals, a two-layer perceptron: the hidden value at (t, h) is z · σ(z) of
  z = (∑ k, x[t, k] · (w1[h, k] − zp[h])) + b1[h], with σ the logistic function, and the result at (t, d) is
  ∑ h, hidden(t, h) · w2[d, h].
  The kernel does it in two launches, each walking a grid of 1024 x 1024 blocks with the contraction axis
  innermost: a scratch accumulator is zeroed at the first contraction block, gets one block product added at every
  point, and is turned into the output block at the last. That the accumulator after a point is the sum over the
  contraction positions seen so far is an induction over the grid; at the last contraction block the sum is whole,
  and the flushed blocks tile the output array. A change of float format is the identity at the ideal instance, the
  matrix unit's product into a zero accumulator is the plain sum of products, and a sum taken block by block is the
  sum: only commutativity and associativity of addition are used, so the precondition is never opened.
  The reference computes the same function in seventeen host operations; its logistic function is spelled
  1 / (1 + e^(−z)), which is σ by definition.
  The frames: each kernel program runs to the end, faulting nowhere and leaving its arguments unchanged, by the
  launch theorem for a list of segments (host operations, then the two regions), each region's body meeting its
  obligation case by case; the reference's frame is its run with the result dropped. The idealization rewrote
  nothing, so there is nothing to preserve.
-/
import proofs.«127535_j57449482551364_1_alg».proof.Defs
import proofs.«127535_j57449482551364_1_alg».proof.Proof.K.Frame
import proofs.«127535_j57449482551364_1_alg».proof.Proof.KI.Result
import proofs.«127535_j57449482551364_1_alg».proof.Proof.RefIsSpec
import proofs.«127535_j57449482551364_1_alg».proof.Proof.LibKeepdims
import proofs.«127535_j57449482551364_1_alg».proof.Proof.Gen.ReferenceIdeal.Run
import proofs.«127535_j57449482551364_1_alg».proof.Proof.Gen.ReferenceIdeal.Read
import proofs.«127535_j57449482551364_1_alg».proof.Proof.Gen.Pre_finite_inputs
import Idealize.ShloMosaic.Lib.ValueLayout
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and leaves its arguments unchanged. -/
theorem frame_k : Cert.frame_Kernel := fun m ρ _ => Cert.Kernel.Fr.frame m ρ
/-- So does its idealization. -/
theorem frame_ki : Cert.frame_KernelIdeal := fun m ρ _ => Cert.KernelIdeal.Fr.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the ideal instance the kernel's result array ends at the two-layer function of its arguments, and the
    reference's at the same function of arguments that agree: the zero point read as a column and the bias as a row
    are the vectors entry by entry. -/
theorem algebraic : Cert.algebraic_KernelIdeal_ReferenceIdeal := by
  intro m ρ m' ρ' _ hagree
  refine ⟨fun c => Cert.KernelIdeal.Fr.resultOf m c, Cert.KernelIdeal.Fr.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, (hagree c).1, (hagree c).2.1, (hagree c).2.2.1, (hagree c).2.2.2.1, (hagree c).2.2.2.2]
  exact Cert.RefSpec.ref_eq _ _ _ _ _ (Cert.KernelIdeal.Fr.zpCol m c) (Cert.KernelIdeal.Fr.b1Row m c)
    (fun h => Cert.Keepdims.shapeCast_a_a1_apply _ _ h (0 : Fin 1))
    (fun h => shapeCast_a_1a_apply _ _ (0 : Fin 1) h)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
